-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256 : Shape := ⟨2, ![128, 256]⟩
abbrev S128 : Shape := ⟨1, ![128]⟩
abbrev S128x256x5 : Shape := ⟨3, ![128, 256, 5]⟩
abbrev S128x256x3 : Shape := ⟨3, ![128, 256, 3]⟩
abbrev S128x256x300 : Shape := ⟨3, ![128, 256, 300]⟩
abbrev S_ : Shape := ⟨0, ![]⟩

class Facts : Prop where
  bcast_S_S128x256x5 : S_.BroadcastsInDim S128x256x5 (![] : Fin 0 → Fin S128x256x5.rank)
  reducesTo_S128x256x5_S_d0_1_2 : S128x256x5.ReducesTo [0, 1, 2] S_
  h_S_ : 0 < S_.numel
  bcast_S_S128x256x3 : S_.BroadcastsInDim S128x256x3 (![] : Fin 0 → Fin S128x256x3.rank)
  reducesTo_S128x256x3_S_d0_1_2 : S128x256x3.ReducesTo [0, 1, 2] S_
  bcast_S_S128x256 : S_.BroadcastsInDim S128x256 (![] : Fin 0 → Fin S128x256.rank)
  reducesTo_S128x256_S_d0_1 : S128x256.ReducesTo [0, 1] S_
  bcast_S_S128x256x300 : S_.BroadcastsInDim S128x256x300 (![] : Fin 0 → Fin S128x256x300.rank)
  reducesTo_S128x256x300_S_d0_1_2 : S128x256x300.ReducesTo [0, 1, 2] S_

variable [Facts]

def fn_part3 {F : FTy → Type} [FloatOps F] (main_arg1 : IVec S128x256 32) (main_v50 : IVec S_ 1) : IVec S_ 1 :=
  let main_c_19 : IVec S_ 32 := constantI S_ 32 0#32
  let main_v51 : IVec S128x256 32 := broadcastInDim S128x256 ![] bcast_S_S128x256 main_c_19
  let main_v52 : IVec S128x256 1 := cmpi .sge main_arg1 main_v51
  let main_c_20 : IVec S_ 32 := constantI S_ 32 3#32
  let main_v53 : IVec S128x256 32 := broadcastInDim S128x256 ![] bcast_S_S128x256 main_c_20
  let main_v54 : IVec S128x256 1 := cmpi .slt main_arg1 main_v53
  let main_v55 : IVec S128x256 1 := andi main_v52 main_v54
  let main_c_21 : IVec S_ 1 := constantI S_ 1 1#1
  let main_v56 : IVec S_ 1 := (fun x v => Host.reduce IntOp.andi x v reducesTo_S128x256_S_d0_1 h_S_) main_v55 main_c_21
  let main_v57 : IVec S_ 1 := andi main_v50 main_v56
  main_v57

def fn_part2 {F : FTy → Type} [FloatOps F] (main_arg0 : IVec S128x256 32) (main_arg1 : IVec S128x256 32) (main_arg10 : FVec F S128x256 .f32) (main_arg11 : FVec F S128x256x300 .f32) (main_v33 : IVec S_ 1) : IVec S_ 1 :=
  let main_v34 : FVec F S128x256 .f32 := Host.absf main_arg10
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128x256x300 .f32 := Host.absf main_arg11
  let main_cst_14 : FVec F S_ .f32 := constant S_ .f32 0x7F800000#32
  let main_v40 : FVec F S128x256x300 .f32 := broadcastInDim S128x256x300 ![] bcast_S_S128x256x300 main_cst_14
  let main_v41 : IVec S128x256x300 1 := cmpf .olt main_v39 main_v40
  let main_c_15 : IVec S_ 1 := constantI S_ 1 1#1
  let main_v42 : IVec S_ 1 := (fun x v => Host.reduce IntOp.andi x v reducesTo_S128x256x300_S_d0_1_2 h_S_) main_v41 main_c_15
  let main_v43 : IVec S_ 1 := andi main_v38 main_v42
  let main_c_16 : IVec S_ 32 := constantI S_ 32 0#32
  let main_v44 : IVec S128x256 32 := broadcastInDim S128x256 ![] bcast_S_S128x256 main_c_16
  let main_v45 : IVec S128x256 1 := cmpi .sge main_arg0 main_v44
  let main_c_17 : IVec S_ 32 := constantI S_ 32 5#32
  let main_v46 : IVec S128x256 32 := broadcastInDim S128x256 ![] bcast_S_S128x256 main_c_17
  let main_v47 : IVec S128x256 1 := cmpi .slt main_arg0 main_v46
  let main_v48 : IVec S128x256 1 := andi main_v45 main_v47
  let main_c_18 : IVec S_ 1 := constantI S_ 1 1#1
  let main_v49 : IVec S_ 1 := (fun x v => Host.reduce IntOp.andi x v reducesTo_S128x256_S_d0_1 h_S_) main_v48 main_c_18
  let main_v50 : IVec S_ 1 := andi main_v43 main_v49
  fn_part3 (F := F) main_arg1 main_v50

def fn_part1 {F : FTy → Type} [FloatOps F] (main_arg0 : IVec S128x256 32) (main_arg1 : IVec S128x256 32) (main_arg7 : FVec F S128x256x3 .f32) (main_arg8 : FVec F S128x256x3 .f32) (main_arg9 : FVec F S128x256 .f32) (main_arg10 : FVec F S128x256 .f32) (main_arg11 : FVec F S128x256x300 .f32) (main_v13 : IVec S_ 1) (main_v16 : IVec S128x256x3 1) : IVec S_ 1 :=
  let main_c_5 : IVec S_ 1 := constantI S_ 1 1#1
  let main_v17 : IVec S_ 1 := (fun x v => Host.reduce IntOp.andi x v reducesTo_S128x256x3_S_d0_1_2 h_S_) main_v16 main_c_5
  let main_v18 : IVec S_ 1 := andi main_v13 main_v17
  let main_v19 : FVec F S128x256x3 .f32 := Host.absf main_arg7
  let main_cst_6 : FVec F S_ .f32 := constant S_ .f32 0x7F800000#32
  let main_v20 : FVec F S128x256x3 .f32 := broadcastInDim S128x256x3 ![] bcast_S_S128x256x3 main_cst_6
  let main_v21 : IVec S128x256x3 1 := cmpf .olt main_v19 main_v20
  let main_c_7 : IVec S_ 1 := constantI S_ 1 1#1
  let main_v22 : IVec S_ 1 := (fun x v => Host.reduce IntOp.andi x v reducesTo_S128x256x3_S_d0_1_2 h_S_) main_v21 main_c_7
  let main_v23 : IVec S_ 1 := andi main_v18 main_v22
  let main_v24 : FVec F S128x256x3 .f32 := Host.absf main_arg8
  let main_cst_8 : FVec F S_ .f32 := constant S_ .f32 0x7F800000#32
  let main_v25 : FVec F S128x256x3 .f32 := broadcastInDim S128x256x3 ![] bcast_S_S128x256x3 main_cst_8
  let main_v26 : IVec S128x256x3 1 := cmpf .olt main_v24 main_v25
  let main_c_9 : IVec S_ 1 := constantI S_ 1 1#1
  let main_v27 : IVec S_ 1 := (fun x v => Host.reduce IntOp.andi x v reducesTo_S128x256x3_S_d0_1_2 h_S_) main_v26 main_c_9
  let main_v28 : IVec S_ 1 := andi main_v23 main_v27
  let main_v29 : FVec F S128x256 .f32 := Host.absf main_arg9
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg0 main_arg1 main_arg10 main_arg11 main_v33

def fn {F : FTy → Type} [FloatOps F] (main_arg0 : IVec S128x256 32) (main_arg1 : IVec S128x256 32) (main_arg2 : IVec S128 32) (main_arg3 : FVec F S128x256x5 .f32) (main_arg4 : FVec F S128x256x3 .f32) (main_arg5 : FVec F S128x256x3 .f32) (main_arg6 : FVec F S128x256x3 .f32) (main_arg7 : FVec F S128x256x3 .f32) (main_arg8 : FVec F S128x256x3 .f32) (main_arg9 : FVec F S128x256 .f32) (main_arg10 : FVec F S128x256 .f32) (main_arg11 : FVec F S128x256x300 .f32) : IVec S_ 1 :=
  let main_v0 : FVec F S128x256x5 .f32 := Host.absf main_arg3
  let main_cst : FVec F S_ .f32 := constant S_ .f32 0x7F800000#32
  let main_v1 : FVec F S128x256x5 .f32 := broadcastInDim S128x256x5 ![] bcast_S_S128x256x5 main_cst
  let main_v2 : IVec S128x256x5 1 := cmpf .olt main_v0 main_v1
  let main_c : IVec S_ 1 := constantI S_ 1 1#1
  let main_v3 : IVec S_ 1 := (fun x v => Host.reduce IntOp.andi x v reducesTo_S128x256x5_S_d0_1_2 h_S_) main_v2 main_c
  let main_v4 : FVec F S128x256x3 .f32 := Host.absf main_arg4
  let main_cst_0 : FVec F S_ .f32 := constant S_ .f32 0x7F800000#32
  let main_v5 : FVec F S128x256x3 .f32 := broadcastInDim S128x256x3 ![] bcast_S_S128x256x3 main_cst_0
  let main_v6 : IVec S128x256x3 1 := cmpf .olt main_v4 main_v5
  let main_c_1 : IVec S_ 1 := constantI S_ 1 1#1
  let main_v7 : IVec S_ 1 := (fun x v => Host.reduce IntOp.andi x v reducesTo_S128x256x3_S_d0_1_2 h_S_) main_v6 main_c_1
  let main_v8 : IVec S_ 1 := andi main_v3 main_v7
  let main_v9 : FVec F S128x256x3 .f32 := Host.absf main_arg5
  let main_cst_2 : FVec F S_ .f32 := constant S_ .f32 0x7F800000#32
  let main_v10 : FVec F S128x256x3 .f32 := broadcastInDim S128x256x3 ![] bcast_S_S128x256x3 main_cst_2
  let main_v11 : IVec S128x256x3 1 := cmpf .olt main_v9 main_v10
  let main_c_3 : IVec S_ 1 := constantI S_ 1 1#1
  let main_v12 : IVec S_ 1 := (fun x v => Host.reduce IntOp.andi x v reducesTo_S128x256x3_S_d0_1_2 h_S_) main_v11 main_c_3
  let main_v13 : IVec S_ 1 := andi main_v8 main_v12
  let main_v14 : FVec F S128x256x3 .f32 := Host.absf main_arg6
  let main_cst_4 : FVec F S_ .f32 := constant S_ .f32 0x7F800000#32
  let main_v15 : FVec F S128x256x3 .f32 := broadcastInDim S128x256x3 ![] bcast_S_S128x256x3 main_cst_4
  let main_v16 : IVec S128x256x3 1 := cmpf .olt main_v14 main_v15
  fn_part1 (F := F) main_arg0 main_arg1 main_arg7 main_arg8 main_arg9 main_arg10 main_arg11 main_v13 main_v16
-- ==== Kernel.lean ====
abbrev S128x256 : Shape := ⟨2, ![128, 256]⟩
abbrev S128 : Shape := ⟨1, ![128]⟩
abbrev S128x256x5 : Shape := ⟨3, ![128, 256, 5]⟩
abbrev S128x256x3 : Shape := ⟨3, ![128, 256, 3]⟩
abbrev S128x256x300 : Shape := ⟨3, ![128, 256, 300]⟩
abbrev S128x1x256 : Shape := ⟨3, ![128, 1, 256]⟩
abbrev S128x5x256 : Shape := ⟨3, ![128, 5, 256]⟩
abbrev S128x3x256 : Shape := ⟨3, ![128, 3, 256]⟩
abbrev S128x1x128 : Shape := ⟨3, ![128, 1, 128]⟩
abbrev S128x1x300 : Shape := ⟨3, ![128, 1, 300]⟩
abbrev S8x1x256 : Shape := ⟨3, ![8, 1, 256]⟩
abbrev S8x5x256 : Shape := ⟨3, ![8, 5, 256]⟩
abbrev S8x3x256 : Shape := ⟨3, ![8, 3, 256]⟩
abbrev S8x256x300 : Shape := ⟨3, ![8, 256, 300]⟩
abbrev S8x1x128 : Shape := ⟨3, ![8, 1, 128]⟩
abbrev S8x1x300 : Shape := ⟨3, ![8, 1, 300]⟩
abbrev S1x1x256 : Shape := ⟨3, ![1, 1, 256]⟩
abbrev S256 : Shape := ⟨1, ![256]⟩
abbrev S1x5x256 : Shape := ⟨3, ![1, 5, 256]⟩
abbrev S5x256 : Shape := ⟨2, ![5, 256]⟩
abbrev S1x3x256 : Shape := ⟨3, ![1, 3, 256]⟩
abbrev S3x256 : Shape := ⟨2, ![3, 256]⟩
abbrev S1x256x300 : Shape := ⟨3, ![1, 256, 300]⟩
abbrev S256x300 : Shape := ⟨2, ![256, 300]⟩
abbrev S1x256 : Shape := ⟨2, ![1, 256]⟩
abbrev S256x256 : Shape := ⟨2, ![256, 256]⟩
abbrev S256x1 : Shape := ⟨2, ![256, 1]⟩
abbrev S1 : Shape := ⟨1, ![1]⟩
abbrev S1x1 : Shape := ⟨2, ![1, 1]⟩
abbrev S300 : Shape := ⟨1, ![300]⟩
abbrev S1x300 : Shape := ⟨2, ![1, 300]⟩
abbrev S1x128 : Shape := ⟨2, ![1, 128]⟩
abbrev S1x1x128 : Shape := ⟨3, ![1, 1, 128]⟩
abbrev S1x1x300 : Shape := ⟨3, ![1, 1, 300]⟩
abbrev S128x1x1 : Shape := ⟨3, ![128, 1, 1]⟩
abbrev S128x300 : Shape := ⟨2, ![128, 300]⟩
abbrev S_ : Shape := ⟨0, ![]⟩
abbrev S128x1 : Shape := ⟨2, ![128, 1]⟩
abbrev S1x1x1 : Shape := ⟨3, ![1, 1, 1]⟩

abbrev nBuf : Space → Nat
  | .hbm => 87
  | .vmem => 28
  | .smem => 0
  | _ => 0

abbrev bufTy : (tb : Table) → Fin (tcTables nBuf tb) → BufTy
  | .hbm, ⟨0, _⟩ => ⟨S128x256, .i32⟩
  | .hbm, ⟨1, _⟩ => ⟨S128x256, .i32⟩
  | .hbm, ⟨2, _⟩ => ⟨S128, .i32⟩
  | .hbm, ⟨3, _⟩ => ⟨S128x256x5, .f32⟩
  | .hbm, ⟨4, _⟩ => ⟨S128x256x3, .f32⟩
  | .hbm, ⟨5, _⟩ => ⟨S128x256x3, .f32⟩
  | .hbm, ⟨6, _⟩ => ⟨S128x256x3, .f32⟩
  | .hbm, ⟨7, _⟩ => ⟨S128x256x3, .f32⟩
  | .hbm, ⟨8, _⟩ => ⟨S128x256x3, .f32⟩
  | .hbm, ⟨9, _⟩ => ⟨S128x256, .f32⟩
  | .hbm, ⟨10, _⟩ => ⟨S128x256, .f32⟩
  | .hbm, ⟨11, _⟩ => ⟨S128x256x300, .f32⟩
  | .hbm, ⟨12, _⟩ => ⟨S128x1x256, .i32⟩
  | .hbm, ⟨13, _⟩ => ⟨S128x1x256, .i32⟩
  | .hbm, ⟨14, _⟩ => ⟨S128x1x256, .f32⟩
  | .hbm, ⟨15, _⟩ => ⟨S128x1x256, .f32⟩
  | .hbm, ⟨16, _⟩ => ⟨S128x5x256, .f32⟩
  | .hbm, ⟨17, _⟩ => ⟨S128x3x256, .f32⟩
  | .hbm, ⟨18, _⟩ => ⟨S128x3x256, .f32⟩
  | .hbm, ⟨19, _⟩ => ⟨S128x3x256, .f32⟩
  | .hbm, ⟨20, _⟩ => ⟨S128x3x256, .f32⟩
  | .hbm, ⟨21, _⟩ => ⟨S128x3x256, .f32⟩
  | .hbm, ⟨22, _⟩ => ⟨S128x1x128, .f32⟩
  | .hbm, ⟨23, _⟩ => ⟨S128x1x128, .f32⟩
  | .hbm, ⟨24, _⟩ => ⟨S128x1x300, .f32⟩
  | .hbm, ⟨25, _⟩ => ⟨S128x1x1, .f32⟩
  | .hbm, ⟨26, _⟩ => ⟨S128, .f32⟩
  | .hbm, ⟨27, _⟩ => ⟨S128x1x1, .f32⟩
  | .hbm, ⟨28, _⟩ => ⟨S128, .f32⟩
  | .hbm, ⟨29, _⟩ => ⟨S128x300, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S128x300, .f32⟩
  | .hbm, ⟨40, _⟩ => ⟨S128x300, .f32⟩
  | .hbm, ⟨41, _⟩ => ⟨S_, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S128x1, .f32⟩
  | .hbm, ⟨47, _⟩ => ⟨S128x300, .f32⟩
  | .hbm, ⟨48, _⟩ => ⟨S128x300, .f32⟩
  | .hbm, ⟨49, _⟩ => ⟨S128x300, .f32⟩
  | .hbm, ⟨50, _⟩ => ⟨S_, .f32⟩
  | .hbm, ⟨51, _⟩ => ⟨S128, .f32⟩
  | .hbm, ⟨52, _⟩ => ⟨S128x1, .f32⟩
  | .hbm, ⟨53, _⟩ => ⟨S128x1, .f32⟩
  | .hbm, ⟨54, _⟩ => ⟨S128x300, .f32⟩
  | .hbm, ⟨55, _⟩ => ⟨S128x300, .f32⟩
  | .hbm, ⟨56, _⟩ => ⟨S128x1, .i32⟩
  | .hbm, ⟨57, _⟩ => ⟨S_, .i32⟩
  | .hbm, ⟨58, _⟩ => ⟨S128x1, .i32⟩
  | .hbm, ⟨59, _⟩ => ⟨S128x1, .i1⟩
  | .hbm, ⟨60, _⟩ => ⟨S_, .i32⟩
  | .hbm, ⟨61, _⟩ => ⟨S128x1, .i32⟩
  | .hbm, ⟨62, _⟩ => ⟨S128x1, .i32⟩
  | .hbm, ⟨63, _⟩ => ⟨S128x1, .i32⟩
  | .hbm, ⟨64, _⟩ => ⟨S128x1x1, .i32⟩
  | .hbm, ⟨65, _⟩ => ⟨S1, .i32⟩
  | .hbm, ⟨66, _⟩ => ⟨S_, .i32⟩
  | .hbm, ⟨67, _⟩ => ⟨S128x1x1, .i32⟩
  | .hbm, ⟨68, _⟩ => ⟨S128x1x1, .i1⟩
  | .hbm, ⟨69, _⟩ => ⟨S1x1x1, .i32⟩
  | .hbm, ⟨70, _⟩ => ⟨S128x1x1, .i32⟩
  | .hbm, ⟨71, _⟩ => ⟨S128x1x1, .i1⟩
  | .hbm, ⟨72, _⟩ => ⟨S128x1x1, .i1⟩
  | .hbm, ⟨73, _⟩ => ⟨S_, .i1⟩
  | .hbm, ⟨74, _⟩ => ⟨S128x1, .i1⟩
  | .hbm, ⟨75, _⟩ => ⟨S128x1, .f32⟩
  | .hbm, ⟨76, _⟩ => ⟨S_, .f32⟩
  | .hbm, ⟨77, _⟩ => ⟨S128x1, .f32⟩
  | .hbm, ⟨78, _⟩ => ⟨S128x1, .f32⟩
  | .hbm, ⟨79, _⟩ => ⟨S128, .f32⟩
  | .hbm, ⟨80, _⟩ => ⟨S128, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .local _ .vmem, ⟨0, _⟩ => ⟨S8x1x256, .i32⟩
  | .local _ .vmem, ⟨1, _⟩ => ⟨S8x1x256, .i32⟩
  | .local _ .vmem, ⟨2, _⟩ => ⟨S8x1x256, .i32⟩
  | .local _ .vmem, ⟨3, _⟩ => ⟨S8x1x256, .i32⟩
  | .local _ .vmem, ⟨4, _⟩ => ⟨S8x5x256, .f32⟩
  | .local _ .vmem, ⟨5, _⟩ => ⟨S8x5x256, .f32⟩
  | .local _ .vmem, ⟨6, _⟩ => ⟨S8x3x256, .f32⟩
  | .local _ .vmem, ⟨7, _⟩ => ⟨S8x3x256, .f32⟩
  | .local _ .vmem, ⟨8, _⟩ => ⟨S8x3x256, .f32⟩
  | .local _ .vmem, ⟨9, _⟩ => ⟨S8x3x256, .f32⟩
  | .local _ .vmem, ⟨10, _⟩ => ⟨S8x3x256, .f32⟩
  | .local _ .vmem, ⟨11, _⟩ => ⟨S8x3x256, .f32⟩
  | .local _ .vmem, ⟨12, _⟩ => ⟨S8x3x256, .f32⟩
  | .local _ .vmem, ⟨13, _⟩ => ⟨S8x3x256, .f32⟩
  | .local _ .vmem, ⟨14, _⟩ => ⟨S8x3x256, .f32⟩
  | .local _ .vmem, ⟨15, _⟩ => ⟨S8x3x256, .f32⟩
  | .local _ .vmem, ⟨16, _⟩ => ⟨S8x1x256, .f32⟩
  | .local _ .vmem, ⟨17, _⟩ => ⟨S8x1x256, .f32⟩
  | .local _ .vmem, ⟨18, _⟩ => ⟨S8x1x256, .f32⟩
  | .local _ .vmem, ⟨19, _⟩ => ⟨S8x1x256, .f32⟩
  | .local _ .vmem, ⟨20, _⟩ => ⟨S8x256x300, .f32⟩
  | .local _ .vmem, ⟨21, _⟩ => ⟨S8x256x300, .f32⟩
  | .local _ .vmem, ⟨22, _⟩ => ⟨S8x1x128, .f32⟩
  | .local _ .vmem, ⟨23, _⟩ => ⟨S8x1x128, .f32⟩
  | .local _ .vmem, ⟨24, _⟩ => ⟨S8x1x128, .f32⟩
  | .local _ .vmem, ⟨25, _⟩ => ⟨S8x1x128, .f32⟩
  | .local _ .vmem, ⟨26, _⟩ => ⟨S8x1x300, .f32⟩
  | .local _ .vmem, ⟨27, _⟩ => ⟨S8x1x300, .f32⟩
  | _, _ => ⟨S128x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_call0_cst : Ref sig .tc := ⟨.hbm, 41, rfl⟩
abbrev main_call0_v0 : Ref sig .tc := ⟨.hbm, 42, rfl⟩
abbrev main_call0_cst_0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_cst_1 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_v22 : Ref sig .tc := ⟨.hbm, 55, rfl⟩
abbrev main_v23 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_cst : Ref sig .tc := ⟨.hbm, 76, rfl⟩
abbrev main_call1_v14 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_cst_4 : Ref sig .tc := ⟨.hbm, 81, rfl⟩
abbrev main_v27 : Ref sig .tc := ⟨.hbm, 82, rfl⟩
abbrev main_cst_5 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x5x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x300 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1x300 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S128x256_S128x1x256_0_2 : S128x256.BroadcastsInDim S128x1x256 (![0, 2] : Fin 2 → Fin S128x1x256.rank)
  transposes_S128x256x5_S128x5x256_0_2_1 : S128x256x5.Transposes [0, 2, 1] S128x5x256
  transposes_S128x256x3_S128x3x256_0_2_1 : S128x256x3.Transposes [0, 2, 1] S128x3x256
  inb_S8x1x256_S8x1x256_0_0_0 : ∀ a, (![0, 0, 0] : Fin 3 → Nat) a + S8x1x256.size a ≤ S8x1x256.size a
  h_S8x1x256 : 0 < S8x1x256.numel
  shapeCasts_S8x1x256_S8x1x256 : S8x1x256.ShapeCasts S8x1x256
  inb_S8x5x256_S8x5x256_0_0_0 : ∀ a, (![0, 0, 0] : Fin 3 → Nat) a + S8x5x256.size a ≤ S8x5x256.size a
  h_S8x5x256 : 0 < S8x5x256.numel
  shapeCasts_S8x5x256_S8x5x256 : S8x5x256.ShapeCasts S8x5x256
  inb_S8x3x256_S8x3x256_0_0_0 : ∀ a, (![0, 0, 0] : Fin 3 → Nat) a + S8x3x256.size a ≤ S8x3x256.size a
  h_S8x3x256 : 0 < S8x3x256.numel
  shapeCasts_S8x3x256_S8x3x256 : S8x3x256.ShapeCasts S8x3x256
  inb_S8x256x300_S8x256x300_0_0_0 : ∀ a, (![0, 0, 0] : Fin 3 → Nat) a + S8x256x300.size a ≤ S8x256x300.size a
  h_S8x256x300 : 0 < S8x256x300.numel
  slices_S8x1x256_o0_0_0_S1x1x256 : S8x1x256.Slices ![0, 0, 0] S1x1x256
  shapeCasts_S1x1x256_S256 : S1x1x256.ShapeCasts S256
  slices_S8x5x256_o0_0_0_S1x5x256 : S8x5x256.Slices ![0, 0, 0] S1x5x256
  shapeCasts_S1x5x256_S5x256 : S1x5x256.ShapeCasts S5x256
  slices_S8x3x256_o0_0_0_S1x3x256 : S8x3x256.Slices ![0, 0, 0] S1x3x256
  shapeCasts_S1x3x256_S3x256 : S1x3x256.ShapeCasts S3x256
  slices_S8x256x300_o0_0_0_S1x256x300 : S8x256x300.Slices ![0, 0, 0] S1x256x300
  shapeCasts_S1x256x300_S256x300 : S1x256x300.ShapeCasts S256x300
  reduces_S5x256_S256 : S5x256.Reduces [0] S256
  shapeCasts_S256_S1x256 : S256.ShapeCasts S1x256
  broadcasts_S1x256_S5x256 : S1x256.Broadcasts S5x256
  reduces_S3x256_S256 : S3x256.Reduces [0] S256
  broadcasts_S1x256_S3x256 : S1x256.Broadcasts S3x256
  natLt_1_32 : 1 < 32
  shapeCasts_S256_S256x1 : S256.ShapeCasts S256x1
  slices_S5x256_o0_0_S1x256 : S5x256.Slices ![0, 0] S1x256
  shapeCasts_S1x256_S256 : S1x256.ShapeCasts S256
  broadcasts_S256x1_S256x256 : S256x1.Broadcasts S256x256
  broadcasts_S1x256_S256x256 : S1x256.Broadcasts S256x256
  slices_S5x256_o1_0_S1x256 : S5x256.Slices ![1, 0] S1x256
  slices_S5x256_o2_0_S1x256 : S5x256.Slices ![2, 0] S1x256
  slices_S5x256_o3_0_S1x256 : S5x256.Slices ![3, 0] S1x256
  slices_S5x256_o4_0_S1x256 : S5x256.Slices ![4, 0] S1x256
  slices_S3x256_o0_0_S1x256 : S3x256.Slices ![0, 0] S1x256
  slices_S3x256_o1_0_S1x256 : S3x256.Slices ![1, 0] S1x256
  slices_S3x256_o2_0_S1x256 : S3x256.Slices ![2, 0] S1x256
  reduces_S256x256_S256 : S256x256.Reduces [1] S256
  reduces_S256x256_S256_2 : S256x256.Reduces [0] S256
  reduces_S256x1_S1 : S256x1.Reduces [0] S1
  shapeCasts_S1_S1x1 : S1.ShapeCasts S1x1
  reduces_S1x256_S1 : S1x256.Reduces [1] S1
  reduces_S256x300_S300 : S256x300.Reduces [0] S300
  shapeCasts_S300_S1x300 : S300.ShapeCasts S1x300
  shapeCasts_S1x1_S1x1 : S1x1.ShapeCasts S1x1
  broadcasts_S1x1_S1x128 : S1x1.Broadcasts S1x128
  inb_S8x1x128_S1x1x128_0_0_0 : ∀ a, (![0, 0, 0] : Fin 3 → Nat) a + S1x1x128.size a ≤ S8x1x128.size a
  h_S1x1x128 : 0 < S1x1x128.numel
  shapeCasts_S1x1x128_S1x128 : S1x1x128.ShapeCasts S1x128
  shapeCasts_S1x128_S1x1x128 : S1x128.ShapeCasts S1x1x128
  inb_S8x1x300_S1x1x300_0_0_0 : ∀ a, (![0, 0, 0] : Fin 3 → Nat) a + S1x1x300.size a ≤ S8x1x300.size a
  h_S1x1x300 : 0 < S1x1x300.numel
  shapeCasts_S1x1x300_S1x300 : S1x1x300.ShapeCasts S1x300
  shapeCasts_S1x300_S1x1x300 : S1x300.ShapeCasts S1x1x300
  slices_S8x1x256_o1_0_0_S1x1x256 : S8x1x256.Slices ![1, 0, 0] S1x1x256
  slices_S8x5x256_o1_0_0_S1x5x256 : S8x5x256.Slices ![1, 0, 0] S1x5x256
  slices_S8x3x256_o1_0_0_S1x3x256 : S8x3x256.Slices ![1, 0, 0] S1x3x256
  slices_S8x256x300_o1_0_0_S1x256x300 : S8x256x300.Slices ![1, 0, 0] S1x256x300
  inb_S8x1x128_S1x1x128_1_0_0 : ∀ a, (![1, 0, 0] : Fin 3 → Nat) a + S1x1x128.size a ≤ S8x1x128.size a
  inb_S8x1x300_S1x1x300_1_0_0 : ∀ a, (![1, 0, 0] : Fin 3 → Nat) a + S1x1x300.size a ≤ S8x1x300.size a
  slices_S8x1x256_o2_0_0_S1x1x256 : S8x1x256.Slices ![2, 0, 0] S1x1x256
  slices_S8x5x256_o2_0_0_S1x5x256 : S8x5x256.Slices ![2, 0, 0] S1x5x256
  slices_S8x3x256_o2_0_0_S1x3x256 : S8x3x256.Slices ![2, 0, 0] S1x3x256
  slices_S8x256x300_o2_0_0_S1x256x300 : S8x256x300.Slices ![2, 0, 0] S1x256x300
  inb_S8x1x128_S1x1x128_2_0_0 : ∀ a, (![2, 0, 0] : Fin 3 → Nat) a + S1x1x128.size a ≤ S8x1x128.size a
  inb_S8x1x300_S1x1x300_2_0_0 : ∀ a, (![2, 0, 0] : Fin 3 → Nat) a + S1x1x300.size a ≤ S8x1x300.size a
  slices_S8x1x256_o3_0_0_S1x1x256 : S8x1x256.Slices ![3, 0, 0] S1x1x256
  slices_S8x5x256_o3_0_0_S1x5x256 : S8x5x256.Slices ![3, 0, 0] S1x5x256
  slices_S8x3x256_o3_0_0_S1x3x256 : S8x3x256.Slices ![3, 0, 0] S1x3x256
  slices_S8x256x300_o3_0_0_S1x256x300 : S8x256x300.Slices ![3, 0, 0] S1x256x300
  inb_S8x1x128_S1x1x128_3_0_0 : ∀ a, (![3, 0, 0] : Fin 3 → Nat) a + S1x1x128.size a ≤ S8x1x128.size a
  inb_S8x1x300_S1x1x300_3_0_0 : ∀ a, (![3, 0, 0] : Fin 3 → Nat) a + S1x1x300.size a ≤ S8x1x300.size a
  slices_S8x1x256_o4_0_0_S1x1x256 : S8x1x256.Slices ![4, 0, 0] S1x1x256
  slices_S8x5x256_o4_0_0_S1x5x256 : S8x5x256.Slices ![4, 0, 0] S1x5x256
  slices_S8x3x256_o4_0_0_S1x3x256 : S8x3x256.Slices ![4, 0, 0] S1x3x256
  slices_S8x256x300_o4_0_0_S1x256x300 : S8x256x300.Slices ![4, 0, 0] S1x256x300
  inb_S8x1x128_S1x1x128_4_0_0 : ∀ a, (![4, 0, 0] : Fin 3 → Nat) a + S1x1x128.size a ≤ S8x1x128.size a
  inb_S8x1x300_S1x1x300_4_0_0 : ∀ a, (![4, 0, 0] : Fin 3 → Nat) a + S1x1x300.size a ≤ S8x1x300.size a
  slices_S8x1x256_o5_0_0_S1x1x256 : S8x1x256.Slices ![5, 0, 0] S1x1x256
  slices_S8x5x256_o5_0_0_S1x5x256 : S8x5x256.Slices ![5, 0, 0] S1x5x256
  slices_S8x3x256_o5_0_0_S1x3x256 : S8x3x256.Slices ![5, 0, 0] S1x3x256
  slices_S8x256x300_o5_0_0_S1x256x300 : S8x256x300.Slices ![5, 0, 0] S1x256x300
  inb_S8x1x128_S1x1x128_5_0_0 : ∀ a, (![5, 0, 0] : Fin 3 → Nat) a + S1x1x128.size a ≤ S8x1x128.size a
  inb_S8x1x300_S1x1x300_5_0_0 : ∀ a, (![5, 0, 0] : Fin 3 → Nat) a + S1x1x300.size a ≤ S8x1x300.size a
  slices_S8x1x256_o6_0_0_S1x1x256 : S8x1x256.Slices ![6, 0, 0] S1x1x256
  slices_S8x5x256_o6_0_0_S1x5x256 : S8x5x256.Slices ![6, 0, 0] S1x5x256
  slices_S8x3x256_o6_0_0_S1x3x256 : S8x3x256.Slices ![6, 0, 0] S1x3x256
  slices_S8x256x300_o6_0_0_S1x256x300 : S8x256x300.Slices ![6, 0, 0] S1x256x300
  inb_S8x1x128_S1x1x128_6_0_0 : ∀ a, (![6, 0, 0] : Fin 3 → Nat) a + S1x1x128.size a ≤ S8x1x128.size a
  inb_S8x1x300_S1x1x300_6_0_0 : ∀ a, (![6, 0, 0] : Fin 3 → Nat) a + S1x1x300.size a ≤ S8x1x300.size a
  slices_S8x1x256_o7_0_0_S1x1x256 : S8x1x256.Slices ![7, 0, 0] S1x1x256
  slices_S8x5x256_o7_0_0_S1x5x256 : S8x5x256.Slices ![7, 0, 0] S1x5x256
  slices_S8x3x256_o7_0_0_S1x3x256 : S8x3x256.Slices ![7, 0, 0] S1x3x256
  slices_S8x256x300_o7_0_0_S1x256x300 : S8x256x300.Slices ![7, 0, 0] S1x256x300
  inb_S8x1x128_S1x1x128_7_0_0 : ∀ a, (![7, 0, 0] : Fin 3 → Nat) a + S1x1x128.size a ≤ S8x1x128.size a
  inb_S8x1x300_S1x1x300_7_0_0 : ∀ a, (![7, 0, 0] : Fin 3 → Nat) a + S1x1x300.size a ≤ S8x1x300.size a
  slices_S128x1x128_S128x1x1_0_0_0 : S128x1x128.Slices ![0, 0, 0] S128x1x1
  shapeCasts_S128x1x1_S128 : S128x1x1.ShapeCasts S128
  shapeCasts_S128x1x300_S128x300 : S128x1x300.ShapeCasts S128x300
  reducesTo_S128_S_d0 : S128.ReducesTo [0] S_
  h_S_ : 0 < S_.numel
  bcast_S_S128x300 : S_.BroadcastsInDim S128x300 (![] : Fin 0 → Fin S128x300.rank)
  reducesTo_S128x300_S128_d1 : S128x300.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x300_0_1 : S128x1.BroadcastsInDim S128x300 (![0, 1] : Fin 2 → Fin S128x300.rank)
  bcast_S_S128x1 : S_.BroadcastsInDim S128x1 (![] : Fin 0 → Fin S128x1.rank)
  shapeCasts_S128x1_S128x1x1 : S128x1.ShapeCasts S128x1x1
  bcast_S_S128x1x1 : S_.BroadcastsInDim S128x1x1 (![] : Fin 0 → Fin S128x1x1.rank)
  bcast_S1_S1x1x1_2 : S1.BroadcastsInDim S1x1x1 (![2] : Fin 1 → Fin S1x1x1.rank)
  bcast_S1x1x1_S128x1x1_0_1_2 : S1x1x1.BroadcastsInDim S128x1x1 (![0, 1, 2] : Fin 3 → Fin S128x1x1.rank)
  reducesTo_S128x1x1_S128x1_d2 : S128x1x1.ReducesTo [2] S128x1
  shapeCasts_S128x1_S128 : S128x1.ShapeCasts S128
  gather_S128x300_S128x1x1_S128x1_n_1_0_0_1_2_11_wf : GatherDims.WF S128x300 S128x1x1 S128x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x256.size a ≤ S128x1x256.size a
  hwx0_0 : ∀ i : grid0.Coords, EltTy.bits .i32 = 32 ∨ (Rect.block (s := S128x1x256) S8x1x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x256.size a ≤ S128x1x256.size a
  hwx0_1 : ∀ i : grid0.Coords, EltTy.bits .i32 = 32 ∨ (Rect.block (s := S128x1x256) S8x1x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x5x256.size a ≤ S128x5x256.size a
  hwx0_2 : ∀ i : grid0.Coords, EltTy.bits .f32 = 32 ∨ (Rect.block (s := S128x5x256) S8x5x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x3x256.size a ≤ S128x3x256.size a
  hwx0_3 : ∀ i : grid0.Coords, EltTy.bits .f32 = 32 ∨ (Rect.block (s := S128x3x256) S8x3x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x3x256.size a ≤ S128x3x256.size a
  hwx0_4 : ∀ i : grid0.Coords, EltTy.bits .f32 = 32 ∨ (Rect.block (s := S128x3x256) S8x3x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x3x256.size a ≤ S128x3x256.size a
  hwx0_5 : ∀ i : grid0.Coords, EltTy.bits .f32 = 32 ∨ (Rect.block (s := S128x3x256) S8x3x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x3x256.size a ≤ S128x3x256.size a
  hwx0_6 : ∀ i : grid0.Coords, EltTy.bits .f32 = 32 ∨ (Rect.block (s := S128x3x256) S8x3x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x3x256.size a ≤ S128x3x256.size a
  hwx0_7 : ∀ i : grid0.Coords, EltTy.bits .f32 = 32 ∨ (Rect.block (s := S128x3x256) S8x3x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x1x256.size a ≤ S128x1x256.size a
  hwx0_8 : ∀ i : grid0.Coords, EltTy.bits .f32 = 32 ∨ (Rect.block (s := S128x1x256) S8x1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x1x256.size a ≤ S128x1x256.size a
  hwx0_9 : ∀ i : grid0.Coords, EltTy.bits .f32 = 32 ∨ (Rect.block (s := S128x1x256) S8x1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x256x300.size a ≤ S128x256x300.size a
  hwx0_10 : ∀ i : grid0.Coords, EltTy.bits .f32 = 32 ∨ (Rect.block (s := S128x256x300) S8x256x300.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x1x128.size a ≤ S128x1x128.size a
  hwx0_11 : ∀ i : grid0.Coords, EltTy.bits .f32 = 32 ∨ (Rect.block (s := S128x1x128) S8x1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S8x1x128.size a ≤ S128x1x128.size a
  hwx0_12 : ∀ i : grid0.Coords, EltTy.bits .f32 = 32 ∨ (Rect.block (s := S128x1x128) S8x1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8x1x300.size a ≤ S128x1x300.size a
  hwx0_13 : ∀ i : grid0.Coords, EltTy.bits .f32 = 32 ∨ (Rect.block (s := S128x1x300) S8x1x300.size (cc0_transform_13 i) (hinb0_13 i)).WholeWords (EltTy.packing .f32)

variable [Facts₀]

def gather_S128x300_S128x1x1_S128x1_n_1_0_0_1_2_11 : GatherDims S128x300 S128x1x1 S128x1 where
  offsetDims := []
  collapsedSliceDims := [1]
  operandBatchingDims := [0]
  startIndicesBatchingDims := [0]
  startIndexMap := [1]
  indexVectorDim := 2
  sliceSizes := ![1, 1]
  wf := gather_S128x300_S128x1x1_S128x1_n_1_0_0_1_2_11_wf

abbrev win0_0 : Pipeline.Window sig grid0 :=
  Pipeline.Window.ofSpec (Memref.whole main_v0) S8x1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x5x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x3x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S8x3x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S8x3x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S8x3x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S8x3x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2) S8x1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3) S8x1x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S8x256x300.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_0) S8x1x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v10_1) S8x1x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v10_2) S8x1x300.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S128x256 : Shape := ⟨2, ![128, 256]⟩
abbrev S128 : Shape := ⟨1, ![128]⟩
abbrev S128x256x5 : Shape := ⟨3, ![128, 256, 5]⟩
abbrev S128x256x3 : Shape := ⟨3, ![128, 256, 3]⟩
abbrev S128x256x300 : Shape := ⟨3, ![128, 256, 300]⟩
abbrev S_ : Shape := ⟨0, ![]⟩
abbrev S128x256x1 : Shape := ⟨3, ![128, 256, 1]⟩
abbrev S128x256x1x1 : Shape := ⟨4, ![128, 256, 1, 1]⟩
abbrev S128x1x256x5 : Shape := ⟨4, ![128, 1, 256, 5]⟩
abbrev S1 : Shape := ⟨1, ![1]⟩
abbrev S1x1x1x1 : Shape := ⟨4, ![1, 1, 1, 1]⟩
abbrev S128x256x256x1 : Shape := ⟨4, ![128, 256, 256, 1]⟩
abbrev S128x256x256 : Shape := ⟨3, ![128, 256, 256]⟩
abbrev S128x1x256x3 : Shape := ⟨4, ![128, 1, 256, 3]⟩
abbrev S128x256x1x3 : Shape := ⟨4, ![128, 256, 1, 3]⟩
abbrev S128x256x256x3 : Shape := ⟨4, ![128, 256, 256, 3]⟩
abbrev S128x1x256 : Shape := ⟨3, ![128, 1, 256]⟩
abbrev S128x300 : Shape := ⟨2, ![128, 300]⟩
abbrev S128x1 : Shape := ⟨2, ![128, 1]⟩
abbrev S128x1x1 : Shape := ⟨3, ![128, 1, 1]⟩
abbrev S1x1x1 : Shape := ⟨3, ![1, 1, 1]⟩

abbrev nBuf : Space → Nat
  | .hbm => 191
  | .vmem => 0
  | .smem => 0
  | _ => 0

abbrev hbmTy0_0 (i : Nat) : BufTy := match i % 128 with
  | 0 => ⟨S128x256, .i32⟩
  | 1 => ⟨S128x256, .i32⟩
  | 2 => ⟨S128, .i32⟩
  | 3 => ⟨S128x256x5, .f32⟩
  | 4 => ⟨S128x256x3, .f32⟩
  | 5 => ⟨S128x256x3, .f32⟩
  | 6 => ⟨S128x256x3, .f32⟩
  | 7 => ⟨S128x256x3, .f32⟩
  | 8 => ⟨S128x256x3, .f32⟩
  | 9 => ⟨S128x256, .f32⟩
  | 10 => ⟨S128x256, .f32⟩
  | 11 => ⟨S128x256x300, .f32⟩
  | 12 => ⟨S_, .f32⟩
  | 13 => ⟨S128x256, .f32⟩
  | 14 => ⟨S_, .f32⟩
  | 15 => ⟨S128x256, .f32⟩
  | 16 => ⟨S128x256, .f32⟩
  | 17 => ⟨S128x256x1, .f32⟩
  | 18 => ⟨S128x256x5, .f32⟩
  | 19 => ⟨S128x256x5, .f32⟩
  | 20 => ⟨S128x256x5, .f32⟩
  | 21 => ⟨S_, .f32⟩
  | 22 => ⟨S128x256, .f32⟩
  | 23 => ⟨S128x256x1, .f32⟩
  | 24 => ⟨S128x256x1, .f32⟩
  | 25 => ⟨S128x256x5, .f32⟩
  | 26 => ⟨S128x256x5, .f32⟩
  | 27 => ⟨S128x256x1x1, .i32⟩
  | 28 => ⟨S128x1x256x5, .f32⟩
  | 29 => ⟨S_, .i32⟩
  | 30 => ⟨S128x256x1x1, .i32⟩
  | 31 => ⟨S128x256x1x1, .i1⟩
  | 32 => ⟨S_, .i32⟩
  | 33 => ⟨S128x256x1x1, .i32⟩
  | 34 => ⟨S128x256x1x1, .i32⟩
  | 35 => ⟨S128x256x1x1, .i32⟩
  | 36 => ⟨S128x256x5, .f32⟩
  | 37 => ⟨S1, .i32⟩
  | 38 => ⟨S_, .i32⟩
  | 39 => ⟨S128x256x1x1, .i32⟩
  | 40 => ⟨S128x256x1x1, .i1⟩
  | 41 => ⟨S1x1x1x1, .i32⟩
  | 42 => ⟨S128x256x1x1, .i32⟩
  | 43 => ⟨S128x256x1x1, .i1⟩
  | 44 => ⟨S128x256x1x1, .i1⟩
  | 45 => ⟨S_, .i1⟩
  | 46 => ⟨S128x256x1, .i1⟩
  | 47 => ⟨S128x256x256x1, .f32⟩
  | 48 => ⟨S128x256x256x1, .i1⟩
  | 49 => ⟨S_, .f32⟩
  | 50 => ⟨S128x256x256x1, .f32⟩
  | 51 => ⟨S128x256x256x1, .f32⟩
  | 52 => ⟨S128x256x256, .f32⟩
  | 53 => ⟨S128x256x256, .f32⟩
  | 54 => ⟨S_, .f32⟩
  | 55 => ⟨S128x256, .f32⟩
  | 56 => ⟨S_, .f32⟩
  | 57 => ⟨S128x256, .f32⟩
  | 58 => ⟨S128x256, .f32⟩
  | 59 => ⟨S128x256x1, .f32⟩
  | 60 => ⟨S128x256x3, .f32⟩
  | 61 => ⟨S128x256x3, .f32⟩
  | 62 => ⟨S128x256x3, .f32⟩
  | 63 => ⟨S_, .f32⟩
  | 64 => ⟨S128x256, .f32⟩
  | 65 => ⟨S128x256x1, .f32⟩
  | 66 => ⟨S128x256x1, .f32⟩
  | 67 => ⟨S128x256x3, .f32⟩
  | 68 => ⟨S128x256x3, .f32⟩
  | 69 => ⟨S128x256x1x1, .i32⟩
  | 70 => ⟨S128x1x256x3, .f32⟩
  | 71 => ⟨S_, .i32⟩
  | 72 => ⟨S128x256x1x1, .i32⟩
  | 73 => ⟨S128x256x1x1, .i1⟩
  | 74 => ⟨S_, .i32⟩
  | 75 => ⟨S128x256x1x1, .i32⟩
  | 76 => ⟨S128x256x1x1, .i32⟩
  | 77 => ⟨S128x256x1x1, .i32⟩
  | 78 => ⟨S128x256x3, .f32⟩
  | 79 => ⟨S1, .i32⟩
  | 80 => ⟨S_, .i32⟩
  | 81 => ⟨S128x256x1x1, .i32⟩
  | 82 => ⟨S128x256x1x1, .i1⟩
  | 83 => ⟨S1x1x1x1, .i32⟩
  | 84 => ⟨S128x256x1x1, .i32⟩
  | 85 => ⟨S128x256x1x1, .i1⟩
  | 86 => ⟨S128x256x1x1, .i1⟩
  | 87 => ⟨S_, .i1⟩
  | 88 => ⟨S128x256x1, .i1⟩
  | 89 => ⟨S128x256x256x1, .f32⟩
  | 90 => ⟨S128x256x256x1, .i1⟩
  | 91 => ⟨S_, .f32⟩
  | 92 => ⟨S128x256x256x1, .f32⟩
  | 93 => ⟨S128x256x256x1, .f32⟩
  | 94 => ⟨S128x256x256, .f32⟩
  | 95 => ⟨S128x256x256, .f32⟩
  | 96 => ⟨S128x256x1x3, .f32⟩
  | 97 => ⟨S128x1x256x3, .f32⟩
  | 98 => ⟨S128x256x256x3, .f32⟩
  | 99 => ⟨S128x256x256x3, .f32⟩
  | 100 => ⟨S128x256x256x3, .f32⟩
  | 101 => ⟨S128x256x256x3, .f32⟩
  | 102 => ⟨S_, .f32⟩
  | 103 => ⟨S128x256x256, .f32⟩
  | 104 => ⟨S128x256x256, .f32⟩
  | 105 => ⟨S128x256x1x3, .f32⟩
  | 106 => ⟨S128x1x256x3, .f32⟩
  | 107 => ⟨S128x256x256x3, .f32⟩
  | 108 => ⟨S128x256x256x3, .f32⟩
  | 109 => ⟨S128x256x256x3, .f32⟩
  | 110 => ⟨S128x256x256x3, .f32⟩
  | 111 => ⟨S_, .f32⟩
  | 112 => ⟨S128x256x256, .f32⟩
  | 113 => ⟨S128x256x256, .f32⟩
  | 114 => ⟨S128x256x1, .f32⟩
  | 115 => ⟨S128x1x256, .f32⟩
  | 116 => ⟨S128x256x256, .f32⟩
  | 117 => ⟨S128x256x256, .f32⟩
  | 118 => ⟨S128x256x256, .f32⟩
  | 119 => ⟨S128x256x256, .f32⟩
  | 120 => ⟨S128x256x256, .f32⟩
  | 121 => ⟨S128x256x256, .f32⟩
  | 122 => ⟨S128x256x256, .f32⟩
  | 123 => ⟨S128x256x256, .f32⟩
  | 124 => ⟨S_, .f32⟩
  | 125 => ⟨S128x256, .f32⟩
  | 126 => ⟨S_, .f32⟩
  | 127 => ⟨S128x256, .f32⟩
  | _ => ⟨S128x256, .i32⟩

abbrev hbmTy0_1 (i : Nat) : BufTy := match i % 128 with
  | 0 => ⟨S_, .f32⟩
  | 1 => ⟨S128, .f32⟩
  | 2 => ⟨S_, .f32⟩
  | 3 => ⟨S_, .f32⟩
  | 4 => ⟨S_, .f32⟩
  | 5 => ⟨S_, .f32⟩
  | 6 => ⟨S_, .f32⟩
  | 7 => ⟨S128, .f32⟩
  | 8 => ⟨S_, .f32⟩
  | 9 => ⟨S_, .f32⟩
  | 10 => ⟨S_, .f32⟩
  | 11 => ⟨S_, .f32⟩
  | 12 => ⟨S_, .f32⟩
  | 13 => ⟨S128x300, .f32⟩
  | 14 => ⟨S_, .f32⟩
  | 15 => ⟨S128x300, .f32⟩
  | 16 => ⟨S128x300, .f32⟩
  | 17 => ⟨S_, .f32⟩
  | 18 => ⟨S128, .f32⟩
  | 19 => ⟨S_, .f32⟩
  | 20 => ⟨S128, .f32⟩
  | 21 => ⟨S128, .f32⟩
  | 22 => ⟨S128x1, .f32⟩
  | 23 => ⟨S128x300, .f32⟩
  | 24 => ⟨S128x300, .f32⟩
  | 25 => ⟨S128x300, .f32⟩
  | 26 => ⟨S_, .f32⟩
  | 27 => ⟨S128, .f32⟩
  | 28 => ⟨S128x1, .f32⟩
  | 29 => ⟨S128x1, .f32⟩
  | 30 => ⟨S128x300, .f32⟩
  | 31 => ⟨S128x300, .f32⟩
  | 32 => ⟨S128x1, .i32⟩
  | 33 => ⟨S_, .i32⟩
  | 34 => ⟨S128x1, .i32⟩
  | 35 => ⟨S128x1, .i1⟩
  | 36 => ⟨S_, .i32⟩
  | 37 => ⟨S128x1, .i32⟩
  | 38 => ⟨S128x1, .i32⟩
  | 39 => ⟨S128x1, .i32⟩
  | 40 => ⟨S128x1x1, .i32⟩
  | 41 => ⟨S1, .i32⟩
  | 42 => ⟨S_, .i32⟩
  | 43 => ⟨S128x1x1, .i32⟩
  | 44 => ⟨S128x1x1, .i1⟩
  | 45 => ⟨S1x1x1, .i32⟩
  | 46 => ⟨S128x1x1, .i32⟩
  | 47 => ⟨S128x1x1, .i1⟩
  | 48 => ⟨S128x1x1, .i1⟩
  | 49 => ⟨S_, .i1⟩
  | 50 => ⟨S128x1, .i1⟩
  | 51 => ⟨S128x1, .f32⟩
  | 52 => ⟨S_, .f32⟩
  | 53 => ⟨S128x1, .f32⟩
  | 54 => ⟨S128x1, .f32⟩
  | 55 => ⟨S128, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | _ => ⟨S128x256, .i32⟩

abbrev hbmTy (i : Nat) : BufTy := match i / 128 with
  | 0 => hbmTy0_0 i
  | 1 => hbmTy0_1 i
  | _ => ⟨S128x256, .i32⟩

abbrev bufTy : (tb : Table) → Fin (tcTables nBuf tb) → BufTy
  | .hbm, ⟨i, _⟩ => hbmTy i
  | _, _ => ⟨S128x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_call2_cst : Ref sig .tc := ⟨.hbm, 54, rfl⟩
abbrev main_call2_v0 : Ref sig .tc := ⟨.hbm, 55, rfl⟩
abbrev main_call2_cst_0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_cst_1 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_v6 : Ref sig .tc := ⟨.hbm, 68, rfl⟩
abbrev main_v7 : Ref sig .tc := ⟨.hbm, 69, rfl⟩
abbrev main_v8 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_call3_cst : Ref sig .tc := ⟨.hbm, 91, rfl⟩
abbrev main_call3_v15 : Ref sig .tc := ⟨.hbm, 92, rfl⟩
abbrev main_v9 : Ref sig .tc := ⟨.hbm, 93, rfl⟩
abbrev main_v10 : Ref sig .tc := ⟨.hbm, 94, rfl⟩
abbrev main_v11 : Ref sig .tc := ⟨.hbm, 95, rfl⟩
abbrev main_v12 : Ref sig .tc := ⟨.hbm, 96, rfl⟩
abbrev main_v13 : Ref sig .tc := ⟨.hbm, 97, rfl⟩
abbrev main_v14 : Ref sig .tc := ⟨.hbm, 98, rfl⟩
abbrev main_v15 : Ref sig .tc := ⟨.hbm, 99, rfl⟩
abbrev main_v16 : Ref sig .tc := ⟨.hbm, 100, rfl⟩
abbrev main_call4_v0 : Ref sig .tc := ⟨.hbm, 101, rfl⟩
abbrev main_call4_cst : Ref sig .tc := ⟨.hbm, 102, rfl⟩
abbrev main_call4_v1 : Ref sig .tc := ⟨.hbm, 103, rfl⟩
abbrev main_v17 : Ref sig .tc := ⟨.hbm, 104, rfl⟩
abbrev main_v18 : Ref sig .tc := ⟨.hbm, 105, rfl⟩
abbrev main_v19 : Ref sig .tc := ⟨.hbm, 106, rfl⟩
abbrev main_v20 : Ref sig .tc := ⟨.hbm, 107, rfl⟩
abbrev main_v21 : Ref sig .tc := ⟨.hbm, 108, rfl⟩
abbrev main_v22 : Ref sig .tc := ⟨.hbm, 109, rfl⟩
abbrev main_call5_v0 : Ref sig .tc := ⟨.hbm, 110, rfl⟩
abbrev main_call5_cst : Ref sig .tc := ⟨.hbm, 111, rfl⟩
abbrev main_call5_v1 : Ref sig .tc := ⟨.hbm, 112, rfl⟩
abbrev main_v23 : Ref sig .tc := ⟨.hbm, 113, rfl⟩
abbrev main_v24 : Ref sig .tc := ⟨.hbm, 114, rfl⟩
abbrev main_v25 : Ref sig .tc := ⟨.hbm, 115, rfl⟩
abbrev main_v26 : Ref sig .tc := ⟨.hbm, 116, rfl⟩
abbrev main_v27 : Ref sig .tc := ⟨.hbm, 117, rfl⟩
abbrev main_v28 : Ref sig .tc := ⟨.hbm, 118, rfl⟩
abbrev main_v29 : Ref sig .tc := ⟨.hbm, 119, rfl⟩
abbrev main_v30 : Ref sig .tc := ⟨.hbm, 120, rfl⟩
abbrev main_v31 : Ref sig .tc := ⟨.hbm, 121, rfl⟩
abbrev main_v32 : Ref sig .tc := ⟨.hbm, 122, rfl⟩
abbrev main_v33 : Ref sig .tc := ⟨.hbm, 123, rfl⟩
abbrev main_cst : Ref sig .tc := ⟨.hbm, 124, rfl⟩
abbrev main_v34 : Ref sig .tc := ⟨.hbm, 125, rfl⟩
abbrev main_cst_0 : Ref sig .tc := ⟨.hbm, 126, rfl⟩
abbrev main_v35 : Ref sig .tc := ⟨.hbm, 127, rfl⟩
abbrev main_cst_1 : Ref sig .tc := ⟨.hbm, 128, rfl⟩
abbrev main_v36 : Ref sig .tc := ⟨.hbm, 129, rfl⟩
abbrev main_cst_2 : Ref sig .tc := ⟨.hbm, 130, rfl⟩
abbrev main_v37 : Ref sig .tc := ⟨.hbm, 131, rfl⟩
abbrev main_cst_3 : Ref sig .tc := ⟨.hbm, 132, rfl⟩
abbrev main_v38 : Ref sig .tc := ⟨.hbm, 133, rfl⟩
abbrev main_cst_4 : Ref sig .tc := ⟨.hbm, 134, rfl⟩
abbrev main_v39 : Ref sig .tc := ⟨.hbm, 135, rfl⟩
abbrev main_cst_5 : Ref sig .tc := ⟨.hbm, 136, rfl⟩
abbrev main_v40 : Ref sig .tc := ⟨.hbm, 137, rfl⟩
abbrev main_cst_6 : Ref sig .tc := ⟨.hbm, 138, rfl⟩
abbrev main_v41 : Ref sig .tc := ⟨.hbm, 139, rfl⟩
abbrev main_cst_7 : Ref sig .tc := ⟨.hbm, 140, rfl⟩
abbrev main_v42 : Ref sig .tc := ⟨.hbm, 141, rfl⟩
abbrev main_cst_8 : Ref sig .tc := ⟨.hbm, 142, rfl⟩
abbrev main_v43 : Ref sig .tc := ⟨.hbm, 143, rfl⟩
abbrev main_v44 : Ref sig .tc := ⟨.hbm, 144, rfl⟩
abbrev main_call6_cst : Ref sig .tc := ⟨.hbm, 145, rfl⟩
abbrev main_call6_v0 : Ref sig .tc := ⟨.hbm, 146, rfl⟩
abbrev main_call6_cst_0 : Ref sig .tc := ⟨.hbm, 147, rfl⟩
abbrev main_call6_v1 : Ref sig .tc := ⟨.hbm, 148, rfl⟩
abbrev main_call6_v2 : Ref sig .tc := ⟨.hbm, 149, rfl⟩
abbrev main_call6_v3 : Ref sig .tc := ⟨.hbm, 150, rfl⟩
abbrev main_call6_v4 : Ref sig .tc := ⟨.hbm, 151, rfl⟩
abbrev main_call6_v5 : Ref sig .tc := ⟨.hbm, 152, rfl⟩
abbrev main_call6_v6 : Ref sig .tc := ⟨.hbm, 153, rfl⟩
abbrev main_call6_cst_1 : Ref sig .tc := ⟨.hbm, 154, rfl⟩
abbrev main_call6_v7 : Ref sig .tc := ⟨.hbm, 155, rfl⟩
abbrev main_call6_v8 : Ref sig .tc := ⟨.hbm, 156, rfl⟩
abbrev main_call6_v9 : Ref sig .tc := ⟨.hbm, 157, rfl⟩
abbrev main_call6_v10 : Ref sig .tc := ⟨.hbm, 158, rfl⟩
abbrev main_v45 : Ref sig .tc := ⟨.hbm, 159, rfl⟩
abbrev main_v46 : Ref sig .tc := ⟨.hbm, 160, rfl⟩
abbrev main_call7_c : Ref sig .tc := ⟨.hbm, 161, rfl⟩
abbrev main_call7_v0 : Ref sig .tc := ⟨.hbm, 162, rfl⟩
abbrev main_call7_v1 : Ref sig .tc := ⟨.hbm, 163, rfl⟩
abbrev main_call7_c_0 : Ref sig .tc := ⟨.hbm, 164, rfl⟩
abbrev main_call7_v2 : Ref sig .tc := ⟨.hbm, 165, rfl⟩
abbrev main_call7_v3 : Ref sig .tc := ⟨.hbm, 166, rfl⟩
abbrev main_call7_v4 : Ref sig .tc := ⟨.hbm, 167, rfl⟩
abbrev main_call7_v5 : Ref sig .tc := ⟨.hbm, 168, rfl⟩
abbrev main_call7_c_1 : Ref sig .tc := ⟨.hbm, 169, rfl⟩
abbrev main_call7_c_2 : Ref sig .tc := ⟨.hbm, 170, rfl⟩
abbrev main_call7_v6 : Ref sig .tc := ⟨.hbm, 171, rfl⟩
abbrev main_call7_v7 : Ref sig .tc := ⟨.hbm, 172, rfl⟩
abbrev main_call7_v8 : Ref sig .tc := ⟨.hbm, 173, rfl⟩
abbrev main_call7_v9 : Ref sig .tc := ⟨.hbm, 174, rfl⟩
abbrev main_call7_v10 : Ref sig .tc := ⟨.hbm, 175, rfl⟩
abbrev main_call7_v11 : Ref sig .tc := ⟨.hbm, 176, rfl⟩
abbrev main_call7_c_3 : Ref sig .tc := ⟨.hbm, 177, rfl⟩
abbrev main_call7_v12 : Ref sig .tc := ⟨.hbm, 178, rfl⟩
abbrev main_call7_v13 : Ref sig .tc := ⟨.hbm, 179, rfl⟩
abbrev main_call7_cst : Ref sig .tc := ⟨.hbm, 180, rfl⟩
abbrev main_call7_v14 : Ref sig .tc := ⟨.hbm, 181, rfl⟩
abbrev main_v47 : Ref sig .tc := ⟨.hbm, 182, rfl⟩
abbrev main_v48 : Ref sig .tc := ⟨.hbm, 183, rfl⟩
abbrev main_cst_9 : Ref sig .tc := ⟨.hbm, 184, rfl⟩
abbrev main_v49 : Ref sig .tc := ⟨.hbm, 185, rfl⟩
abbrev main_cst_10 : Ref sig .tc := ⟨.hbm, 186, rfl⟩
abbrev main_v50 : Ref sig .tc := ⟨.hbm, 187, rfl⟩
abbrev main_v51 : Ref sig .tc := ⟨.hbm, 188, rfl⟩
abbrev main_v52 : Ref sig .tc := ⟨.hbm, 189, rfl⟩
abbrev main_v53 : Ref sig .tc := ⟨.hbm, 190, rfl⟩

abbrev nD : Nat := 1
abbrev τ : Topo := Topo.v7x

variable {F : FTy → Type} [FloatOps F]

class Facts₀ : Prop where
  reducesTo_S128x256x5_S128x256_d2 : S128x256x5.ReducesTo [2] S128x256
  h_S_ : 0 < S_.numel
  bcast_S_S128x256 : S_.BroadcastsInDim S128x256 (![] : Fin 0 → Fin S128x256.rank)
  bcast_S128x256_S128x256x1_0_1 : S128x256.BroadcastsInDim S128x256x1 (![0, 1] : Fin 2 → Fin S128x256x1.rank)
  bcast_S128x256x1_S128x256x5_0_1_2 : S128x256x1.BroadcastsInDim S128x256x5 (![0, 1, 2] : Fin 3 → Fin S128x256x5.rank)
  bcast_S128x256_S128x256x1x1_0_1 : S128x256.BroadcastsInDim S128x256x1x1 (![0, 1] : Fin 2 → Fin S128x256x1x1.rank)
  bcast_S128x256x5_S128x1x256x5_0_2_3 : S128x256x5.BroadcastsInDim S128x1x256x5 (![0, 2, 3] : Fin 3 → Fin S128x1x256x5.rank)
  bcast_S_S128x256x1x1 : S_.BroadcastsInDim S128x256x1x1 (![] : Fin 0 → Fin S128x256x1x1.rank)
  shapeCasts_S128x1x256x5_S128x256x5 : S128x1x256x5.ShapeCasts S128x256x5
  bcast_S1_S1x1x1x1_3 : S1.BroadcastsInDim S1x1x1x1 (![3] : Fin 1 → Fin S1x1x1x1.rank)
  bcast_S1x1x1x1_S128x256x1x1_0_1_2_3 : S1x1x1x1.BroadcastsInDim S128x256x1x1 (![0, 1, 2, 3] : Fin 4 → Fin S128x256x1x1.rank)
  reducesTo_S128x256x1x1_S128x256x1_d3 : S128x256x1x1.ReducesTo [3] S128x256x1
  bcast_S128x256x1_S128x256x256x1_0_1_3 : S128x256x1.BroadcastsInDim S128x256x256x1 (![0, 1, 3] : Fin 3 → Fin S128x256x256x1.rank)
  bcast_S_S128x256x256x1 : S_.BroadcastsInDim S128x256x256x1 (![] : Fin 0 → Fin S128x256x256x1.rank)
  shapeCasts_S128x256x256x1_S128x256x256 : S128x256x256x1.ShapeCasts S128x256x256
  reducesTo_S128x256x3_S128x256_d2 : S128x256x3.ReducesTo [2] S128x256
  bcast_S128x256x1_S128x256x3_0_1_2 : S128x256x1.BroadcastsInDim S128x256x3 (![0, 1, 2] : Fin 3 → Fin S128x256x3.rank)
  bcast_S128x256x3_S128x1x256x3_0_2_3 : S128x256x3.BroadcastsInDim S128x1x256x3 (![0, 2, 3] : Fin 3 → Fin S128x1x256x3.rank)
  shapeCasts_S128x1x256x3_S128x256x3 : S128x1x256x3.ShapeCasts S128x256x3
  bcast_S128x256x3_S128x256x1x3_0_1_3 : S128x256x3.BroadcastsInDim S128x256x1x3 (![0, 1, 3] : Fin 3 → Fin S128x256x1x3.rank)
  bcast_S128x256x1x3_S128x256x256x3_0_1_2_3 : S128x256x1x3.BroadcastsInDim S128x256x256x3 (![0, 1, 2, 3] : Fin 4 → Fin S128x256x256x3.rank)
  bcast_S128x1x256x3_S128x256x256x3_0_1_2_3 : S128x1x256x3.BroadcastsInDim S128x256x256x3 (![0, 1, 2, 3] : Fin 4 → Fin S128x256x256x3.rank)
  reducesTo_S128x256x256x3_S128x256x256_d3 : S128x256x256x3.ReducesTo [3] S128x256x256
  bcast_S128x256_S128x1x256_0_2 : S128x256.BroadcastsInDim S128x1x256 (![0, 2] : Fin 2 → Fin S128x1x256.rank)
  bcast_S128x256x1_S128x256x256_0_1_2 : S128x256x1.BroadcastsInDim S128x256x256 (![0, 1, 2] : Fin 3 → Fin S128x256x256.rank)
  bcast_S128x1x256_S128x256x256_0_1_2 : S128x1x256.BroadcastsInDim S128x256x256 (![0, 1, 2] : Fin 3 → Fin S128x256x256.rank)
  reducesTo_S128x256x256_S128x256_d1 : S128x256x256.ReducesTo [1] S128x256
  reducesTo_S128x256x256_S128x256_d2 : S128x256x256.ReducesTo [2] S128x256
  reducesTo_S128x256_S128_d1 : S128x256.ReducesTo [1] S128
  reducesTo_S128_S_d0 : S128.ReducesTo [0] S_
  reducesTo_S128x256x300_S128x300_d1 : S128x256x300.ReducesTo [1] S128x300
  bcast_S_S128x300 : S_.BroadcastsInDim S128x300 (![] : Fin 0 → Fin S128x300.rank)
  reducesTo_S128x300_S128_d1 : S128x300.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x300_0_1 : S128x1.BroadcastsInDim S128x300 (![0, 1] : Fin 2 → Fin S128x300.rank)
  bcast_S_S128x1 : S_.BroadcastsInDim S128x1 (![] : Fin 0 → Fin S128x1.rank)
  shapeCasts_S128x1_S128x1x1 : S128x1.ShapeCasts S128x1x1
  bcast_S_S128x1x1 : S_.BroadcastsInDim S128x1x1 (![] : Fin 0 → Fin S128x1x1.rank)
  bcast_S1_S1x1x1_2 : S1.BroadcastsInDim S1x1x1 (![2] : Fin 1 → Fin S1x1x1.rank)
  bcast_S1x1x1_S128x1x1_0_1_2 : S1x1x1.BroadcastsInDim S128x1x1 (![0, 1, 2] : Fin 3 → Fin S128x1x1.rank)
  reducesTo_S128x1x1_S128x1_d2 : S128x1x1.ReducesTo [2] S128x1
  shapeCasts_S128x1_S128 : S128x1.ShapeCasts S128
  gather_S128x256x5_S128x256x1x1_S128x256x256x1_2_2_0_0_2_3_12561_wf : GatherDims.WF S128x256x5 S128x256x1x1 S128x256x256x1 [2] [2] [0] [2] [0] 3 ![1, 256, 1]
  gather_S128x256x3_S128x256x1x1_S128x256x256x1_2_2_0_0_2_3_12561_wf : GatherDims.WF S128x256x3 S128x256x1x1 S128x256x256x1 [2] [2] [0] [2] [0] 3 ![1, 256, 1]
  gather_S128x300_S128x1x1_S128x1_n_1_0_0_1_2_11_wf : GatherDims.WF S128x300 S128x1x1 S128x1 [] [1] [0] [1] [0] 2 ![1, 1]

variable [Facts₀]

def gather_S128x256x5_S128x256x1x1_S128x256x256x1_2_2_0_0_2_3_12561 : GatherDims S128x256x5 S128x256x1x1 S128x256x256x1 where
  offsetDims := [2]
  collapsedSliceDims := [2]
  operandBatchingDims := [0]
  startIndicesBatchingDims := [0]
  startIndexMap := [2]
  indexVectorDim := 3
  sliceSizes := ![1, 256, 1]
  wf := gather_S128x256x5_S128x256x1x1_S128x256x256x1_2_2_0_0_2_3_12561_wf
def gather_S128x256x3_S128x256x1x1_S128x256x256x1_2_2_0_0_2_3_12561 : GatherDims S128x256x3 S128x256x1x1 S128x256x256x1 where
  offsetDims := [2]
  collapsedSliceDims := [2]
  operandBatchingDims := [0]
  startIndicesBatchingDims := [0]
  startIndexMap := [2]
  indexVectorDim := 3
  sliceSizes := ![1, 256, 1]
  wf := gather_S128x256x3_S128x256x1x1_S128x256x256x1_2_2_0_0_2_3_12561_wf
def gather_S128x300_S128x1x1_S128x1_n_1_0_0_1_2_11 : GatherDims S128x300 S128x1x1 S128x1 where
  offsetDims := []
  collapsedSliceDims := [1]
  operandBatchingDims := [0]
  startIndicesBatchingDims := [0]
  startIndexMap := [1]
  indexVectorDim := 2
  sliceSizes := ![1, 1]
  wf := gather_S128x300_S128x1x1_S128x1_n_1_0_0_1_2_11_wf

class Facts : Prop extends Facts₀ where

variable [Facts]
-- ==== Proof.PreFacts.lean ====
import proofs.«414995_j25194278158453_3_alg».proof.Defs
import proofs.«414995_j25194278158453_3_alg».proof.Proof.Gen.Pre_finite_inputs
import Idealize.ShloMosaic.Lib.ReduceAll
import Idealize.ShloMosaic.Lib.StableHlo.Predicate
import Idealize.ShloMosaic.Lib.ValueIdx

/-!
# The precondition, decoded

The precondition is a conjunction of fourteen "all elements" tests, each an and-reduction of a
boolean array down to one word. Stating that the whole conjunction is 1 gives, test by test, a fact
about every element of the tested array. Three of them are used:

* every set-size logit x satisfies |x| < +∞, hence is a real number;
* every class label, read signed, lies in [0, 5);
* every charge label, read signed, lies in [0, 3).

The other eleven tests (finiteness of the remaining float arrays) are dropped.
-/

noncomputable section

namespace Cert.PreFacts

open Idealize.ShloMosaic Idealize.ShloMosaic.ValueIdx
open Cert.Pre_finite_inputs

/-- The scalar shape has exactly one index. -/
instance : Subsingleton S_.Idx := ⟨fun a b => funext fun d => d.elim0⟩

/-- An extended real whose absolute value max x (-x) is strictly below +∞ is a real number:
    both infinities have absolute value +∞. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := of_decide_eq_true ((StableHlo.Predicate.ofBool_eq_one_iff _).1 h)
  induction x using EReal.rec with
  | bot => exact absurd hlt (by simp)
  | coe r => exact ⟨r, rfl⟩
  | top => exact absurd hlt (by simp)

/-- A 32-bit word that, read signed, is at least 0 and below a small bound n is, read unsigned, below n. -/
theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have hc := BitVec.toInt_eq_toNat_cond w
  split at hc <;> omega

/-- A word is the word of its own unsigned value. -/
theorem eq_ofNat_toNat (w : BitVec 32) : w = BitVec.ofNat 32 w.toNat :=
  BitVec.eq_of_toNat_eq (by rw [BitVec.toNat_ofNat]; exact (Nat.mod_eq_of_lt w.isLt).symm)

/-- THE PRECONDITION DECODED: the set-size logits are reals, the class labels are words of values in
    {0,…,4}, the charge labels are words of values in {0,1,2}. -/
theorem of_pre [Cert.Pre_finite_inputs.Facts] (a0 a1 : IVec S128x256 32) (a2 : IVec S128 32) (a3 : FVec Ideal S128x256x5 .f32)
    (a4 a5 a6 a7 a8 : FVec Ideal S128x256x3 .f32) (a9 a10 : FVec Ideal S128x256 .f32) (a11 : FVec Ideal S128x256x300 .f32)
    (h : Cert.Pre_finite_inputs.fn (F := Ideal) a0 a1 a2 a3 a4 a5 a6 a7 a8 a9 a10 a11 = fun _ => 1#1) :
    (∀ i, ∃ r : ℝ, a11 i = (r : EReal))
    ∧ (∃ lab : Fin 128 → Fin 256 → Fin 5, ∀ b i, a0 (ix2 b i) = BitVec.ofNat 32 (lab b i).val)
    ∧ (∃ chg : Fin 128 → Fin 256 → Fin 3, ∀ b i, a1 (ix2 b i) = BitVec.ofNat 32 (chg b i).val) := by
  -- the result has one word: the conjunction of the fourteen tests
  have e := congrFun h ix0
  dsimp only [fn, fn_part1, fn_part2, fn_part3] at e
  -- the conjunction is left-nested: peel the last three tests off, and one more for the set-size logits
  obtain ⟨e50, e56⟩ := IntOp.andi_eq_one.1 e
  obtain ⟨e43, e49⟩ := IntOp.andi_eq_one.1 e50
  obtain ⟨-, e42⟩ := IntOp.andi_eq_one.1 e43
  clear e e50 e43 h
  refine ⟨fun i => ?_, ?_, ?_⟩
  · -- |a11 i| < +∞
    exact real_of_abs_lt_inf (a11 i) (Host.reduce_andi_all _ _ _ _ ix0 e42 i)
  · -- 0 ≤ a0 < 5
    have hr : ∀ b i, (a0 (ix2 b i)).toNat < 5 := fun b i => by
      obtain ⟨p0, p1⟩ := IntOp.andi_eq_one.1 (Host.reduce_andi_all _ _ _ _ ix0 e49 (ix2 b i))
      exact toNat_lt_of_signed_range _ 5 (by decide) p0 p1
    exact ⟨fun b i => ⟨(a0 (ix2 b i)).toNat, hr b i⟩, fun b i => eq_ofNat_toNat _⟩
  · -- 0 ≤ a1 < 3
    have hr : ∀ b i, (a1 (ix2 b i)).toNat < 3 := fun b i => by
      obtain ⟨p0, p1⟩ := IntOp.andi_eq_one.1 (Host.reduce_andi_all _ _ _ _ ix0 e56 (ix2 b i))
      exact toNat_lt_of_signed_range _ 3 (by decide) p0 p1
    exact ⟨fun b i => ⟨(a1 (ix2 b i)).toNat, hr b i⟩, fun b i => eq_ofNat_toNat _⟩

end Cert.PreFacts

end
-- ==== Proof.Spec.lean ====
/-
  The mathematics both programs compute, as functions of the argument arrays, index by index, on the
  extended reals.

  An event `b` has 256 particles `i` and 256 flow nodes `j`. The loss of the pair (i, j) is the sum of five terms:
  the negated log-softmax of node j's class logits at particle i's class label, the same for the charge,
  the Euclidean distance of the two positions, that of the two momenta, and the squared difference of the
  two energies. The event's particle sum adds, over the particles, the least pair loss over the nodes; its
  flow sum adds, over the nodes, the least pair loss over the particles. The set-size row of an event is the
  sum over the nodes of the predicted set-size logits.

  The labels enter as the functions `lab` and `chg`: the class and charge of particle i of event b, which
  the precondition places in their ranges.
-/
import Idealize.ShloMosaic.PureOps.Ideal
import Idealize.ShloMosaic.Lib.ValueIdx

noncomputable section

namespace Cert.Spec

open Idealize.ShloMosaic Idealize.ShloMosaic.ValueIdx

/-- The f32 patterns of -inf, +inf, zero, 128 and 256 at the ideal values, kept as patterns. -/
abbrev negInf : EReal := Ideal.ofBits .f32 0xFF800000#32
abbrev posInf : EReal := Ideal.ofBits .f32 0x7F800000#32
abbrev zero32 : EReal := Ideal.ofBits .f32 0x00000000#32
abbrev c128 : EReal := Ideal.ofBits .f32 0x43000000#32
abbrev c256 : EReal := Ideal.ofBits .f32 0x43800000#32

/-- The greatest of finitely many logits, folded from -inf, and once more against -inf (as jax's
    log-softmax takes it). -/
def top {n : Nat} (z : Fin n → EReal) : EReal :=
  max negInf ((Finset.univ : Finset (Fin n)).fold max negInf z)

/-- The log-softmax of the logits `z` at class `c`: shifted by the greatest logit, less the logarithm of the
    sum of the shifted exponentials. -/
def lsm {n : Nat} (z : Fin n → EReal) (c : Fin n) : EReal :=
  (z c - top z) - Ideal.log (∑ k : Fin n, Ideal.exp (z k - top z))

/-- The sum of the three squared coordinate differences of particle `i`'s and node `j`'s vectors in event `b`. -/
def sqDist (p q : (⟨3, ![128, 256, 3]⟩ : Shape).Idx → EReal) (b : Fin 128) (i j : Fin 256) : EReal :=
  ∑ d : Fin 3, (p (ix3 b i d) - q (ix3 b j d)) * (p (ix3 b i d) - q (ix3 b j d))

/-- The loss of the pair (particle i, node j) of event b. -/
def pairLoss (lab : Fin 128 → Fin 256 → Fin 5) (chg : Fin 128 → Fin 256 → Fin 3)
    (x3 : (⟨3, ![128, 256, 5]⟩ : Shape).Idx → EReal) (x4 x5 x6 x7 x8 : (⟨3, ![128, 256, 3]⟩ : Shape).Idx → EReal)
    (x9 x10 : (⟨2, ![128, 256]⟩ : Shape).Idx → EReal) (b : Fin 128) (i j : Fin 256) : EReal :=
  ((((-(lsm (fun k : Fin 5 => x3 (ix3 b j k)) (lab b i))) + (-(lsm (fun k : Fin 3 => x4 (ix3 b j k)) (chg b i))))
      + Ideal.sqrt (sqDist x5 x6 b i j)) + Ideal.sqrt (sqDist x7 x8 b i j))
    + (x9 (ix2 b i) - x10 (ix2 b j)) * (x9 (ix2 b i) - x10 (ix2 b j))

/-- Over the particles, the least loss over the nodes, added up. -/
def partSum (L : Fin 256 → Fin 256 → EReal) : EReal :=
  ∑ i : Fin 256, (Finset.univ : Finset (Fin 256)).fold min posInf (fun j => L i j)

/-- Over the nodes, the least loss over the particles, added up. -/
def flowSum (L : Fin 256 → Fin 256 → EReal) : EReal :=
  ∑ j : Fin 256, (Finset.univ : Finset (Fin 256)).fold min posInf (fun i => L i j)

/-- Event b's set-size logits summed over its nodes, at size s. -/
def setRow (x11 : (⟨3, ![128, 256, 300]⟩ : Shape).Idx → EReal) (b : Fin 128) (s : Fin 300) : EReal :=
  ∑ n : Fin 256, x11 (ix3 b n s)

/-- The mean over the 128 events of the particle sums, plus that of the flow sums, plus the set-size term. -/
def total (P Q : Fin 128 → EReal) (T : EReal) : EReal :=
  (Ideal.div (∑ b : Fin 128, P b) c128 + Ideal.div (∑ b : Fin 128, Q b) c128) + T

/-- The set-size term from the per-event negative log-likelihoods `X`: the mean of their negations. -/
def setTerm (X : Fin 128 → EReal) : EReal :=
  Ideal.div (∑ b : Fin 128, -(X b)) c128

/-! ### The same pair loss read off one grid point's blocks

  A grid point holds eight events. Its blocks carry the logits and the vectors with the node axis last:
  class logits [8, 5, 256], charge logits and the four vector arrays [8, 3, 256], the two energies [8, 1, 256]. -/

/-- The loss of the pair (i, j) of the block's event `e`, from the blocks. -/
def blkLoss (lab : Fin 8 → Fin 256 → Fin 5) (chg : Fin 8 → Fin 256 → Fin 3)
    (y2 : (⟨3, ![8, 5, 256]⟩ : Shape).Idx → EReal) (y3 y4 y5 y6 y7 : (⟨3, ![8, 3, 256]⟩ : Shape).Idx → EReal)
    (y8 y9 : (⟨3, ![8, 1, 256]⟩ : Shape).Idx → EReal) (e : Fin 8) (i j : Fin 256) : EReal :=
  ((((-(lsm (fun k : Fin 5 => y2 (ix3 e k j)) (lab e i))) + (-(lsm (fun k : Fin 3 => y3 (ix3 e k j)) (chg e i))))
      + Ideal.sqrt (∑ d : Fin 3, (y4 (ix3 e d i) - y5 (ix3 e d j)) * (y4 (ix3 e d i) - y5 (ix3 e d j))))
      + Ideal.sqrt (∑ d : Fin 3, (y6 (ix3 e d i) - y7 (ix3 e d j)) * (y6 (ix3 e d i) - y7 (ix3 e d j))))
    + (y8 (ix3 e 0 i) - y9 (ix3 e 0 j)) * (y8 (ix3 e 0 i) - y9 (ix3 e 0 j))

end Cert.Spec

end
-- ==== Proof.Alg.lean ====
/-
  Laws of the extended reals and of the specification's functions.

  The five constant patterns are the values they spell: -inf, +inf, 0, 128 and 256. A product of an extended
  real with itself is never negative, so a sum of three squares is its own maximum with zero. Negation passes
  through a finite sum when no summand is +inf (then no +inf meets a -inf), and through a division by 128, so
  the mean of the negations is the negation of the mean: the two readings of the set-size term. A log-softmax
  of real logits is real: the greatest logit is one of them, every shifted exponential is a positive real, so
  is their sum, and its logarithm is real.
-/
import proofs.«414995_j25194278158453_3_alg».proof.Proof.Spec
import Idealize.ShloMosaic.PureOps.Ideal.Laws
import Mathlib.Data.EReal.Inv
import Mathlib.Data.Finset.Fold
import Mathlib.Algebra.BigOperators.Group.Finset.Defs
import Mathlib.Analysis.SpecialFunctions.Log.Basic

noncomputable section

namespace Cert.Alg

open Idealize.ShloMosaic Idealize.ShloMosaic.ValueIdx
open scoped BigOperators

/-- A square is nonnegative on the extended reals: both factors lie on the same side of zero. -/
theorem mul_self_nonneg' (x : EReal) : 0 ≤ x * x := by
  rcases le_total 0 x with h | h
  · exact EReal.mul_nonneg_iff.mpr (Or.inl ⟨h, h⟩)
  · exact EReal.mul_nonneg_iff.mpr (Or.inr ⟨h, h⟩)

theorem zero32_eq : Cert.Spec.zero32 = 0 := Ideal.ofBits_zero_f32

theorem negInf_eq : Cert.Spec.negInf = ⊥ := by
  show Ideal.ofBits .f32 0xFF800000#32 = ⊥
  simp [Ideal.ofBits, Ideal.ieee]

theorem posInf_eq : Cert.Spec.posInf = ⊤ := by
  show Ideal.ofBits .f32 0x7F800000#32 = ⊤
  simp [Ideal.ofBits, Ideal.ieee]

theorem c128_eq : Cert.Spec.c128 = ((128 : ℝ) : EReal) := by
  show Ideal.ofBits .f32 0x43000000#32 = ((128 : ℝ) : EReal)
  simp [Ideal.ofBits, Ideal.ieee]
  rw [← EReal.coe_mul]
  norm_num

theorem c256_eq : Cert.Spec.c256 = ((256 : ℝ) : EReal) := by
  show Ideal.ofBits .f32 0x43800000#32 = ((256 : ℝ) : EReal)
  simp [Ideal.ofBits, Ideal.ieee]
  rw [← EReal.coe_mul]
  norm_num

/-- A sum of three squares is its own maximum with zero. -/
theorem max_sqsum_zero (f : Fin 3 → EReal) :
    max (∑ d : Fin 3, f d * f d) Cert.Spec.zero32 = ∑ d : Fin 3, f d * f d := by
  rw [zero32_eq]
  exact max_eq_left (Finset.sum_nonneg fun d _ => mul_self_nonneg' (f d))

/-- Over any finite set: when no summand is +inf the sum is not +inf, and its negation is the sum of the
    negations. -/
theorem neg_sum_aux {ι : Type} (s : Finset ι) (X : ι → EReal) (h : ∀ b ∈ s, X b ≠ ⊤) :
    ∑ b ∈ s, X b ≠ ⊤ ∧ -(∑ b ∈ s, X b) = ∑ b ∈ s, -(X b) := by
  classical
  revert h
  refine Finset.induction_on s ?_ ?_
  · intro _; simp
  · intro a s ha ih h
    have h1 := h a (Finset.mem_insert_self a s)
    obtain ⟨ih1, ih2⟩ := ih (fun b hb => h b (Finset.mem_insert_of_mem hb))
    rw [Finset.sum_insert ha, Finset.sum_insert ha]
    refine ⟨EReal.add_ne_top h1 ih1, ?_⟩
    rw [EReal.neg_add (Or.inr ih1) (Or.inl h1), sub_eq_add_neg, ih2]

theorem neg_sum_of_ne_top {n : Nat} (X : Fin n → EReal) (h : ∀ b, X b ≠ ⊤) : -(∑ b, X b) = ∑ b, -(X b) :=
  (neg_sum_aux Finset.univ X fun b _ => h b).2

theorem neg_div_c128 (s : EReal) : -(Ideal.div s Cert.Spec.c128) = Ideal.div (-s) Cert.Spec.c128 := by
  rw [c128_eq, Ideal.div_coe (by norm_num), Ideal.div_coe (by norm_num), neg_mul]

/-- the reference's set-size term (mean, then negate) is the specification's (negate, then mean) when no entry is +inf -/
theorem setTerm_of_ref (X : Fin 128 → EReal) (h : ∀ b, X b ≠ ⊤) :
    -(Ideal.div (Cert.Spec.zero32 + ∑ b : Fin 128, X b) Cert.Spec.c128) = Cert.Spec.setTerm X := by
  unfold Cert.Spec.setTerm
  rw [zero32_eq, zero_add, neg_div_c128, neg_sum_of_ne_top X h]

/-- the kernel's set-size term -/
theorem setTerm_of_kernel (X : Fin 128 → EReal) :
    Ideal.div (Cert.Spec.zero32 + ∑ b : Fin 128, -(X b)) Cert.Spec.c128 = Cert.Spec.setTerm X := by
  unfold Cert.Spec.setTerm
  rw [zero32_eq, zero_add]

/-- A finite sum of reals is real. -/
theorem sum_real {n : Nat} (f : Fin n → EReal) (hf : ∀ k, ∃ r : ℝ, f k = (r : EReal)) : ∃ r : ℝ, ∑ k, f k = (r : EReal) := by
  refine Finset.sum_induction f (fun x => ∃ r : ℝ, x = (r : EReal)) ?_ ⟨0, rfl⟩ (fun k _ => hf k)
  rintro _ _ ⟨a, rfl⟩ ⟨b, rfl⟩
  exact ⟨a + b, (EReal.coe_add a b).symm⟩

/-- A real divided by 256 is real. -/
theorem div_c256_real (x : EReal) (hx : ∃ r : ℝ, x = (r : EReal)) : ∃ r : ℝ, Ideal.div x Cert.Spec.c256 = (r : EReal) := by
  obtain ⟨r, rfl⟩ := hx
  refine ⟨r * (1 / 256), ?_⟩
  rw [c256_eq, Ideal.div_coe (by norm_num), ← EReal.coe_mul]

/-- The greatest of finitely many (at least one) real logits is real: it is below +inf because each logit is,
    and it is at least the first logit. -/
theorem top_real {n : Nat} (hn : 0 < n) (z : Fin n → EReal) (hz : ∀ k, ∃ r : ℝ, z k = (r : EReal)) :
    ∃ t : ℝ, Cert.Spec.top z = (t : EReal) := by
  have hlt : Cert.Spec.top z < ⊤ := by
    unfold Cert.Spec.top
    rw [negInf_eq]
    refine max_lt bot_lt_top ?_
    rw [Finset.fold_max_lt]
    refine ⟨bot_lt_top, fun k _ => ?_⟩
    obtain ⟨r, hr⟩ := hz k
    rw [hr]
    exact EReal.coe_lt_top r
  have hne_bot : Cert.Spec.top z ≠ ⊥ := by
    obtain ⟨r, hr⟩ := hz ⟨0, hn⟩
    have hle : (r : EReal) ≤ Cert.Spec.top z := by
      unfold Cert.Spec.top
      refine le_max_of_le_right ?_
      rw [Finset.le_fold_max]
      exact Or.inr ⟨⟨0, hn⟩, Finset.mem_univ _, le_of_eq hr.symm⟩
    intro h
    rw [h] at hle
    exact EReal.coe_ne_bot r (le_bot_iff.mp hle)
  exact ⟨(Cert.Spec.top z).toReal, (EReal.coe_toReal hlt.ne hne_bot).symm⟩

/-- a log-softmax of REAL logits is real -/
theorem lsm_real {n : Nat} (hn : 0 < n) (z : Fin n → EReal) (hz : ∀ k, ∃ r : ℝ, z k = (r : EReal)) (c : Fin n) : ∃ r : ℝ, Cert.Spec.lsm z c = (r : EReal) := by
  obtain ⟨t, ht⟩ := top_real hn z hz
  choose g hg using hz
  have hexp : ∀ k, Ideal.exp (z k - Cert.Spec.top z) = ((Real.exp (g k - t) : ℝ) : EReal) := by
    intro k
    rw [hg k, ht, ← EReal.coe_sub, Ideal.exp_coe]
  have hsum : ∃ s : ℝ, 0 < s ∧ ∑ k : Fin n, Ideal.exp (z k - Cert.Spec.top z) = (s : EReal) := by
    simp only [hexp]
    haveI : Nonempty (Fin n) := ⟨⟨0, hn⟩⟩
    refine Finset.sum_induction_nonempty (fun k : Fin n => ((Real.exp (g k - t) : ℝ) : EReal))
      (fun x => ∃ s : ℝ, 0 < s ∧ x = (s : EReal)) ?_ Finset.univ_nonempty ?_
    · rintro _ _ ⟨a, ha, rfl⟩ ⟨b, hb, rfl⟩
      exact ⟨a + b, add_pos ha hb, (EReal.coe_add a b).symm⟩
    · intro k _
      exact ⟨_, Real.exp_pos _, rfl⟩
  obtain ⟨s, hs, hS⟩ := hsum
  refine ⟨(g c - t) - Real.log s, ?_⟩
  unfold Cert.Spec.lsm
  rw [hS, Ideal.log_coe, if_neg (not_le.mpr hs), hg c, ht, ← EReal.coe_sub, ← EReal.coe_sub]

end Cert.Alg

end
-- ==== Proof.KLemmas.lean ====
/-
  Reading lemmas shared by the eight per-event modules: each layout operation, reduction and pointwise
  operation of the loss computation read at an index built from literal coordinates, and the algebra
  that turns the index-level expression of one pair (particle i, node j) into the specification's pair loss.
-/
import proofs.«414995_j25194278158453_3_alg».proof.Proof.Spec
import proofs.«414995_j25194278158453_3_alg».proof.Proof.Alg
import Idealize.ShloMosaic.Lib.Pipeline.Value
import Idealize.ShloMosaic.Lib.ValueLayout
import Idealize.ShloMosaic.PureOps.Ideal.Laws

noncomputable section

namespace Cert.KernelIdeal.KEv

open Idealize.ShloMosaic Idealize.ShloMosaic.ValueIdx

/-! ## Indices split into literal coordinates -/

theorem exists_ix3 {n0 n1 n2 : Nat} (y : (⟨3, ![n0, n1, n2]⟩ : Shape).Idx) :
    ∃ (a : Fin n0) (b : Fin n1) (c : Fin n2), y = ix3 a b c := ⟨y 0, y 1, y 2, eq_ix3 y⟩

/-! ## Shape casts that add or drop unit axes -/

section Layout
variable {α : Type}

/-- A vector cast to a column reads, at (i, u), the vector at i. -/
theorem cast_a_a1 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1, 1, a] array cast to [a] reads, at i, the operand at (0, 0, i). -/
theorem cast_11a_a {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- A column broadcast over the columns reads, at (i, j), the column at (i, 0). -/
theorem bc_a1_ab {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## Slices at literal offsets -/

section Slices
variable {α : Type}

/-- One leading slab of a rank-3 array, at offset o: (u, b, c) reads the source at (o, b, c). -/
theorem slab_apply {n0 n1 n2 : ℕ} (o : ℕ) (X : (⟨3, ![n0, n1, n2]⟩ : Shape).Idx → α)
    (h : (⟨3, ![n0, n1, n2]⟩ : Shape).Slices ![o, 0, 0] ⟨3, ![1, n1, n2]⟩)
    (u : Fin 1) (b : Fin n1) (c : Fin n2) (k : Fin n0) (hk : k.val = o) :
    extractStridedSlice ⟨3, ![1, n1, n2]⟩ ![o, 0, 0] X h (ix3 u b c) = X (ix3 k b c) :=
  extractStridedSlice_apply _ _ _ _ _ (fun ax => by
    match ax with
    | ⟨0, _⟩ =>
      have hu : u.val = 0 := by omega
      show k.val = o + u.val
      rw [hu, hk, Nat.add_zero]
    | ⟨1, _⟩ => exact (Nat.zero_add _).symm
    | ⟨2, _⟩ => exact (Nat.zero_add _).symm)

theorem slab8_0 {n1 n2 : ℕ} (X : (⟨3, ![8, n1, n2]⟩ : Shape).Idx → α) (h : (⟨3, ![8, n1, n2]⟩ : Shape).Slices ![0, 0, 0] ⟨3, ![1, n1, n2]⟩)
    (u : Fin 1) (b : Fin n1) (c : Fin n2) :
    extractStridedSlice ⟨3, ![1, n1, n2]⟩ ![0, 0, 0] X h (ix3 u b c) = X (ix3 (0 : Fin 8) b c) := slab_apply 0 X h u b c 0 rfl
theorem slab8_1 {n1 n2 : ℕ} (X : (⟨3, ![8, n1, n2]⟩ : Shape).Idx → α) (h : (⟨3, ![8, n1, n2]⟩ : Shape).Slices ![1, 0, 0] ⟨3, ![1, n1, n2]⟩)
    (u : Fin 1) (b : Fin n1) (c : Fin n2) :
    extractStridedSlice ⟨3, ![1, n1, n2]⟩ ![1, 0, 0] X h (ix3 u b c) = X (ix3 (1 : Fin 8) b c) := slab_apply 1 X h u b c 1 rfl
theorem slab8_2 {n1 n2 : ℕ} (X : (⟨3, ![8, n1, n2]⟩ : Shape).Idx → α) (h : (⟨3, ![8, n1, n2]⟩ : Shape).Slices ![2, 0, 0] ⟨3, ![1, n1, n2]⟩)
    (u : Fin 1) (b : Fin n1) (c : Fin n2) :
    extractStridedSlice ⟨3, ![1, n1, n2]⟩ ![2, 0, 0] X h (ix3 u b c) = X (ix3 (2 : Fin 8) b c) := slab_apply 2 X h u b c 2 rfl
theorem slab8_3 {n1 n2 : ℕ} (X : (⟨3, ![8, n1, n2]⟩ : Shape).Idx → α) (h : (⟨3, ![8, n1, n2]⟩ : Shape).Slices ![3, 0, 0] ⟨3, ![1, n1, n2]⟩)
    (u : Fin 1) (b : Fin n1) (c : Fin n2) :
    extractStridedSlice ⟨3, ![1, n1, n2]⟩ ![3, 0, 0] X h (ix3 u b c) = X (ix3 (3 : Fin 8) b c) := slab_apply 3 X h u b c 3 rfl
theorem slab8_4 {n1 n2 : ℕ} (X : (⟨3, ![8, n1, n2]⟩ : Shape).Idx → α) (h : (⟨3, ![8, n1, n2]⟩ : Shape).Slices ![4, 0, 0] ⟨3, ![1, n1, n2]⟩)
    (u : Fin 1) (b : Fin n1) (c : Fin n2) :
    extractStridedSlice ⟨3, ![1, n1, n2]⟩ ![4, 0, 0] X h (ix3 u b c) = X (ix3 (4 : Fin 8) b c) := slab_apply 4 X h u b c 4 rfl
theorem slab8_5 {n1 n2 : ℕ} (X : (⟨3, ![8, n1, n2]⟩ : Shape).Idx → α) (h : (⟨3, ![8, n1, n2]⟩ : Shape).Slices ![5, 0, 0] ⟨3, ![1, n1, n2]⟩)
    (u : Fin 1) (b : Fin n1) (c : Fin n2) :
    extractStridedSlice ⟨3, ![1, n1, n2]⟩ ![5, 0, 0] X h (ix3 u b c) = X (ix3 (5 : Fin 8) b c) := slab_apply 5 X h u b c 5 rfl
theorem slab8_6 {n1 n2 : ℕ} (X : (⟨3, ![8, n1, n2]⟩ : Shape).Idx → α) (h : (⟨3, ![8, n1, n2]⟩ : Shape).Slices ![6, 0, 0] ⟨3, ![1, n1, n2]⟩)
    (u : Fin 1) (b : Fin n1) (c : Fin n2) :
    extractStridedSlice ⟨3, ![1, n1, n2]⟩ ![6, 0, 0] X h (ix3 u b c) = X (ix3 (6 : Fin 8) b c) := slab_apply 6 X h u b c 6 rfl
theorem slab8_7 {n1 n2 : ℕ} (X : (⟨3, ![8, n1, n2]⟩ : Shape).Idx → α) (h : (⟨3, ![8, n1, n2]⟩ : Shape).Slices ![7, 0, 0] ⟨3, ![1, n1, n2]⟩)
    (u : Fin 1) (b : Fin n1) (c : Fin n2) :
    extractStridedSlice ⟨3, ![1, n1, n2]⟩ ![7, 0, 0] X h (ix3 u b c) = X (ix3 (7 : Fin 8) b c) := slab_apply 7 X h u b c 7 rfl

/-- One row of a matrix, at offset o: (u, c) reads the source at (o, c). -/
theorem row_apply {n0 n1 : ℕ} (o : ℕ) (X : (⟨2, ![n0, n1]⟩ : Shape).Idx → α)
    (h : (⟨2, ![n0, n1]⟩ : Shape).Slices ![o, 0] ⟨2, ![1, n1]⟩) (u : Fin 1) (c : Fin n1) (k : Fin n0) (hk : k.val = o) :
    extractStridedSlice ⟨2, ![1, n1]⟩ ![o, 0] X h (ix2 u c) = X (ix2 k c) :=
  slice2_axis0_apply o X h u c k (by have hu : u.val = 0 := by omega
                                     rw [hu, hk, Nat.add_zero])

theorem row3_0 {n1 : ℕ} (X : (⟨2, ![3, n1]⟩ : Shape).Idx → α) (h : (⟨2, ![3, n1]⟩ : Shape).Slices ![0, 0] ⟨2, ![1, n1]⟩) (u : Fin 1) (c : Fin n1) :
    extractStridedSlice ⟨2, ![1, n1]⟩ ![0, 0] X h (ix2 u c) = X (ix2 (0 : Fin 3) c) := row_apply 0 X h u c 0 rfl
theorem row3_1 {n1 : ℕ} (X : (⟨2, ![3, n1]⟩ : Shape).Idx → α) (h : (⟨2, ![3, n1]⟩ : Shape).Slices ![1, 0] ⟨2, ![1, n1]⟩) (u : Fin 1) (c : Fin n1) :
    extractStridedSlice ⟨2, ![1, n1]⟩ ![1, 0] X h (ix2 u c) = X (ix2 (1 : Fin 3) c) := row_apply 1 X h u c 1 rfl
theorem row3_2 {n1 : ℕ} (X : (⟨2, ![3, n1]⟩ : Shape).Idx → α) (h : (⟨2, ![3, n1]⟩ : Shape).Slices ![2, 0] ⟨2, ![1, n1]⟩) (u : Fin 1) (c : Fin n1) :
    extractStridedSlice ⟨2, ![1, n1]⟩ ![2, 0] X h (ix2 u c) = X (ix2 (2 : Fin 3) c) := row_apply 2 X h u c 2 rfl
theorem row5_0 {n1 : ℕ} (X : (⟨2, ![5, n1]⟩ : Shape).Idx → α) (h : (⟨2, ![5, n1]⟩ : Shape).Slices ![0, 0] ⟨2, ![1, n1]⟩) (u : Fin 1) (c : Fin n1) :
    extractStridedSlice ⟨2, ![1, n1]⟩ ![0, 0] X h (ix2 u c) = X (ix2 (0 : Fin 5) c) := row_apply 0 X h u c 0 rfl
theorem row5_1 {n1 : ℕ} (X : (⟨2, ![5, n1]⟩ : Shape).Idx → α) (h : (⟨2, ![5, n1]⟩ : Shape).Slices ![1, 0] ⟨2, ![1, n1]⟩) (u : Fin 1) (c : Fin n1) :
    extractStridedSlice ⟨2, ![1, n1]⟩ ![1, 0] X h (ix2 u c) = X (ix2 (1 : Fin 5) c) := row_apply 1 X h u c 1 rfl
theorem row5_2 {n1 : ℕ} (X : (⟨2, ![5, n1]⟩ : Shape).Idx → α) (h : (⟨2, ![5, n1]⟩ : Shape).Slices ![2, 0] ⟨2, ![1, n1]⟩) (u : Fin 1) (c : Fin n1) :
    extractStridedSlice ⟨2, ![1, n1]⟩ ![2, 0] X h (ix2 u c) = X (ix2 (2 : Fin 5) c) := row_apply 2 X h u c 2 rfl
theorem row5_3 {n1 : ℕ} (X : (⟨2, ![5, n1]⟩ : Shape).Idx → α) (h : (⟨2, ![5, n1]⟩ : Shape).Slices ![3, 0] ⟨2, ![1, n1]⟩) (u : Fin 1) (c : Fin n1) :
    extractStridedSlice ⟨2, ![1, n1]⟩ ![3, 0] X h (ix2 u c) = X (ix2 (3 : Fin 5) c) := row_apply 3 X h u c 3 rfl
theorem row5_4 {n1 : ℕ} (X : (⟨2, ![5, n1]⟩ : Shape).Idx → α) (h : (⟨2, ![5, n1]⟩ : Shape).Slices ![4, 0] ⟨2, ![1, n1]⟩) (u : Fin 1) (c : Fin n1) :
    extractStridedSlice ⟨2, ![1, n1]⟩ ![4, 0] X h (ix2 u c) = X (ix2 (4 : Fin 5) c) := row_apply 4 X h u c 4 rfl

end Slices

/-! ## Pointwise operations the library's list leaves out -/

section Pointwise
variable {s : Shape} {φ : FTy}

theorem exp_apply (a : FVec Ideal s φ) (i : s.Idx) : exp a i = Ideal.exp (a i) := rfl
theorem log_apply (a : FVec Ideal s φ) (i : s.Idx) : log a i = Ideal.log (a i) := rfl
theorem sqrt_apply (a : FVec Ideal s φ) (i : s.Idx) : sqrt a i = Ideal.sqrt (a i) := rfl
theorem cmpi_apply {w : ℕ} (p : CmpIPredicate) (x y : IVec s w) (i : s.Idx) : cmpi p x y i = IntOp.cmpi p (x i) (y i) := rfl
theorem ofBits_f32 (b : BitVec 32) : FloatOps.ofBits (F := Ideal) .f32 b = Ideal.ofBits .f32 b := rfl

end Pointwise

/-! ## Reductions of a matrix along one axis, read at literal coordinates -/

section Reductions

theorem lift_axis0 {a b : ℕ} (h : (⟨2, ![a, b]⟩ : Shape).Reduces [0] ⟨1, ![b]⟩) (j : Fin b) (k : Fin a) :
    h.lift (ix1 j) k = ix2 k j := by
  funext c
  match c with
  | ⟨0, _⟩ => rfl
  | ⟨1, _⟩ => rfl

theorem lift_axis1 {a b : ℕ} (h : (⟨2, ![a, b]⟩ : Shape).Reduces [1] ⟨1, ![a]⟩) (i : Fin a) (k : Fin b) :
    h.lift (ix1 i) k = ix2 i k := by
  funext c
  match c with
  | ⟨0, _⟩ => rfl
  | ⟨1, _⟩ => rfl

/-- A column sum: the sum over the rows. -/
theorem sum_axis0 {a b : ℕ} (src : FVec Ideal ⟨2, ![a, b]⟩ .f32) (h : (⟨2, ![a, b]⟩ : Shape).Reduces [0] ⟨1, ![b]⟩)
    (hφ : FTy.f32 = FTy.f32 ∨ FTy.f32 = FTy.bf16) (hacc : (0x00000000#32 : BitVec 32) = 0x00000000#32) (j : Fin b) :
    multiReduction .add [0] ⟨1, ![b]⟩ src 0x00000000#32 h hφ hacc (ix1 j) = ∑ k : Fin a, src (ix2 k j) :=
  (Ideal.multiReduction_add_single src 0x00000000#32 h hφ hacc (ix1 j)).trans
    (Finset.sum_congr rfl fun k _ => congrArg src (lift_axis0 h j k))

/-- A row sum: the sum over the columns. -/
theorem sum_axis1 {a b : ℕ} (src : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) (i : Fin a) :
    multiReduction .add [1] ⟨1, ![a]⟩ src 0x00000000#32 h hφ hacc (ix1 i) = ∑ k : Fin b, src (ix2 i k) :=
  (Ideal.multiReduction_add_single src 0x00000000#32 h hφ hacc (ix1 i)).trans
    (Finset.sum_congr rfl fun k _ => congrArg src (lift_axis1 h i k))

/-- A column maximum: the fold of max from -inf over the rows. -/
theorem max_axis0 {a b : ℕ} (src : FVec Ideal ⟨2, ![a, b]⟩ .f32) (h : (⟨2, ![a, b]⟩ : Shape).Reduces [0] ⟨1, ![b]⟩)
    (hφ : FTy.f32 = FTy.f32 ∨ FTy.f32 = FTy.bf16) (hacc : (0xFF800000#32 : BitVec 32) = 0xFF800000#32) (j : Fin b) :
    multiReduction .maximumf [0] ⟨1, ![b]⟩ src 0xFF800000#32 h hφ hacc (ix1 j)
      = (Finset.univ : Finset (Fin a)).fold max Cert.Spec.negInf (fun k => src (ix2 k j)) :=
  (Ideal.multiReduction_maximumf_single src 0xFF800000#32 h hφ hacc (ix1 j)).trans
    (congrArg (Finset.fold max Cert.Spec.negInf · Finset.univ) (funext fun k => congrArg src (lift_axis0 h j k)))

/-- A row minimum: the fold of min from +inf over the columns. -/
theorem min_axis1 {a b : ℕ} (src : FVec Ideal ⟨2, ![a, b]⟩ .f32) (h : (⟨2, ![a, b]⟩ : Shape).Reduces [1] ⟨1, ![a]⟩)
    (hφ : FTy.f32 = FTy.f32 ∨ FTy.f32 = FTy.bf16) (hacc : (0x7F800000#32 : BitVec 32) = 0x7F800000#32) (i : Fin a) :
    multiReduction .minimumf [1] ⟨1, ![a]⟩ src 0x7F800000#32 h hφ hacc (ix1 i)
      = (Finset.univ : Finset (Fin b)).fold min Cert.Spec.posInf (fun k => src (ix2 i k)) := by
  refine (multiReduction_minimumf_eq_fold src 0x7F800000#32 h hφ hacc (ix1 i)).trans ?_
  refine (h.fold_filter_drop_single _ _ src (ix1 i)).trans ?_
  exact congrArg (Finset.fold min Cert.Spec.posInf · Finset.univ) (funext fun k => congrArg src (lift_axis1 h i k))

/-- A column minimum: the fold of min from +inf over the rows. -/
theorem min_axis0 {a b : ℕ} (src : FVec Ideal ⟨2, ![a, b]⟩ .f32) (h : (⟨2, ![a, b]⟩ : Shape).Reduces [0] ⟨1, ![b]⟩)
    (hφ : FTy.f32 = FTy.f32 ∨ FTy.f32 = FTy.bf16) (hacc : (0x7F800000#32 : BitVec 32) = 0x7F800000#32) (j : Fin b) :
    multiReduction .minimumf [0] ⟨1, ![b]⟩ src 0x7F800000#32 h hφ hacc (ix1 j)
      = (Finset.univ : Finset (Fin a)).fold min Cert.Spec.posInf (fun k => src (ix2 k j)) := by
  refine (multiReduction_minimumf_eq_fold src 0x7F800000#32 h hφ hacc (ix1 j)).trans ?_
  refine (h.fold_filter_drop_single _ _ src (ix1 j)).trans ?_
  exact congrArg (Finset.fold min Cert.Spec.posInf · Finset.univ) (funext fun k => congrArg src (lift_axis0 h j k))

end Reductions

/-! ## The pair loss from its index-level expression -/

section Pair

open Cert.Spec

/-- The weight a label word's comparison with a class word gives: one where they agree, zero elsewhere. -/
theorem onehot_eq (x y : BitVec 32) :
    FloatOps.sitofp (F := Ideal) FTy.f32 (BitVec.setWidth 32 (IntOp.cmpi CmpIPredicate.eq x y)) = if x = y then (1 : EReal) else 0 := by
  have e : IntOp.cmpi CmpIPredicate.eq x y = BitVec.ofBool (x == y) := rfl
  have h1 : (BitVec.setWidth 32 (BitVec.ofBool true)).toInt = 1 := by decide
  have h0 : (BitVec.setWidth 32 (BitVec.ofBool false)).toInt = 0 := by decide
  show (((BitVec.setWidth 32 (IntOp.cmpi CmpIPredicate.eq x y)).toInt : ℝ) : EReal) = _
  rw [e]
  by_cases h : x = y
  · rw [if_pos h, h, beq_self_eq_true, h1]; simp
  · rw [if_neg h, beq_eq_false_iff_ne.2 h, h0]; simp

/-- Five one-hot weights against the negated entries of a column pick the negated entry at the label. -/
theorem onehot5 (n : Fin 5) (L : Fin 5 → EReal) :
    zero32 + FloatOps.sitofp (F := Ideal) FTy.f32 (BitVec.setWidth 32 (IntOp.cmpi CmpIPredicate.eq (BitVec.ofNat 32 n.val) 0#32)) * (zero32 - L 0)
      + FloatOps.sitofp (F := Ideal) FTy.f32 (BitVec.setWidth 32 (IntOp.cmpi CmpIPredicate.eq (BitVec.ofNat 32 n.val) 1#32)) * (zero32 - L 1)
      + FloatOps.sitofp (F := Ideal) FTy.f32 (BitVec.setWidth 32 (IntOp.cmpi CmpIPredicate.eq (BitVec.ofNat 32 n.val) 2#32)) * (zero32 - L 2)
      + FloatOps.sitofp (F := Ideal) FTy.f32 (BitVec.setWidth 32 (IntOp.cmpi CmpIPredicate.eq (BitVec.ofNat 32 n.val) 3#32)) * (zero32 - L 3)
      + FloatOps.sitofp (F := Ideal) FTy.f32 (BitVec.setWidth 32 (IntOp.cmpi CmpIPredicate.eq (BitVec.ofNat 32 n.val) 4#32)) * (zero32 - L 4)
      = -(L n) := by
  simp only [onehot_eq, Cert.Alg.zero32_eq]
  fin_cases n <;> simp

/-- Three one-hot weights likewise. -/
theorem onehot3 (n : Fin 3) (L : Fin 3 → EReal) :
    zero32 + FloatOps.sitofp (F := Ideal) FTy.f32 (BitVec.setWidth 32 (IntOp.cmpi CmpIPredicate.eq (BitVec.ofNat 32 n.val) 0#32)) * (zero32 - L 0)
      + FloatOps.sitofp (F := Ideal) FTy.f32 (BitVec.setWidth 32 (IntOp.cmpi CmpIPredicate.eq (BitVec.ofNat 32 n.val) 1#32)) * (zero32 - L 1)
      + FloatOps.sitofp (F := Ideal) FTy.f32 (BitVec.setWidth 32 (IntOp.cmpi CmpIPredicate.eq (BitVec.ofNat 32 n.val) 2#32)) * (zero32 - L 2)
      = -(L n) := by
  simp only [onehot_eq, Cert.Alg.zero32_eq]
  fin_cases n <;> simp

/-- Three squares added from zero and floored at zero are the sum of the squares. -/
theorem sq3 (f : Fin 3 → EReal) :
    max (zero32 + f 0 * f 0 + f 1 * f 1 + f 2 * f 2) zero32 = ∑ d : Fin 3, f d * f d := by
  rw [← Cert.Alg.max_sqsum_zero f, Fin.sum_univ_three, Cert.Alg.zero32_eq, zero_add]

end Pair

/-! ## One pair, and the two sums of minima -/

section Read

open Cert.Spec

/-- The index-level expression of the loss of the pair (i, j) of event e, as the block's vectors give it — the two
    one-hot accumulations over the log-softmax columns, the two floored distances, the squared energy difference —
    is the specification's pair loss. -/
theorem pair_read (e : Fin 8)
    (v0 v1 : (⟨3, ![8, 1, 256]⟩ : Shape).Idx → BitVec 32) (v2 : (⟨3, ![8, 5, 256]⟩ : Shape).Idx → EReal)
    (v3 v4 v5 v6 v7 : (⟨3, ![8, 3, 256]⟩ : Shape).Idx → EReal) (v8 v9 : (⟨3, ![8, 1, 256]⟩ : Shape).Idx → EReal)
    (lab : Fin 8 → Fin 256 → Fin 5) (chg : Fin 8 → Fin 256 → Fin 3)
    (hlab : ∀ (e' : Fin 8) (i : Fin 256), v0 (ix3 e' 0 i) = BitVec.ofNat 32 (lab e' i).val)
    (hchg : ∀ (e' : Fin 8) (i : Fin 256), v1 (ix3 e' 0 i) = BitVec.ofNat 32 (chg e' i).val)
    (i j : Fin 256) :
    ((((zero32 + FloatOps.sitofp (F := Ideal) FTy.f32 (BitVec.setWidth 32 (IntOp.cmpi CmpIPredicate.eq (v0 (ix3 e 0 i)) 0#32)) * (zero32 - lsm (fun k : Fin 5 => v2 (ix3 e k j)) 0)
          + FloatOps.sitofp (F := Ideal) FTy.f32 (BitVec.setWidth 32 (IntOp.cmpi CmpIPredicate.eq (v0 (ix3 e 0 i)) 1#32)) * (zero32 - lsm (fun k : Fin 5 => v2 (ix3 e k j)) 1)
          + FloatOps.sitofp (F := Ideal) FTy.f32 (BitVec.setWidth 32 (IntOp.cmpi CmpIPredicate.eq (v0 (ix3 e 0 i)) 2#32)) * (zero32 - lsm (fun k : Fin 5 => v2 (ix3 e k j)) 2)
          + FloatOps.sitofp (F := Ideal) FTy.f32 (BitVec.setWidth 32 (IntOp.cmpi CmpIPredicate.eq (v0 (ix3 e 0 i)) 3#32)) * (zero32 - lsm (fun k : Fin 5 => v2 (ix3 e k j)) 3)
          + FloatOps.sitofp (F := Ideal) FTy.f32 (BitVec.setWidth 32 (IntOp.cmpi CmpIPredicate.eq (v0 (ix3 e 0 i)) 4#32)) * (zero32 - lsm (fun k : Fin 5 => v2 (ix3 e k j)) 4))
        + (zero32 + FloatOps.sitofp (F := Ideal) FTy.f32 (BitVec.setWidth 32 (IntOp.cmpi CmpIPredicate.eq (v1 (ix3 e 0 i)) 0#32)) * (zero32 - lsm (fun k : Fin 3 => v3 (ix3 e k j)) 0)
          + FloatOps.sitofp (F := Ideal) FTy.f32 (BitVec.setWidth 32 (IntOp.cmpi CmpIPredicate.eq (v1 (ix3 e 0 i)) 1#32)) * (zero32 - lsm (fun k : Fin 3 => v3 (ix3 e k j)) 1)
          + FloatOps.sitofp (F := Ideal) FTy.f32 (BitVec.setWidth 32 (IntOp.cmpi CmpIPredicate.eq (v1 (ix3 e 0 i)) 2#32)) * (zero32 - lsm (fun k : Fin 3 => v3 (ix3 e k j)) 2)))
        + Ideal.sqrt (max (zero32 + (v4 (ix3 e 0 i) - v5 (ix3 e 0 j)) * (v4 (ix3 e 0 i) - v5 (ix3 e 0 j)) + (v4 (ix3 e 1 i) - v5 (ix3 e 1 j)) * (v4 (ix3 e 1 i) - v5 (ix3 e 1 j)) + (v4 (ix3 e 2 i) - v5 (ix3 e 2 j)) * (v4 (ix3 e 2 i) - v5 (ix3 e 2 j))) zero32))
        + Ideal.sqrt (max (zero32 + (v6 (ix3 e 0 i) - v7 (ix3 e 0 j)) * (v6 (ix3 e 0 i) - v7 (ix3 e 0 j)) + (v6 (ix3 e 1 i) - v7 (ix3 e 1 j)) * (v6 (ix3 e 1 i) - v7 (ix3 e 1 j)) + (v6 (ix3 e 2 i) - v7 (ix3 e 2 j)) * (v6 (ix3 e 2 i) - v7 (ix3 e 2 j))) zero32))
        + (v8 (ix3 e 0 i) - v9 (ix3 e 0 j)) * (v8 (ix3 e 0 i) - v9 (ix3 e 0 j))
      = blkLoss lab chg v2 v3 v4 v5 v6 v7 v8 v9 e i j := by
  unfold blkLoss
  refine congrArg₂ (· + ·) (congrArg₂ (· + ·) (congrArg₂ (· + ·) (congrArg₂ (· + ·) ?_ ?_) ?_) ?_) rfl
  · rw [hlab e i]; exact onehot5 (lab e i) (fun c => lsm (fun k : Fin 5 => v2 (ix3 e k j)) c)
  · rw [hchg e i]; exact onehot3 (chg e i) (fun c => lsm (fun k : Fin 3 => v3 (ix3 e k j)) c)
  · exact congrArg Ideal.sqrt (sq3 fun d => v4 (ix3 e d i) - v5 (ix3 e d j))
  · exact congrArg Ideal.sqrt (sq3 fun d => v6 (ix3 e d i) - v7 (ix3 e d j))

/-- Over the particles, the least over the nodes, added up: the particle sum. -/
theorem part_tail (E L : Fin 256 → Fin 256 → EReal) (h : ∀ i j, E i j = L i j) :
    ∑ i : Fin 256, Finset.fold min posInf (fun j => E i j) Finset.univ = partSum L := by
  unfold partSum
  exact Finset.sum_congr rfl fun i _ => congrArg (fun f => Finset.fold min posInf f Finset.univ) (funext fun j => h i j)

/-- Over the nodes, the least over the particles, added up: the flow sum. -/
theorem flow_tail (E L : Fin 256 → Fin 256 → EReal) (h : ∀ i j, E i j = L i j) :
    ∑ j : Fin 256, Finset.fold min posInf (fun i => E i j) Finset.univ = flowSum L := by
  unfold flowSum
  exact Finset.sum_congr rfl fun j _ => congrArg (fun f => Finset.fold min posInf f Finset.univ) (funext fun i => h i j)

end Read

end Cert.KernelIdeal.KEv

end
-- ==== Proof.KEv0.lean ====
/-
  Event 0 of a grid point's block: the value the kernel stores for the particle sum and for the flow sum,
  read at any lane, is the specification's sum of row minima and of column minima of the event's 256 × 256
  pair-loss matrix. Each store's payload is pushed to an index through its layout operations, reductions and
  pointwise operations; what is left under the two sums is the pair's index-level expression, which the shared
  lemma identifies with the specification's pair loss.
-/
import proofs.«414995_j25194278158453_3_alg».proof.Proof.Gen.KernelIdeal.Skeleton
import proofs.«414995_j25194278158453_3_alg».proof.Proof.Spec
import proofs.«414995_j25194278158453_3_alg».proof.Proof.KLemmas

noncomputable section

namespace Cert.KernelIdeal.KEv

open Idealize.ShloMosaic Idealize.ShloMosaic.ValueIdx
open Cert.KernelIdeal Cert.KernelIdeal.Gen

set_option maxHeartbeats 1000000 in
/-- The particle sum of event 0. -/
theorem part_0 (v0 v1 : Vec Ideal S8x1x256 .i32) (v2 : Vec Ideal S8x5x256 .f32) (v3 v4 v5 v6 v7 : Vec Ideal S8x3x256 .f32) (v8 v9 : Vec Ideal S8x1x256 .f32)
    (lab : Fin 8 → Fin 256 → Fin 5) (chg : Fin 8 → Fin 256 → Fin 3)
    (hlab : ∀ (e' : Fin 8) (i : Fin 256), v0 (ix3 e' 0 i) = BitVec.ofNat 32 (lab e' i).val) (hchg : ∀ (e' : Fin 8) (i : Fin 256), v1 (ix3 e' 0 i) = BitVec.ofNat 32 (chg e' i).val)
    (y : S1x1x128.Idx) :
    (k0_pay38 (k0_pay18 (k0_pay9 v6)) (k0_pay19 (k0_pay10 v7)) (k0_pay20 (k0_pay11 v8)) (k0_pay21 (k0_pay12 v9)) (k0_pay31 (k0_pay28 (k0_pay13 v0) (k0_pay23 (k0_pay15 v2)) (k0_pay25 (F := Ideal)) (k0_pay26 (F := Ideal) (k0_pay13 v0)) (k0_pay27 (k0_pay15 v2))) (k0_pay29 (F := Ideal) (k0_pay13 v0)) (k0_pay30 (k0_pay23 (k0_pay15 v2)))) (k0_pay32 (k0_pay14 v1) (k0_pay24 (k0_pay6 v3))) (k0_pay33 (k0_pay16 (k0_pay7 v4)) (k0_pay17 (k0_pay8 v5)) (Scalar.ofBits .f32 0x00000000#32)) (k0_pay34 (k0_pay18 (k0_pay9 v6)) (k0_pay19 (k0_pay10 v7))) (k0_pay35 (k0_pay18 (k0_pay9 v6)) (k0_pay19 (k0_pay10 v7)))) y
      = Cert.Spec.partSum (Cert.Spec.blkLoss lab chg v2 v3 v4 v5 v6 v7 v8 v9 (0 : Fin 8))
  := by
  obtain ⟨a, b, c, rfl⟩ := exists_ix3 y
  simp (config := { proj := false }) only [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236, k0_pay237, k0_pay238,
    k0_pay239, k0_pay240, k0_pay241, k0_pay242, k0_pay243,
    shapeCast_self, shapeCast_ab_1ab_apply, shapeCast_1ab_ab_apply, shapeCast_a_1a_apply, shapeCast_1a_a_apply, cast_a_a1, cast_11a_a,
    bc_a1_ab, broadcastTo_1b_ab_apply,
    slab8_0, slab8_1, slab8_2, slab8_3, slab8_4, slab8_5, slab8_6, slab8_7,
    row3_0, row3_1, row3_2, row5_0, row5_1, row5_2, row5_3, row5_4,
    ↓sum_axis0, ↓sum_axis1, ↓max_axis0, ↓min_axis0, ↓min_axis1,
    mulf_apply, addf_apply, subf_apply, maximumf_apply, broadcast_apply, extui_apply, sitofp_apply,
    exp_apply, log_apply, sqrt_apply, cmpi_apply]
  exact part_tail _ _ (fun i j => pair_read 0 v0 v1 v2 v3 v4 v5 v6 v7 v8 v9 lab chg hlab hchg i j)

set_option maxHeartbeats 1000000 in
/-- The flow sum of event 0. -/
theorem flow_0 (v0 v1 : Vec Ideal S8x1x256 .i32) (v2 : Vec Ideal S8x5x256 .f32) (v3 v4 v5 v6 v7 : Vec Ideal S8x3x256 .f32) (v8 v9 : Vec Ideal S8x1x256 .f32)
    (lab : Fin 8 → Fin 256 → Fin 5) (chg : Fin 8 → Fin 256 → Fin 3)
    (hlab : ∀ (e' : Fin 8) (i : Fin 256), v0 (ix3 e' 0 i) = BitVec.ofNat 32 (lab e' i).val) (hchg : ∀ (e' : Fin 8) (i : Fin 256), v1 (ix3 e' 0 i) = BitVec.ofNat 32 (chg e' i).val)
    (y : S1x1x128.Idx) :
    (k0_pay39 (k0_pay18 (k0_pay9 v6)) (k0_pay19 (k0_pay10 v7)) (k0_pay20 (k0_pay11 v8)) (k0_pay21 (k0_pay12 v9)) (k0_pay31 (k0_pay28 (k0_pay13 v0) (k0_pay23 (k0_pay15 v2)) (k0_pay25 (F := Ideal)) (k0_pay26 (F := Ideal) (k0_pay13 v0)) (k0_pay27 (k0_pay15 v2))) (k0_pay29 (F := Ideal) (k0_pay13 v0)) (k0_pay30 (k0_pay23 (k0_pay15 v2)))) (k0_pay32 (k0_pay14 v1) (k0_pay24 (k0_pay6 v3))) (k0_pay33 (k0_pay16 (k0_pay7 v4)) (k0_pay17 (k0_pay8 v5)) (Scalar.ofBits .f32 0x00000000#32)) (k0_pay34 (k0_pay18 (k0_pay9 v6)) (k0_pay19 (k0_pay10 v7))) (k0_pay35 (k0_pay18 (k0_pay9 v6)) (k0_pay19 (k0_pay10 v7)))) y
      = Cert.Spec.flowSum (Cert.Spec.blkLoss lab chg v2 v3 v4 v5 v6 v7 v8 v9 (0 : Fin 8))
  := by
  obtain ⟨a, b, c, rfl⟩ := exists_ix3 y
  simp (config := { proj := false }) only [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236, k0_pay237, k0_pay238,
    k0_pay239, k0_pay240, k0_pay241, k0_pay242, k0_pay243,
    shapeCast_self, shapeCast_ab_1ab_apply, shapeCast_1ab_ab_apply, shapeCast_a_1a_apply, shapeCast_1a_a_apply, cast_a_a1, cast_11a_a,
    bc_a1_ab, broadcastTo_1b_ab_apply,
    slab8_0, slab8_1, slab8_2, slab8_3, slab8_4, slab8_5, slab8_6, slab8_7,
    row3_0, row3_1, row3_2, row5_0, row5_1, row5_2, row5_3, row5_4,
    ↓sum_axis0, ↓sum_axis1, ↓max_axis0, ↓min_axis0, ↓min_axis1,
    mulf_apply, addf_apply, subf_apply, maximumf_apply, broadcast_apply, extui_apply, sitofp_apply,
    exp_apply, log_apply, sqrt_apply, cmpi_apply]
  exact flow_tail _ _ (fun i j => pair_read 0 v0 v1 v2 v3 v4 v5 v6 v7 v8 v9 lab chg hlab hchg i j)

end Cert.KernelIdeal.KEv

end
-- ==== Proof.KEv1.lean ====
/-
  Event 1 of a grid point's block: the value the kernel stores for the particle sum and for the flow sum,
  read at any lane, is the specification's sum of row minima and of column minima of the event's 256 × 256
  pair-loss matrix. Each store's payload is pushed to an index through its layout operations, reductions and
  pointwise operations; what is left under the two sums is the pair's index-level expression, which the shared
  lemma identifies with the specification's pair loss.
-/
import proofs.«414995_j25194278158453_3_alg».proof.Proof.Gen.KernelIdeal.Skeleton
import proofs.«414995_j25194278158453_3_alg».proof.Proof.Spec
import proofs.«414995_j25194278158453_3_alg».proof.Proof.KLemmas

noncomputable section

namespace Cert.KernelIdeal.KEv

open Idealize.ShloMosaic Idealize.ShloMosaic.ValueIdx
open Cert.KernelIdeal Cert.KernelIdeal.Gen

set_option maxHeartbeats 1000000 in
/-- The particle sum of event 1. -/
theorem part_1 (v0 v1 : Vec Ideal S8x1x256 .i32) (v2 : Vec Ideal S8x5x256 .f32) (v3 v4 v5 v6 v7 : Vec Ideal S8x3x256 .f32) (v8 v9 : Vec Ideal S8x1x256 .f32)
    (lab : Fin 8 → Fin 256 → Fin 5) (chg : Fin 8 → Fin 256 → Fin 3)
    (hlab : ∀ (e' : Fin 8) (i : Fin 256), v0 (ix3 e' 0 i) = BitVec.ofNat 32 (lab e' i).val) (hchg : ∀ (e' : Fin 8) (i : Fin 256), v1 (ix3 e' 0 i) = BitVec.ofNat 32 (chg e' i).val)
    (y : S1x1x128.Idx) :
    (k0_pay67 (k0_pay66 (k0_pay45 (k0_pay9 v6)) (k0_pay46 (k0_pay10 v7)) (k0_pay47 (k0_pay11 v8)) (k0_pay48 (k0_pay12 v9)) (k0_pay55 (k0_pay41 (k0_pay3 v0)) (k0_pay50 (k0_pay5 v2)) (k0_pay52 (k0_pay41 (k0_pay3 v0)) (k0_pay50 (k0_pay5 v2)) (Scalar.ofBits .f32 0x00000000#32)) (k0_pay53 (F := Ideal) (k0_pay41 (k0_pay3 v0))) (k0_pay54 (k0_pay50 (k0_pay5 v2)))) (k0_pay58 (k0_pay51 (k0_pay6 v3)) (k0_pay56 (k0_pay42 (k0_pay4 v1)) (k0_pay51 (k0_pay6 v3))) (k0_pay57 (F := Ideal) (k0_pay42 (k0_pay4 v1)))) (k0_pay59 (k0_pay43 (k0_pay7 v4)) (k0_pay44 (k0_pay8 v5))) (k0_pay60 (F := Ideal)) (k0_pay61 (k0_pay45 (k0_pay9 v6))) (k0_pay62 (k0_pay46 (k0_pay10 v7))))) y
      = Cert.Spec.partSum (Cert.Spec.blkLoss lab chg v2 v3 v4 v5 v6 v7 v8 v9 (1 : Fin 8))
  := by
  obtain ⟨a, b, c, rfl⟩ := exists_ix3 y
  simp (config := { proj := false }) only [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236, k0_pay237, k0_pay238,
    k0_pay239, k0_pay240, k0_pay241, k0_pay242, k0_pay243,
    shapeCast_self, shapeCast_ab_1ab_apply, shapeCast_1ab_ab_apply, shapeCast_a_1a_apply, shapeCast_1a_a_apply, cast_a_a1, cast_11a_a,
    bc_a1_ab, broadcastTo_1b_ab_apply,
    slab8_0, slab8_1, slab8_2, slab8_3, slab8_4, slab8_5, slab8_6, slab8_7,
    row3_0, row3_1, row3_2, row5_0, row5_1, row5_2, row5_3, row5_4,
    ↓sum_axis0, ↓sum_axis1, ↓max_axis0, ↓min_axis0, ↓min_axis1,
    mulf_apply, addf_apply, subf_apply, maximumf_apply, broadcast_apply, extui_apply, sitofp_apply,
    exp_apply, log_apply, sqrt_apply, cmpi_apply]
  exact part_tail _ _ (fun i j => pair_read 1 v0 v1 v2 v3 v4 v5 v6 v7 v8 v9 lab chg hlab hchg i j)

set_option maxHeartbeats 1000000 in
/-- The flow sum of event 1. -/
theorem flow_1 (v0 v1 : Vec Ideal S8x1x256 .i32) (v2 : Vec Ideal S8x5x256 .f32) (v3 v4 v5 v6 v7 : Vec Ideal S8x3x256 .f32) (v8 v9 : Vec Ideal S8x1x256 .f32)
    (lab : Fin 8 → Fin 256 → Fin 5) (chg : Fin 8 → Fin 256 → Fin 3)
    (hlab : ∀ (e' : Fin 8) (i : Fin 256), v0 (ix3 e' 0 i) = BitVec.ofNat 32 (lab e' i).val) (hchg : ∀ (e' : Fin 8) (i : Fin 256), v1 (ix3 e' 0 i) = BitVec.ofNat 32 (chg e' i).val)
    (y : S1x1x128.Idx) :
    (k0_pay68 (k0_pay64 (k0_pay45 (k0_pay9 v6)) (k0_pay46 (k0_pay10 v7)) (k0_pay47 (k0_pay11 v8)) (k0_pay48 (k0_pay12 v9)) (k0_pay55 (k0_pay41 (k0_pay3 v0)) (k0_pay50 (k0_pay5 v2)) (k0_pay52 (k0_pay41 (k0_pay3 v0)) (k0_pay50 (k0_pay5 v2)) (Scalar.ofBits .f32 0x00000000#32)) (k0_pay53 (F := Ideal) (k0_pay41 (k0_pay3 v0))) (k0_pay54 (k0_pay50 (k0_pay5 v2)))) (k0_pay58 (k0_pay51 (k0_pay6 v3)) (k0_pay56 (k0_pay42 (k0_pay4 v1)) (k0_pay51 (k0_pay6 v3))) (k0_pay57 (F := Ideal) (k0_pay42 (k0_pay4 v1)))) (k0_pay59 (k0_pay43 (k0_pay7 v4)) (k0_pay44 (k0_pay8 v5))) (k0_pay60 (F := Ideal)) (k0_pay61 (k0_pay45 (k0_pay9 v6))) (k0_pay62 (k0_pay46 (k0_pay10 v7))))) y
      = Cert.Spec.flowSum (Cert.Spec.blkLoss lab chg v2 v3 v4 v5 v6 v7 v8 v9 (1 : Fin 8))
  := by
  obtain ⟨a, b, c, rfl⟩ := exists_ix3 y
  simp (config := { proj := false }) only [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236, k0_pay237, k0_pay238,
    k0_pay239, k0_pay240, k0_pay241, k0_pay242, k0_pay243,
    shapeCast_self, shapeCast_ab_1ab_apply, shapeCast_1ab_ab_apply, shapeCast_a_1a_apply, shapeCast_1a_a_apply, cast_a_a1, cast_11a_a,
    bc_a1_ab, broadcastTo_1b_ab_apply,
    slab8_0, slab8_1, slab8_2, slab8_3, slab8_4, slab8_5, slab8_6, slab8_7,
    row3_0, row3_1, row3_2, row5_0, row5_1, row5_2, row5_3, row5_4,
    ↓sum_axis0, ↓sum_axis1, ↓max_axis0, ↓min_axis0, ↓min_axis1,
    mulf_apply, addf_apply, subf_apply, maximumf_apply, broadcast_apply, extui_apply, sitofp_apply,
    exp_apply, log_apply, sqrt_apply, cmpi_apply]
  exact flow_tail _ _ (fun i j => pair_read 1 v0 v1 v2 v3 v4 v5 v6 v7 v8 v9 lab chg hlab hchg i j)

end Cert.KernelIdeal.KEv

end
-- ==== Proof.KEv2.lean ====
/-
  Event 2 of a grid point's block: the value the kernel stores for the particle sum and for the flow sum,
  read at any lane, is the specification's sum of row minima and of column minima of the event's 256 × 256
  pair-loss matrix. Each store's payload is pushed to an index through its layout operations, reductions and
  pointwise operations; what is left under the two sums is the pair's index-level expression, which the shared
  lemma identifies with the specification's pair loss.
-/
import proofs.«414995_j25194278158453_3_alg».proof.Proof.Gen.KernelIdeal.Skeleton
import proofs.«414995_j25194278158453_3_alg».proof.Proof.Spec
import proofs.«414995_j25194278158453_3_alg».proof.Proof.KLemmas

noncomputable section

namespace Cert.KernelIdeal.KEv

open Idealize.ShloMosaic Idealize.ShloMosaic.ValueIdx
open Cert.KernelIdeal Cert.KernelIdeal.Gen

set_option maxHeartbeats 1000000 in
/-- The particle sum of event 2. -/
theorem part_2 (v0 v1 : Vec Ideal S8x1x256 .i32) (v2 : Vec Ideal S8x5x256 .f32) (v3 v4 v5 v6 v7 : Vec Ideal S8x3x256 .f32) (v8 v9 : Vec Ideal S8x1x256 .f32)
    (lab : Fin 8 → Fin 256 → Fin 5) (chg : Fin 8 → Fin 256 → Fin 3)
    (hlab : ∀ (e' : Fin 8) (i : Fin 256), v0 (ix3 e' 0 i) = BitVec.ofNat 32 (lab e' i).val) (hchg : ∀ (e' : Fin 8) (i : Fin 256), v1 (ix3 e' 0 i) = BitVec.ofNat 32 (chg e' i).val)
    (y : S1x1x128.Idx) :
    (k0_pay96 (k0_pay95 (k0_pay75 (k0_pay9 v6)) (k0_pay76 (k0_pay10 v7)) (k0_pay77 (k0_pay11 v8)) (k0_pay78 (k0_pay12 v9)) (k0_pay86 (k0_pay70 (k0_pay3 v0)) (k0_pay80 (k0_pay5 v2)) (k0_pay84 (k0_pay70 (k0_pay3 v0)) (k0_pay80 (k0_pay5 v2))) (k0_pay85 (k0_pay70 (k0_pay3 v0)) (k0_pay80 (k0_pay5 v2)))) (k0_pay90 (k0_pay71 (k0_pay4 v1)) (k0_pay83 (k0_pay72 (k0_pay6 v3)) (k0_pay81 (k0_pay6 v3)) (k0_pay82 (F := Ideal))) (k0_pay87 (k0_pay71 (k0_pay4 v1)) (k0_pay83 (k0_pay72 (k0_pay6 v3)) (k0_pay81 (k0_pay6 v3)) (k0_pay82 (F := Ideal)))) (k0_pay88 (F := Ideal) (k0_pay71 (k0_pay4 v1))) (k0_pay89 (k0_pay83 (k0_pay72 (k0_pay6 v3)) (k0_pay81 (k0_pay6 v3)) (k0_pay82 (F := Ideal)))) (Scalar.ofBits .f32 0x00000000#32)) (k0_pay91 (k0_pay73 (k0_pay7 v4)) (k0_pay74 (k0_pay8 v5))) (k0_pay92 (F := Ideal)))) y
      = Cert.Spec.partSum (Cert.Spec.blkLoss lab chg v2 v3 v4 v5 v6 v7 v8 v9 (2 : Fin 8))
  := by
  obtain ⟨a, b, c, rfl⟩ := exists_ix3 y
  simp (config := { proj := false }) only [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236, k0_pay237, k0_pay238,
    k0_pay239, k0_pay240, k0_pay241, k0_pay242, k0_pay243,
    shapeCast_self, shapeCast_ab_1ab_apply, shapeCast_1ab_ab_apply, shapeCast_a_1a_apply, shapeCast_1a_a_apply, cast_a_a1, cast_11a_a,
    bc_a1_ab, broadcastTo_1b_ab_apply,
    slab8_0, slab8_1, slab8_2, slab8_3, slab8_4, slab8_5, slab8_6, slab8_7,
    row3_0, row3_1, row3_2, row5_0, row5_1, row5_2, row5_3, row5_4,
    ↓sum_axis0, ↓sum_axis1, ↓max_axis0, ↓min_axis0, ↓min_axis1,
    mulf_apply, addf_apply, subf_apply, maximumf_apply, broadcast_apply, extui_apply, sitofp_apply,
    exp_apply, log_apply, sqrt_apply, cmpi_apply]
  exact part_tail _ _ (fun i j => pair_read 2 v0 v1 v2 v3 v4 v5 v6 v7 v8 v9 lab chg hlab hchg i j)

set_option maxHeartbeats 1000000 in
/-- The flow sum of event 2. -/
theorem flow_2 (v0 v1 : Vec Ideal S8x1x256 .i32) (v2 : Vec Ideal S8x5x256 .f32) (v3 v4 v5 v6 v7 : Vec Ideal S8x3x256 .f32) (v8 v9 : Vec Ideal S8x1x256 .f32)
    (lab : Fin 8 → Fin 256 → Fin 5) (chg : Fin 8 → Fin 256 → Fin 3)
    (hlab : ∀ (e' : Fin 8) (i : Fin 256), v0 (ix3 e' 0 i) = BitVec.ofNat 32 (lab e' i).val) (hchg : ∀ (e' : Fin 8) (i : Fin 256), v1 (ix3 e' 0 i) = BitVec.ofNat 32 (chg e' i).val)
    (y : S1x1x128.Idx) :
    (k0_pay97 (k0_pay94 (k0_pay75 (k0_pay9 v6)) (k0_pay76 (k0_pay10 v7)) (k0_pay77 (k0_pay11 v8)) (k0_pay78 (k0_pay12 v9)) (k0_pay86 (k0_pay70 (k0_pay3 v0)) (k0_pay80 (k0_pay5 v2)) (k0_pay84 (k0_pay70 (k0_pay3 v0)) (k0_pay80 (k0_pay5 v2))) (k0_pay85 (k0_pay70 (k0_pay3 v0)) (k0_pay80 (k0_pay5 v2)))) (k0_pay90 (k0_pay71 (k0_pay4 v1)) (k0_pay83 (k0_pay72 (k0_pay6 v3)) (k0_pay81 (k0_pay6 v3)) (k0_pay82 (F := Ideal))) (k0_pay87 (k0_pay71 (k0_pay4 v1)) (k0_pay83 (k0_pay72 (k0_pay6 v3)) (k0_pay81 (k0_pay6 v3)) (k0_pay82 (F := Ideal)))) (k0_pay88 (F := Ideal) (k0_pay71 (k0_pay4 v1))) (k0_pay89 (k0_pay83 (k0_pay72 (k0_pay6 v3)) (k0_pay81 (k0_pay6 v3)) (k0_pay82 (F := Ideal)))) (Scalar.ofBits .f32 0x00000000#32)) (k0_pay91 (k0_pay73 (k0_pay7 v4)) (k0_pay74 (k0_pay8 v5))) (k0_pay92 (F := Ideal)))) y
      = Cert.Spec.flowSum (Cert.Spec.blkLoss lab chg v2 v3 v4 v5 v6 v7 v8 v9 (2 : Fin 8))
  := by
  obtain ⟨a, b, c, rfl⟩ := exists_ix3 y
  simp (config := { proj := false }) only [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236, k0_pay237, k0_pay238,
    k0_pay239, k0_pay240, k0_pay241, k0_pay242, k0_pay243,
    shapeCast_self, shapeCast_ab_1ab_apply, shapeCast_1ab_ab_apply, shapeCast_a_1a_apply, shapeCast_1a_a_apply, cast_a_a1, cast_11a_a,
    bc_a1_ab, broadcastTo_1b_ab_apply,
    slab8_0, slab8_1, slab8_2, slab8_3, slab8_4, slab8_5, slab8_6, slab8_7,
    row3_0, row3_1, row3_2, row5_0, row5_1, row5_2, row5_3, row5_4,
    ↓sum_axis0, ↓sum_axis1, ↓max_axis0, ↓min_axis0, ↓min_axis1,
    mulf_apply, addf_apply, subf_apply, maximumf_apply, broadcast_apply, extui_apply, sitofp_apply,
    exp_apply, log_apply, sqrt_apply, cmpi_apply]
  exact flow_tail _ _ (fun i j => pair_read 2 v0 v1 v2 v3 v4 v5 v6 v7 v8 v9 lab chg hlab hchg i j)

end Cert.KernelIdeal.KEv

end
-- ==== Proof.KEv3.lean ====
/-
  Event 3 of a grid point's block: the value the kernel stores for the particle sum and for the flow sum,
  read at any lane, is the specification's sum of row minima and of column minima of the event's 256 × 256
  pair-loss matrix. Each store's payload is pushed to an index through its layout operations, reductions and
  pointwise operations; what is left under the two sums is the pair's index-level expression, which the shared
  lemma identifies with the specification's pair loss.
-/
import proofs.«414995_j25194278158453_3_alg».proof.Proof.Gen.KernelIdeal.Skeleton
import proofs.«414995_j25194278158453_3_alg».proof.Proof.Spec
import proofs.«414995_j25194278158453_3_alg».proof.Proof.KLemmas

noncomputable section

namespace Cert.KernelIdeal.KEv

open Idealize.ShloMosaic Idealize.ShloMosaic.ValueIdx
open Cert.KernelIdeal Cert.KernelIdeal.Gen

set_option maxHeartbeats 1000000 in
/-- The particle sum of event 3. -/
theorem part_3 (v0 v1 : Vec Ideal S8x1x256 .i32) (v2 : Vec Ideal S8x5x256 .f32) (v3 v4 v5 v6 v7 : Vec Ideal S8x3x256 .f32) (v8 v9 : Vec Ideal S8x1x256 .f32)
    (lab : Fin 8 → Fin 256 → Fin 5) (chg : Fin 8 → Fin 256 → Fin 3)
    (hlab : ∀ (e' : Fin 8) (i : Fin 256), v0 (ix3 e' 0 i) = BitVec.ofNat 32 (lab e' i).val) (hchg : ∀ (e' : Fin 8) (i : Fin 256), v1 (ix3 e' 0 i) = BitVec.ofNat 32 (chg e' i).val)
    (y : S1x1x128.Idx) :
    (k0_pay127 (k0_pay122 (k0_pay104 (k0_pay8 v5)) (k0_pay120 (k0_pay103 (k0_pay7 v4)) (k0_pay104 (k0_pay8 v5))) (k0_pay121 (k0_pay103 (k0_pay7 v4)))) (k0_pay123 (k0_pay105 (k0_pay9 v6)) (k0_pay106 (k0_pay10 v7))) (k0_pay124 (k0_pay107 (k0_pay11 v8)) (k0_pay108 (k0_pay12 v9))) (k0_pay125 (k0_pay115 (k0_pay99 (k0_pay3 v0)) (k0_pay111 (k0_pay101 (k0_pay5 v2)) (k0_pay110 (k0_pay5 v2))) (k0_pay113 (k0_pay99 (k0_pay3 v0)) (k0_pay101 (k0_pay5 v2)) (k0_pay110 (k0_pay5 v2))) (k0_pay114 (k0_pay99 (k0_pay3 v0)))) (k0_pay119 (k0_pay100 (k0_pay4 v1)) (k0_pay112 (k0_pay102 (k0_pay6 v3))) (k0_pay116 (F := Ideal)) (k0_pay117 (k0_pay112 (k0_pay102 (k0_pay6 v3)))) (k0_pay118 (F := Ideal) (k0_pay100 (k0_pay4 v1)))))) y
      = Cert.Spec.partSum (Cert.Spec.blkLoss lab chg v2 v3 v4 v5 v6 v7 v8 v9 (3 : Fin 8))
  := by
  obtain ⟨a, b, c, rfl⟩ := exists_ix3 y
  simp (config := { proj := false }) only [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236, k0_pay237, k0_pay238,
    k0_pay239, k0_pay240, k0_pay241, k0_pay242, k0_pay243,
    shapeCast_self, shapeCast_ab_1ab_apply, shapeCast_1ab_ab_apply, shapeCast_a_1a_apply, shapeCast_1a_a_apply, cast_a_a1, cast_11a_a,
    bc_a1_ab, broadcastTo_1b_ab_apply,
    slab8_0, slab8_1, slab8_2, slab8_3, slab8_4, slab8_5, slab8_6, slab8_7,
    row3_0, row3_1, row3_2, row5_0, row5_1, row5_2, row5_3, row5_4,
    ↓sum_axis0, ↓sum_axis1, ↓max_axis0, ↓min_axis0, ↓min_axis1,
    mulf_apply, addf_apply, subf_apply, maximumf_apply, broadcast_apply, extui_apply, sitofp_apply,
    exp_apply, log_apply, sqrt_apply, cmpi_apply]
  exact part_tail _ _ (fun i j => pair_read 3 v0 v1 v2 v3 v4 v5 v6 v7 v8 v9 lab chg hlab hchg i j)

set_option maxHeartbeats 1000000 in
/-- The flow sum of event 3. -/
theorem flow_3 (v0 v1 : Vec Ideal S8x1x256 .i32) (v2 : Vec Ideal S8x5x256 .f32) (v3 v4 v5 v6 v7 : Vec Ideal S8x3x256 .f32) (v8 v9 : Vec Ideal S8x1x256 .f32)
    (lab : Fin 8 → Fin 256 → Fin 5) (chg : Fin 8 → Fin 256 → Fin 3)
    (hlab : ∀ (e' : Fin 8) (i : Fin 256), v0 (ix3 e' 0 i) = BitVec.ofNat 32 (lab e' i).val) (hchg : ∀ (e' : Fin 8) (i : Fin 256), v1 (ix3 e' 0 i) = BitVec.ofNat 32 (chg e' i).val)
    (y : S1x1x128.Idx) :
    (k0_pay128 (k0_pay122 (k0_pay104 (k0_pay8 v5)) (k0_pay120 (k0_pay103 (k0_pay7 v4)) (k0_pay104 (k0_pay8 v5))) (k0_pay121 (k0_pay103 (k0_pay7 v4)))) (k0_pay123 (k0_pay105 (k0_pay9 v6)) (k0_pay106 (k0_pay10 v7))) (k0_pay124 (k0_pay107 (k0_pay11 v8)) (k0_pay108 (k0_pay12 v9))) (k0_pay125 (k0_pay115 (k0_pay99 (k0_pay3 v0)) (k0_pay111 (k0_pay101 (k0_pay5 v2)) (k0_pay110 (k0_pay5 v2))) (k0_pay113 (k0_pay99 (k0_pay3 v0)) (k0_pay101 (k0_pay5 v2)) (k0_pay110 (k0_pay5 v2))) (k0_pay114 (k0_pay99 (k0_pay3 v0)))) (k0_pay119 (k0_pay100 (k0_pay4 v1)) (k0_pay112 (k0_pay102 (k0_pay6 v3))) (k0_pay116 (F := Ideal)) (k0_pay117 (k0_pay112 (k0_pay102 (k0_pay6 v3)))) (k0_pay118 (F := Ideal) (k0_pay100 (k0_pay4 v1)))))) y
      = Cert.Spec.flowSum (Cert.Spec.blkLoss lab chg v2 v3 v4 v5 v6 v7 v8 v9 (3 : Fin 8))
  := by
  obtain ⟨a, b, c, rfl⟩ := exists_ix3 y
  simp (config := { proj := false }) only [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236, k0_pay237, k0_pay238,
    k0_pay239, k0_pay240, k0_pay241, k0_pay242, k0_pay243,
    shapeCast_self, shapeCast_ab_1ab_apply, shapeCast_1ab_ab_apply, shapeCast_a_1a_apply, shapeCast_1a_a_apply, cast_a_a1, cast_11a_a,
    bc_a1_ab, broadcastTo_1b_ab_apply,
    slab8_0, slab8_1, slab8_2, slab8_3, slab8_4, slab8_5, slab8_6, slab8_7,
    row3_0, row3_1, row3_2, row5_0, row5_1, row5_2, row5_3, row5_4,
    ↓sum_axis0, ↓sum_axis1, ↓max_axis0, ↓min_axis0, ↓min_axis1,
    mulf_apply, addf_apply, subf_apply, maximumf_apply, broadcast_apply, extui_apply, sitofp_apply,
    exp_apply, log_apply, sqrt_apply, cmpi_apply]
  exact flow_tail _ _ (fun i j => pair_read 3 v0 v1 v2 v3 v4 v5 v6 v7 v8 v9 lab chg hlab hchg i j)

end Cert.KernelIdeal.KEv

end
-- ==== Proof.KEv4.lean ====
/-
  Event 4 of a grid point's block: the value the kernel stores for the particle sum and for the flow sum,
  read at any lane, is the specification's sum of row minima and of column minima of the event's 256 × 256
  pair-loss matrix. Each store's payload is pushed to an index through its layout operations, reductions and
  pointwise operations; what is left under the two sums is the pair's index-level expression, which the shared
  lemma identifies with the specification's pair loss.
-/
import proofs.«414995_j25194278158453_3_alg».proof.Proof.Gen.KernelIdeal.Skeleton
import proofs.«414995_j25194278158453_3_alg».proof.Proof.Spec
import proofs.«414995_j25194278158453_3_alg».proof.Proof.KLemmas

noncomputable section

namespace Cert.KernelIdeal.KEv

open Idealize.ShloMosaic Idealize.ShloMosaic.ValueIdx
open Cert.KernelIdeal Cert.KernelIdeal.Gen

set_option maxHeartbeats 1000000 in
/-- The particle sum of event 4. -/
theorem part_4 (v0 v1 : Vec Ideal S8x1x256 .i32) (v2 : Vec Ideal S8x5x256 .f32) (v3 v4 v5 v6 v7 : Vec Ideal S8x3x256 .f32) (v8 v9 : Vec Ideal S8x1x256 .f32)
    (lab : Fin 8 → Fin 256 → Fin 5) (chg : Fin 8 → Fin 256 → Fin 3)
    (hlab : ∀ (e' : Fin 8) (i : Fin 256), v0 (ix3 e' 0 i) = BitVec.ofNat 32 (lab e' i).val) (hchg : ∀ (e' : Fin 8) (i : Fin 256), v1 (ix3 e' 0 i) = BitVec.ofNat 32 (chg e' i).val)
    (y : S1x1x128.Idx) :
    (k0_pay155 (k0_pay139 (k0_pay138 (k0_pay11 v8))) (k0_pay140 (k0_pay12 v9)) (k0_pay147 (k0_pay130 (k0_pay3 v0)) (k0_pay142 (k0_pay132 (k0_pay5 v2))) (k0_pay144 (k0_pay130 (k0_pay3 v0)) (k0_pay132 (k0_pay5 v2))) (k0_pay145 (F := Ideal) (k0_pay130 (k0_pay3 v0))) (k0_pay146 (k0_pay132 (k0_pay5 v2)))) (k0_pay149 (k0_pay131 (k0_pay4 v1)) (k0_pay143 (k0_pay133 (k0_pay6 v3))) (k0_pay148 (F := Ideal)) 0#32) (k0_pay151 (k0_pay134 (k0_pay7 v4)) (k0_pay135 (k0_pay8 v5)) (k0_pay150 (k0_pay134 (k0_pay7 v4)) (k0_pay135 (k0_pay8 v5)))) (k0_pay152 (k0_pay136 (k0_pay9 v6)) (k0_pay137 (k0_pay10 v7))) (k0_pay153 (k0_pay136 (k0_pay9 v6)) (k0_pay137 (k0_pay10 v7)))) y
      = Cert.Spec.partSum (Cert.Spec.blkLoss lab chg v2 v3 v4 v5 v6 v7 v8 v9 (4 : Fin 8))
  := by
  obtain ⟨a, b, c, rfl⟩ := exists_ix3 y
  simp (config := { proj := false }) only [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236, k0_pay237, k0_pay238,
    k0_pay239, k0_pay240, k0_pay241, k0_pay242, k0_pay243,
    shapeCast_self, shapeCast_ab_1ab_apply, shapeCast_1ab_ab_apply, shapeCast_a_1a_apply, shapeCast_1a_a_apply, cast_a_a1, cast_11a_a,
    bc_a1_ab, broadcastTo_1b_ab_apply,
    slab8_0, slab8_1, slab8_2, slab8_3, slab8_4, slab8_5, slab8_6, slab8_7,
    row3_0, row3_1, row3_2, row5_0, row5_1, row5_2, row5_3, row5_4,
    ↓sum_axis0, ↓sum_axis1, ↓max_axis0, ↓min_axis0, ↓min_axis1,
    mulf_apply, addf_apply, subf_apply, maximumf_apply, broadcast_apply, extui_apply, sitofp_apply,
    exp_apply, log_apply, sqrt_apply, cmpi_apply]
  exact part_tail _ _ (fun i j => pair_read 4 v0 v1 v2 v3 v4 v5 v6 v7 v8 v9 lab chg hlab hchg i j)

set_option maxHeartbeats 1000000 in
/-- The flow sum of event 4. -/
theorem flow_4 (v0 v1 : Vec Ideal S8x1x256 .i32) (v2 : Vec Ideal S8x5x256 .f32) (v3 v4 v5 v6 v7 : Vec Ideal S8x3x256 .f32) (v8 v9 : Vec Ideal S8x1x256 .f32)
    (lab : Fin 8 → Fin 256 → Fin 5) (chg : Fin 8 → Fin 256 → Fin 3)
    (hlab : ∀ (e' : Fin 8) (i : Fin 256), v0 (ix3 e' 0 i) = BitVec.ofNat 32 (lab e' i).val) (hchg : ∀ (e' : Fin 8) (i : Fin 256), v1 (ix3 e' 0 i) = BitVec.ofNat 32 (chg e' i).val)
    (y : S1x1x128.Idx) :
    (k0_pay156 (k0_pay139 (k0_pay138 (k0_pay11 v8))) (k0_pay140 (k0_pay12 v9)) (k0_pay147 (k0_pay130 (k0_pay3 v0)) (k0_pay142 (k0_pay132 (k0_pay5 v2))) (k0_pay144 (k0_pay130 (k0_pay3 v0)) (k0_pay132 (k0_pay5 v2))) (k0_pay145 (F := Ideal) (k0_pay130 (k0_pay3 v0))) (k0_pay146 (k0_pay132 (k0_pay5 v2)))) (k0_pay149 (k0_pay131 (k0_pay4 v1)) (k0_pay143 (k0_pay133 (k0_pay6 v3))) (k0_pay148 (F := Ideal)) 0#32) (k0_pay151 (k0_pay134 (k0_pay7 v4)) (k0_pay135 (k0_pay8 v5)) (k0_pay150 (k0_pay134 (k0_pay7 v4)) (k0_pay135 (k0_pay8 v5)))) (k0_pay152 (k0_pay136 (k0_pay9 v6)) (k0_pay137 (k0_pay10 v7))) (k0_pay153 (k0_pay136 (k0_pay9 v6)) (k0_pay137 (k0_pay10 v7)))) y
      = Cert.Spec.flowSum (Cert.Spec.blkLoss lab chg v2 v3 v4 v5 v6 v7 v8 v9 (4 : Fin 8))
  := by
  obtain ⟨a, b, c, rfl⟩ := exists_ix3 y
  simp (config := { proj := false }) only [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236, k0_pay237, k0_pay238,
    k0_pay239, k0_pay240, k0_pay241, k0_pay242, k0_pay243,
    shapeCast_self, shapeCast_ab_1ab_apply, shapeCast_1ab_ab_apply, shapeCast_a_1a_apply, shapeCast_1a_a_apply, cast_a_a1, cast_11a_a,
    bc_a1_ab, broadcastTo_1b_ab_apply,
    slab8_0, slab8_1, slab8_2, slab8_3, slab8_4, slab8_5, slab8_6, slab8_7,
    row3_0, row3_1, row3_2, row5_0, row5_1, row5_2, row5_3, row5_4,
    ↓sum_axis0, ↓sum_axis1, ↓max_axis0, ↓min_axis0, ↓min_axis1,
    mulf_apply, addf_apply, subf_apply, maximumf_apply, broadcast_apply, extui_apply, sitofp_apply,
    exp_apply, log_apply, sqrt_apply, cmpi_apply]
  exact flow_tail _ _ (fun i j => pair_read 4 v0 v1 v2 v3 v4 v5 v6 v7 v8 v9 lab chg hlab hchg i j)

end Cert.KernelIdeal.KEv

end
-- ==== Proof.KEv5.lean ====
/-
  Event 5 of a grid point's block: the value the kernel stores for the particle sum and for the flow sum,
  read at any lane, is the specification's sum of row minima and of column minima of the event's 256 × 256
  pair-loss matrix. Each store's payload is pushed to an index through its layout operations, reductions and
  pointwise operations; what is left under the two sums is the pair's index-level expression, which the shared
  lemma identifies with the specification's pair loss.
-/
import proofs.«414995_j25194278158453_3_alg».proof.Proof.Gen.KernelIdeal.Skeleton
import proofs.«414995_j25194278158453_3_alg».proof.Proof.Spec
import proofs.«414995_j25194278158453_3_alg».proof.Proof.KLemmas

noncomputable section

namespace Cert.KernelIdeal.KEv

open Idealize.ShloMosaic Idealize.ShloMosaic.ValueIdx
open Cert.KernelIdeal Cert.KernelIdeal.Gen

set_option maxHeartbeats 1000000 in
/-- The particle sum of event 5. -/
theorem part_5 (v0 v1 : Vec Ideal S8x1x256 .i32) (v2 : Vec Ideal S8x5x256 .f32) (v3 v4 v5 v6 v7 : Vec Ideal S8x3x256 .f32) (v8 v9 : Vec Ideal S8x1x256 .f32)
    (lab : Fin 8 → Fin 256 → Fin 5) (chg : Fin 8 → Fin 256 → Fin 3)
    (hlab : ∀ (e' : Fin 8) (i : Fin 256), v0 (ix3 e' 0 i) = BitVec.ofNat 32 (lab e' i).val) (hchg : ∀ (e' : Fin 8) (i : Fin 256), v1 (ix3 e' 0 i) = BitVec.ofNat 32 (chg e' i).val)
    (y : S1x1x128.Idx) :
    (k0_pay183 (k0_pay163 (k0_pay9 v6)) (k0_pay164 (k0_pay10 v7)) (k0_pay165 (k0_pay11 v8)) (k0_pay166 (k0_pay12 v9)) (k0_pay176 (k0_pay173 (k0_pay158 (k0_pay3 v0)) (k0_pay168 (k0_pay160 (k0_pay5 v2))) (k0_pay170 (F := Ideal)) (k0_pay171 (F := Ideal) (k0_pay158 (k0_pay3 v0))) (k0_pay172 (k0_pay160 (k0_pay5 v2)))) (k0_pay174 (F := Ideal) (k0_pay158 (k0_pay3 v0))) (k0_pay175 (k0_pay168 (k0_pay160 (k0_pay5 v2))))) (k0_pay177 (k0_pay159 (k0_pay4 v1)) (k0_pay169 (k0_pay6 v3))) (k0_pay178 (k0_pay161 (k0_pay7 v4)) (k0_pay162 (k0_pay8 v5)) (Scalar.ofBits .f32 0x00000000#32)) (k0_pay179 (k0_pay163 (k0_pay9 v6)) (k0_pay164 (k0_pay10 v7))) (k0_pay180 (k0_pay163 (k0_pay9 v6)) (k0_pay164 (k0_pay10 v7)))) y
      = Cert.Spec.partSum (Cert.Spec.blkLoss lab chg v2 v3 v4 v5 v6 v7 v8 v9 (5 : Fin 8))
  := by
  obtain ⟨a, b, c, rfl⟩ := exists_ix3 y
  simp (config := { proj := false }) only [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236, k0_pay237, k0_pay238,
    k0_pay239, k0_pay240, k0_pay241, k0_pay242, k0_pay243,
    shapeCast_self, shapeCast_ab_1ab_apply, shapeCast_1ab_ab_apply, shapeCast_a_1a_apply, shapeCast_1a_a_apply, cast_a_a1, cast_11a_a,
    bc_a1_ab, broadcastTo_1b_ab_apply,
    slab8_0, slab8_1, slab8_2, slab8_3, slab8_4, slab8_5, slab8_6, slab8_7,
    row3_0, row3_1, row3_2, row5_0, row5_1, row5_2, row5_3, row5_4,
    ↓sum_axis0, ↓sum_axis1, ↓max_axis0, ↓min_axis0, ↓min_axis1,
    mulf_apply, addf_apply, subf_apply, maximumf_apply, broadcast_apply, extui_apply, sitofp_apply,
    exp_apply, log_apply, sqrt_apply, cmpi_apply]
  exact part_tail _ _ (fun i j => pair_read 5 v0 v1 v2 v3 v4 v5 v6 v7 v8 v9 lab chg hlab hchg i j)

set_option maxHeartbeats 1000000 in
/-- The flow sum of event 5. -/
theorem flow_5 (v0 v1 : Vec Ideal S8x1x256 .i32) (v2 : Vec Ideal S8x5x256 .f32) (v3 v4 v5 v6 v7 : Vec Ideal S8x3x256 .f32) (v8 v9 : Vec Ideal S8x1x256 .f32)
    (lab : Fin 8 → Fin 256 → Fin 5) (chg : Fin 8 → Fin 256 → Fin 3)
    (hlab : ∀ (e' : Fin 8) (i : Fin 256), v0 (ix3 e' 0 i) = BitVec.ofNat 32 (lab e' i).val) (hchg : ∀ (e' : Fin 8) (i : Fin 256), v1 (ix3 e' 0 i) = BitVec.ofNat 32 (chg e' i).val)
    (y : S1x1x128.Idx) :
    (k0_pay184 (k0_pay163 (k0_pay9 v6)) (k0_pay164 (k0_pay10 v7)) (k0_pay165 (k0_pay11 v8)) (k0_pay166 (k0_pay12 v9)) (k0_pay176 (k0_pay173 (k0_pay158 (k0_pay3 v0)) (k0_pay168 (k0_pay160 (k0_pay5 v2))) (k0_pay170 (F := Ideal)) (k0_pay171 (F := Ideal) (k0_pay158 (k0_pay3 v0))) (k0_pay172 (k0_pay160 (k0_pay5 v2)))) (k0_pay174 (F := Ideal) (k0_pay158 (k0_pay3 v0))) (k0_pay175 (k0_pay168 (k0_pay160 (k0_pay5 v2))))) (k0_pay177 (k0_pay159 (k0_pay4 v1)) (k0_pay169 (k0_pay6 v3))) (k0_pay178 (k0_pay161 (k0_pay7 v4)) (k0_pay162 (k0_pay8 v5)) (Scalar.ofBits .f32 0x00000000#32)) (k0_pay179 (k0_pay163 (k0_pay9 v6)) (k0_pay164 (k0_pay10 v7))) (k0_pay180 (k0_pay163 (k0_pay9 v6)) (k0_pay164 (k0_pay10 v7)))) y
      = Cert.Spec.flowSum (Cert.Spec.blkLoss lab chg v2 v3 v4 v5 v6 v7 v8 v9 (5 : Fin 8))
  := by
  obtain ⟨a, b, c, rfl⟩ := exists_ix3 y
  simp (config := { proj := false }) only [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236, k0_pay237, k0_pay238,
    k0_pay239, k0_pay240, k0_pay241, k0_pay242, k0_pay243,
    shapeCast_self, shapeCast_ab_1ab_apply, shapeCast_1ab_ab_apply, shapeCast_a_1a_apply, shapeCast_1a_a_apply, cast_a_a1, cast_11a_a,
    bc_a1_ab, broadcastTo_1b_ab_apply,
    slab8_0, slab8_1, slab8_2, slab8_3, slab8_4, slab8_5, slab8_6, slab8_7,
    row3_0, row3_1, row3_2, row5_0, row5_1, row5_2, row5_3, row5_4,
    ↓sum_axis0, ↓sum_axis1, ↓max_axis0, ↓min_axis0, ↓min_axis1,
    mulf_apply, addf_apply, subf_apply, maximumf_apply, broadcast_apply, extui_apply, sitofp_apply,
    exp_apply, log_apply, sqrt_apply, cmpi_apply]
  exact flow_tail _ _ (fun i j => pair_read 5 v0 v1 v2 v3 v4 v5 v6 v7 v8 v9 lab chg hlab hchg i j)

end Cert.KernelIdeal.KEv

end
-- ==== Proof.KEv6.lean ====
/-
  Event 6 of a grid point's block: the value the kernel stores for the particle sum and for the flow sum,
  read at any lane, is the specification's sum of row minima and of column minima of the event's 256 × 256
  pair-loss matrix. Each store's payload is pushed to an index through its layout operations, reductions and
  pointwise operations; what is left under the two sums is the pair's index-level expression, which the shared
  lemma identifies with the specification's pair loss.
-/
import proofs.«414995_j25194278158453_3_alg».proof.Proof.Gen.KernelIdeal.Skeleton
import proofs.«414995_j25194278158453_3_alg».proof.Proof.Spec
import proofs.«414995_j25194278158453_3_alg».proof.Proof.KLemmas

noncomputable section

namespace Cert.KernelIdeal.KEv

open Idealize.ShloMosaic Idealize.ShloMosaic.ValueIdx
open Cert.KernelIdeal Cert.KernelIdeal.Gen

set_option maxHeartbeats 1000000 in
/-- The particle sum of event 6. -/
theorem part_6 (v0 v1 : Vec Ideal S8x1x256 .i32) (v2 : Vec Ideal S8x5x256 .f32) (v3 v4 v5 v6 v7 : Vec Ideal S8x3x256 .f32) (v8 v9 : Vec Ideal S8x1x256 .f32)
    (lab : Fin 8 → Fin 256 → Fin 5) (chg : Fin 8 → Fin 256 → Fin 3)
    (hlab : ∀ (e' : Fin 8) (i : Fin 256), v0 (ix3 e' 0 i) = BitVec.ofNat 32 (lab e' i).val) (hchg : ∀ (e' : Fin 8) (i : Fin 256), v1 (ix3 e' 0 i) = BitVec.ofNat 32 (chg e' i).val)
    (y : S1x1x128.Idx) :
    (k0_pay212 (k0_pay211 (k0_pay190 (k0_pay9 v6)) (k0_pay191 (k0_pay10 v7)) (k0_pay192 (k0_pay11 v8)) (k0_pay193 (k0_pay12 v9)) (k0_pay200 (k0_pay186 (k0_pay3 v0)) (k0_pay195 (k0_pay5 v2)) (k0_pay197 (k0_pay186 (k0_pay3 v0)) (k0_pay195 (k0_pay5 v2)) (Scalar.ofBits .f32 0x00000000#32)) (k0_pay198 (F := Ideal) (k0_pay186 (k0_pay3 v0))) (k0_pay199 (k0_pay195 (k0_pay5 v2)))) (k0_pay203 (k0_pay196 (k0_pay6 v3)) (k0_pay201 (k0_pay187 (k0_pay4 v1)) (k0_pay196 (k0_pay6 v3))) (k0_pay202 (F := Ideal) (k0_pay187 (k0_pay4 v1)))) (k0_pay204 (k0_pay188 (k0_pay7 v4)) (k0_pay189 (k0_pay8 v5))) (k0_pay205 (F := Ideal)) (k0_pay206 (k0_pay190 (k0_pay9 v6))) (k0_pay207 (k0_pay191 (k0_pay10 v7))))) y
      = Cert.Spec.partSum (Cert.Spec.blkLoss lab chg v2 v3 v4 v5 v6 v7 v8 v9 (6 : Fin 8))
  := by
  obtain ⟨a, b, c, rfl⟩ := exists_ix3 y
  simp (config := { proj := false }) only [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236, k0_pay237, k0_pay238,
    k0_pay239, k0_pay240, k0_pay241, k0_pay242, k0_pay243,
    shapeCast_self, shapeCast_ab_1ab_apply, shapeCast_1ab_ab_apply, shapeCast_a_1a_apply, shapeCast_1a_a_apply, cast_a_a1, cast_11a_a,
    bc_a1_ab, broadcastTo_1b_ab_apply,
    slab8_0, slab8_1, slab8_2, slab8_3, slab8_4, slab8_5, slab8_6, slab8_7,
    row3_0, row3_1, row3_2, row5_0, row5_1, row5_2, row5_3, row5_4,
    ↓sum_axis0, ↓sum_axis1, ↓max_axis0, ↓min_axis0, ↓min_axis1,
    mulf_apply, addf_apply, subf_apply, maximumf_apply, broadcast_apply, extui_apply, sitofp_apply,
    exp_apply, log_apply, sqrt_apply, cmpi_apply]
  exact part_tail _ _ (fun i j => pair_read 6 v0 v1 v2 v3 v4 v5 v6 v7 v8 v9 lab chg hlab hchg i j)

set_option maxHeartbeats 1000000 in
/-- The flow sum of event 6. -/
theorem flow_6 (v0 v1 : Vec Ideal S8x1x256 .i32) (v2 : Vec Ideal S8x5x256 .f32) (v3 v4 v5 v6 v7 : Vec Ideal S8x3x256 .f32) (v8 v9 : Vec Ideal S8x1x256 .f32)
    (lab : Fin 8 → Fin 256 → Fin 5) (chg : Fin 8 → Fin 256 → Fin 3)
    (hlab : ∀ (e' : Fin 8) (i : Fin 256), v0 (ix3 e' 0 i) = BitVec.ofNat 32 (lab e' i).val) (hchg : ∀ (e' : Fin 8) (i : Fin 256), v1 (ix3 e' 0 i) = BitVec.ofNat 32 (chg e' i).val)
    (y : S1x1x128.Idx) :
    (k0_pay213 (k0_pay209 (k0_pay190 (k0_pay9 v6)) (k0_pay191 (k0_pay10 v7)) (k0_pay192 (k0_pay11 v8)) (k0_pay193 (k0_pay12 v9)) (k0_pay200 (k0_pay186 (k0_pay3 v0)) (k0_pay195 (k0_pay5 v2)) (k0_pay197 (k0_pay186 (k0_pay3 v0)) (k0_pay195 (k0_pay5 v2)) (Scalar.ofBits .f32 0x00000000#32)) (k0_pay198 (F := Ideal) (k0_pay186 (k0_pay3 v0))) (k0_pay199 (k0_pay195 (k0_pay5 v2)))) (k0_pay203 (k0_pay196 (k0_pay6 v3)) (k0_pay201 (k0_pay187 (k0_pay4 v1)) (k0_pay196 (k0_pay6 v3))) (k0_pay202 (F := Ideal) (k0_pay187 (k0_pay4 v1)))) (k0_pay204 (k0_pay188 (k0_pay7 v4)) (k0_pay189 (k0_pay8 v5))) (k0_pay205 (F := Ideal)) (k0_pay206 (k0_pay190 (k0_pay9 v6))) (k0_pay207 (k0_pay191 (k0_pay10 v7))))) y
      = Cert.Spec.flowSum (Cert.Spec.blkLoss lab chg v2 v3 v4 v5 v6 v7 v8 v9 (6 : Fin 8))
  := by
  obtain ⟨a, b, c, rfl⟩ := exists_ix3 y
  simp (config := { proj := false }) only [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236, k0_pay237, k0_pay238,
    k0_pay239, k0_pay240, k0_pay241, k0_pay242, k0_pay243,
    shapeCast_self, shapeCast_ab_1ab_apply, shapeCast_1ab_ab_apply, shapeCast_a_1a_apply, shapeCast_1a_a_apply, cast_a_a1, cast_11a_a,
    bc_a1_ab, broadcastTo_1b_ab_apply,
    slab8_0, slab8_1, slab8_2, slab8_3, slab8_4, slab8_5, slab8_6, slab8_7,
    row3_0, row3_1, row3_2, row5_0, row5_1, row5_2, row5_3, row5_4,
    ↓sum_axis0, ↓sum_axis1, ↓max_axis0, ↓min_axis0, ↓min_axis1,
    mulf_apply, addf_apply, subf_apply, maximumf_apply, broadcast_apply, extui_apply, sitofp_apply,
    exp_apply, log_apply, sqrt_apply, cmpi_apply]
  exact flow_tail _ _ (fun i j => pair_read 6 v0 v1 v2 v3 v4 v5 v6 v7 v8 v9 lab chg hlab hchg i j)

end Cert.KernelIdeal.KEv

end
-- ==== Proof.KEv7.lean ====
/-
  Event 7 of a grid point's block: the value the kernel stores for the particle sum and for the flow sum,
  read at any lane, is the specification's sum of row minima and of column minima of the event's 256 × 256
  pair-loss matrix. Each store's payload is pushed to an index through its layout operations, reductions and
  pointwise operations; what is left under the two sums is the pair's index-level expression, which the shared
  lemma identifies with the specification's pair loss.
-/
import proofs.«414995_j25194278158453_3_alg».proof.Proof.Gen.KernelIdeal.Skeleton
import proofs.«414995_j25194278158453_3_alg».proof.Proof.Spec
import proofs.«414995_j25194278158453_3_alg».proof.Proof.KLemmas

noncomputable section

namespace Cert.KernelIdeal.KEv

open Idealize.ShloMosaic Idealize.ShloMosaic.ValueIdx
open Cert.KernelIdeal Cert.KernelIdeal.Gen

set_option maxHeartbeats 1000000 in
/-- The particle sum of event 7. -/
theorem part_7 (v0 v1 : Vec Ideal S8x1x256 .i32) (v2 : Vec Ideal S8x5x256 .f32) (v3 v4 v5 v6 v7 : Vec Ideal S8x3x256 .f32) (v8 v9 : Vec Ideal S8x1x256 .f32)
    (lab : Fin 8 → Fin 256 → Fin 5) (chg : Fin 8 → Fin 256 → Fin 3)
    (hlab : ∀ (e' : Fin 8) (i : Fin 256), v0 (ix3 e' 0 i) = BitVec.ofNat 32 (lab e' i).val) (hchg : ∀ (e' : Fin 8) (i : Fin 256), v1 (ix3 e' 0 i) = BitVec.ofNat 32 (chg e' i).val)
    (y : S1x1x128.Idx) :
    (k0_pay242 (k0_pay240 (k0_pay220 (k0_pay9 v6)) (k0_pay221 (k0_pay10 v7)) (k0_pay222 (k0_pay11 v8)) (k0_pay223 (k0_pay12 v9)) (k0_pay231 (k0_pay215 (k0_pay3 v0)) (k0_pay225 (k0_pay5 v2)) (k0_pay229 (k0_pay215 (k0_pay3 v0)) (k0_pay225 (k0_pay5 v2))) (k0_pay230 (k0_pay215 (k0_pay3 v0)) (k0_pay225 (k0_pay5 v2)))) (k0_pay235 (k0_pay216 (k0_pay4 v1)) (k0_pay228 (k0_pay217 (k0_pay6 v3)) (k0_pay226 (k0_pay6 v3)) (k0_pay227 (F := Ideal))) (k0_pay232 (k0_pay216 (k0_pay4 v1)) (k0_pay228 (k0_pay217 (k0_pay6 v3)) (k0_pay226 (k0_pay6 v3)) (k0_pay227 (F := Ideal)))) (k0_pay233 (F := Ideal) (k0_pay216 (k0_pay4 v1))) (k0_pay234 (k0_pay228 (k0_pay217 (k0_pay6 v3)) (k0_pay226 (k0_pay6 v3)) (k0_pay227 (F := Ideal)))) (Scalar.ofBits .f32 0x00000000#32)) (k0_pay236 (k0_pay218 (k0_pay7 v4)) (k0_pay219 (k0_pay8 v5))) (k0_pay237 (F := Ideal)))) y
      = Cert.Spec.partSum (Cert.Spec.blkLoss lab chg v2 v3 v4 v5 v6 v7 v8 v9 (7 : Fin 8))
  := by
  obtain ⟨a, b, c, rfl⟩ := exists_ix3 y
  simp (config := { proj := false }) only [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236, k0_pay237, k0_pay238,
    k0_pay239, k0_pay240, k0_pay241, k0_pay242, k0_pay243,
    shapeCast_self, shapeCast_ab_1ab_apply, shapeCast_1ab_ab_apply, shapeCast_a_1a_apply, shapeCast_1a_a_apply, cast_a_a1, cast_11a_a,
    bc_a1_ab, broadcastTo_1b_ab_apply,
    slab8_0, slab8_1, slab8_2, slab8_3, slab8_4, slab8_5, slab8_6, slab8_7,
    row3_0, row3_1, row3_2, row5_0, row5_1, row5_2, row5_3, row5_4,
    ↓sum_axis0, ↓sum_axis1, ↓max_axis0, ↓min_axis0, ↓min_axis1,
    mulf_apply, addf_apply, subf_apply, maximumf_apply, broadcast_apply, extui_apply, sitofp_apply,
    exp_apply, log_apply, sqrt_apply, cmpi_apply]
  exact part_tail _ _ (fun i j => pair_read 7 v0 v1 v2 v3 v4 v5 v6 v7 v8 v9 lab chg hlab hchg i j)

set_option maxHeartbeats 1000000 in
/-- The flow sum of event 7. -/
theorem flow_7 (v0 v1 : Vec Ideal S8x1x256 .i32) (v2 : Vec Ideal S8x5x256 .f32) (v3 v4 v5 v6 v7 : Vec Ideal S8x3x256 .f32) (v8 v9 : Vec Ideal S8x1x256 .f32)
    (lab : Fin 8 → Fin 256 → Fin 5) (chg : Fin 8 → Fin 256 → Fin 3)
    (hlab : ∀ (e' : Fin 8) (i : Fin 256), v0 (ix3 e' 0 i) = BitVec.ofNat 32 (lab e' i).val) (hchg : ∀ (e' : Fin 8) (i : Fin 256), v1 (ix3 e' 0 i) = BitVec.ofNat 32 (chg e' i).val)
    (y : S1x1x128.Idx) :
    (k0_pay1 (k0_pay243 (k0_pay239 (k0_pay220 (k0_pay9 v6)) (k0_pay221 (k0_pay10 v7)) (k0_pay222 (k0_pay11 v8)) (k0_pay223 (k0_pay12 v9)) (k0_pay231 (k0_pay215 (k0_pay3 v0)) (k0_pay225 (k0_pay5 v2)) (k0_pay229 (k0_pay215 (k0_pay3 v0)) (k0_pay225 (k0_pay5 v2))) (k0_pay230 (k0_pay215 (k0_pay3 v0)) (k0_pay225 (k0_pay5 v2)))) (k0_pay235 (k0_pay216 (k0_pay4 v1)) (k0_pay228 (k0_pay217 (k0_pay6 v3)) (k0_pay226 (k0_pay6 v3)) (k0_pay227 (F := Ideal))) (k0_pay232 (k0_pay216 (k0_pay4 v1)) (k0_pay228 (k0_pay217 (k0_pay6 v3)) (k0_pay226 (k0_pay6 v3)) (k0_pay227 (F := Ideal)))) (k0_pay233 (F := Ideal) (k0_pay216 (k0_pay4 v1))) (k0_pay234 (k0_pay228 (k0_pay217 (k0_pay6 v3)) (k0_pay226 (k0_pay6 v3)) (k0_pay227 (F := Ideal)))) (Scalar.ofBits .f32 0x00000000#32)) (k0_pay236 (k0_pay218 (k0_pay7 v4)) (k0_pay219 (k0_pay8 v5))) (k0_pay237 (F := Ideal))))) y
      = Cert.Spec.flowSum (Cert.Spec.blkLoss lab chg v2 v3 v4 v5 v6 v7 v8 v9 (7 : Fin 8))
  := by
  obtain ⟨a, b, c, rfl⟩ := exists_ix3 y
  simp (config := { proj := false }) only [
    k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236, k0_pay237, k0_pay238,
    k0_pay239, k0_pay240, k0_pay241, k0_pay242, k0_pay243,
    shapeCast_self, shapeCast_ab_1ab_apply, shapeCast_1ab_ab_apply, shapeCast_a_1a_apply, shapeCast_1a_a_apply, cast_a_a1, cast_11a_a,
    bc_a1_ab, broadcastTo_1b_ab_apply,
    slab8_0, slab8_1, slab8_2, slab8_3, slab8_4, slab8_5, slab8_6, slab8_7,
    row3_0, row3_1, row3_2, row5_0, row5_1, row5_2, row5_3, row5_4,
    ↓sum_axis0, ↓sum_axis1, ↓max_axis0, ↓min_axis0, ↓min_axis1,
    mulf_apply, addf_apply, subf_apply, maximumf_apply, broadcast_apply, extui_apply, sitofp_apply,
    exp_apply, log_apply, sqrt_apply, cmpi_apply]
  exact flow_tail _ _ (fun i j => pair_read 7 v0 v1 v2 v3 v4 v5 v6 v7 v8 v9 lab chg hlab hchg i j)

end Cert.KernelIdeal.KEv

end
-- ==== Proof.KSet.lean ====
/-
  The set-size output of one grid point, event by event.

  A grid point's block of predicted set-size logits is [8, 256, 300]: event, node, size. For each of its eight
  events the body takes the event's slab [1, 256, 300], drops the unit axis, adds the slab up over its 256 nodes,
  and puts two unit axes back. Read at a size s, the stored row of event e is therefore the sum over the nodes n
  of the block's entry (e, n, s).
-/
import proofs.«414995_j25194278158453_3_alg».proof.Proof.Gen.KernelIdeal.Skeleton
import proofs.«414995_j25194278158453_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KSet

open Idealize.ShloMosaic Idealize.ShloMosaic.ValueIdx
open Cert.KernelIdeal Cert.KernelIdeal.Gen

/-- The slab of event `e` (a unit-stride slice at offsets (e, 0, 0)), flattened to [256, 300], summed over its
    node axis and given back two unit axes, read at (u, w, s): the sum over the nodes n of the block at (e, n, s).
    The slice's offsets and every side condition are variables, so the one statement serves all eight events. -/
theorem slab_sum (off : Fin S8x256x300.rank → Nat) (e : Fin 8)
    (h0 : off 0 = e.val) (h1 : off 1 = 0) (h2 : off 2 = 0)
    (v : Vec Ideal S8x256x300 .f32) (hs : S8x256x300.Slices off S1x256x300)
    (hc1 : S1x256x300.ShapeCasts S256x300) (hr : S256x300.Reduces [0] S300)
    (hφ : FKind.Formats FTy.f32) (hacc : (0x00000000#32 : BitVec 32) = FKind.add.neutral FTy.f32 hφ)
    (hc2 : S300.ShapeCasts S1x300) (hc3 : S1x300.ShapeCasts S1x1x300) (u w : Fin 1) (s : Fin 300) :
    shapeCast S1x1x300 (shapeCast S1x300 (multiReduction (F := Ideal) .add [0] S300
        (shapeCast S256x300 (extractStridedSlice S1x256x300 off v hs) hc1) 0x00000000#32 hr hφ hacc) hc2) hc3 (ix3 u w s)
      = ∑ n : Fin 256, v (ix3 e n s) := by
  -- the two unit axes put back read through to the summed row at s
  rw [shapeCast_ab_1ab_apply, shapeCast_a_1a_apply]
  -- the reduction over the node axis is the sum over its 256 coordinates
  refine (Ideal.multiReduction_add_single _ _ hr hφ hacc (ix1 s)).trans ?_
  refine Finset.sum_congr rfl fun (n : Fin 256) _ => ?_
  -- the row index s with the node n put back on the summed axis is (n, s)
  have hl : hr.lift (ix1 s) n = ix2 n s :=
    funext fun c => match c with | ⟨0, _⟩ => Fin.ext rfl | ⟨1, _⟩ => Fin.ext rfl
  rw [hl, shapeCast_1ab_ab_apply]
  -- and the slab at (0, n, s) is the block at (e, n, s)
  refine extractStridedSlice_apply off v hs _ _ fun a => ?_
  match a with
  | ⟨0, _⟩ => show e.val = off 0 + 0; omega
  | ⟨1, _⟩ => show n.val = off 1 + n.val; omega
  | ⟨2, _⟩ => show s.val = off 2 + s.val; omega

/-- The first event's stored row: the sum over the nodes of the block's slab 0. -/
theorem set_0 (v10 : Vec Ideal S8x256x300 .f32) (y : S1x1x300.Idx) :
    k0_pay40 (F := Ideal) (k0_pay37 (k0_pay22 v10)) y = ∑ n : Fin 256, v10 (ix3 (0 : Fin 8) n ⟨(y 2).val, (y 2).isLt⟩) := by
  obtain ⟨u, w, s, rfl⟩ : ∃ (u w : Fin 1) (s : Fin 300), y = ix3 u w s := ⟨y 0, y 1, y 2, eq_ix3 y⟩
  exact slab_sum (![0, 0, 0] : Fin 3 → Nat) 0 rfl rfl rfl v10 slices_S8x256x300_o0_0_0_S1x256x300
    shapeCasts_S1x256x300_S256x300 reduces_S256x300_S300 (.inl rfl) rfl shapeCasts_S300_S1x300 shapeCasts_S1x300_S1x1x300 u w s

/-- The second event's stored row: the sum over the nodes of the block's slab 1. -/
theorem set_1 (v10 : Vec Ideal S8x256x300 .f32) (y : S1x1x300.Idx) :
    k0_pay69 (F := Ideal) (k0_pay65 (k0_pay49 v10)) y = ∑ n : Fin 256, v10 (ix3 (1 : Fin 8) n ⟨(y 2).val, (y 2).isLt⟩) := by
  obtain ⟨u, w, s, rfl⟩ : ∃ (u w : Fin 1) (s : Fin 300), y = ix3 u w s := ⟨y 0, y 1, y 2, eq_ix3 y⟩
  exact slab_sum (![1, 0, 0] : Fin 3 → Nat) 1 rfl rfl rfl v10 slices_S8x256x300_o1_0_0_S1x256x300
    shapeCasts_S1x256x300_S256x300 reduces_S256x300_S300 (.inl rfl) rfl shapeCasts_S300_S1x300 shapeCasts_S1x300_S1x1x300 u w s

/-- The third event's stored row: the sum over the nodes of the block's slab 2. -/
theorem set_2 (v10 : Vec Ideal S8x256x300 .f32) (y : S1x1x300.Idx) :
    k0_pay98 (F := Ideal) (k0_pay79 v10) y = ∑ n : Fin 256, v10 (ix3 (2 : Fin 8) n ⟨(y 2).val, (y 2).isLt⟩) := by
  obtain ⟨u, w, s, rfl⟩ : ∃ (u w : Fin 1) (s : Fin 300), y = ix3 u w s := ⟨y 0, y 1, y 2, eq_ix3 y⟩
  exact slab_sum (![2, 0, 0] : Fin 3 → Nat) 2 rfl rfl rfl v10 slices_S8x256x300_o2_0_0_S1x256x300
    shapeCasts_S1x256x300_S256x300 reduces_S256x300_S300 (.inl rfl) rfl shapeCasts_S300_S1x300 shapeCasts_S1x300_S1x1x300 u w s

/-- The fourth event's stored row: the sum over the nodes of the block's slab 3. -/
theorem set_3 (v10 : Vec Ideal S8x256x300 .f32) (y : S1x1x300.Idx) :
    k0_pay129 (F := Ideal) (k0_pay109 v10) y = ∑ n : Fin 256, v10 (ix3 (3 : Fin 8) n ⟨(y 2).val, (y 2).isLt⟩) := by
  obtain ⟨u, w, s, rfl⟩ : ∃ (u w : Fin 1) (s : Fin 300), y = ix3 u w s := ⟨y 0, y 1, y 2, eq_ix3 y⟩
  exact slab_sum (![3, 0, 0] : Fin 3 → Nat) 3 rfl rfl rfl v10 slices_S8x256x300_o3_0_0_S1x256x300
    shapeCasts_S1x256x300_S256x300 reduces_S256x300_S300 (.inl rfl) rfl shapeCasts_S300_S1x300 shapeCasts_S1x300_S1x1x300 u w s

/-- The fifth event's stored row: the sum over the nodes of the block's slab 4. -/
theorem set_4 (v10 : Vec Ideal S8x256x300 .f32) (y : S1x1x300.Idx) :
    k0_pay157 (F := Ideal) (k0_pay141 v10) y = ∑ n : Fin 256, v10 (ix3 (4 : Fin 8) n ⟨(y 2).val, (y 2).isLt⟩) := by
  obtain ⟨u, w, s, rfl⟩ : ∃ (u w : Fin 1) (s : Fin 300), y = ix3 u w s := ⟨y 0, y 1, y 2, eq_ix3 y⟩
  exact slab_sum (![4, 0, 0] : Fin 3 → Nat) 4 rfl rfl rfl v10 slices_S8x256x300_o4_0_0_S1x256x300
    shapeCasts_S1x256x300_S256x300 reduces_S256x300_S300 (.inl rfl) rfl shapeCasts_S300_S1x300 shapeCasts_S1x300_S1x1x300 u w s

/-- The sixth event's stored row: the sum over the nodes of the block's slab 5. -/
theorem set_5 (v10 : Vec Ideal S8x256x300 .f32) (y : S1x1x300.Idx) :
    k0_pay185 (F := Ideal) (k0_pay182 (k0_pay167 v10)) y = ∑ n : Fin 256, v10 (ix3 (5 : Fin 8) n ⟨(y 2).val, (y 2).isLt⟩) := by
  obtain ⟨u, w, s, rfl⟩ : ∃ (u w : Fin 1) (s : Fin 300), y = ix3 u w s := ⟨y 0, y 1, y 2, eq_ix3 y⟩
  exact slab_sum (![5, 0, 0] : Fin 3 → Nat) 5 rfl rfl rfl v10 slices_S8x256x300_o5_0_0_S1x256x300
    shapeCasts_S1x256x300_S256x300 reduces_S256x300_S300 (.inl rfl) rfl shapeCasts_S300_S1x300 shapeCasts_S1x300_S1x1x300 u w s

/-- The seventh event's stored row: the sum over the nodes of the block's slab 6. -/
theorem set_6 (v10 : Vec Ideal S8x256x300 .f32) (y : S1x1x300.Idx) :
    k0_pay214 (F := Ideal) (k0_pay210 (k0_pay194 v10)) y = ∑ n : Fin 256, v10 (ix3 (6 : Fin 8) n ⟨(y 2).val, (y 2).isLt⟩) := by
  obtain ⟨u, w, s, rfl⟩ : ∃ (u w : Fin 1) (s : Fin 300), y = ix3 u w s := ⟨y 0, y 1, y 2, eq_ix3 y⟩
  exact slab_sum (![6, 0, 0] : Fin 3 → Nat) 6 rfl rfl rfl v10 slices_S8x256x300_o6_0_0_S1x256x300
    shapeCasts_S1x256x300_S256x300 reduces_S256x300_S300 (.inl rfl) rfl shapeCasts_S300_S1x300 shapeCasts_S1x300_S1x1x300 u w s

/-- The eighth event's stored row: the sum over the nodes of the block's slab 7. -/
theorem set_7 (v10 : Vec Ideal S8x256x300 .f32) (y : S1x1x300.Idx) :
    k0_pay2 (F := Ideal) (k0_pay241 (k0_pay224 v10)) y = ∑ n : Fin 256, v10 (ix3 (7 : Fin 8) n ⟨(y 2).val, (y 2).isLt⟩) := by
  obtain ⟨u, w, s, rfl⟩ : ∃ (u w : Fin 1) (s : Fin 300), y = ix3 u w s := ⟨y 0, y 1, y 2, eq_ix3 y⟩
  exact slab_sum (![7, 0, 0] : Fin 3 → Nat) 7 rfl rfl rfl v10 slices_S8x256x300_o7_0_0_S1x256x300
    shapeCasts_S1x256x300_S256x300 reduces_S256x300_S300 (.inl rfl) rfl shapeCasts_S300_S1x300 shapeCasts_S1x300_S1x1x300 u w s

end Cert.KernelIdeal.KSet

end
-- ==== Proof.KOut.lean ====
/-
  One grid point's three output blocks, read at an event's row.

  The body stores, for each of the point's eight events, one row into each output block: the event's particle sum
  and its flow sum, each spread over the 128 lanes of a row of an [8, 1, 128] block, and the event's set-size row
  into an [8, 1, 300] block. The eight rows of a block tile it, so the block read at event e is event e's row.
-/
import proofs.«414995_j25194278158453_3_alg».proof.Proof.KernelIdealFrame
import proofs.«414995_j25194278158453_3_alg».proof.Proof.KEv0
import proofs.«414995_j25194278158453_3_alg».proof.Proof.KEv1
import proofs.«414995_j25194278158453_3_alg».proof.Proof.KEv2
import proofs.«414995_j25194278158453_3_alg».proof.Proof.KEv3
import proofs.«414995_j25194278158453_3_alg».proof.Proof.KEv4
import proofs.«414995_j25194278158453_3_alg».proof.Proof.KEv5
import proofs.«414995_j25194278158453_3_alg».proof.Proof.KEv6
import proofs.«414995_j25194278158453_3_alg».proof.Proof.KEv7
import proofs.«414995_j25194278158453_3_alg».proof.Proof.KSet
import Idealize.ShloMosaic.Lib.ValueIdx
import Idealize.ShloMosaic.Lib.Pipeline.Value

noncomputable section

namespace Cert.KernelIdeal.KOut

open Idealize.ShloMosaic Idealize.ShloMosaic.ValueIdx
open Cert.KernelIdeal Cert.KernelIdeal.Gen Cert.KernelIdeal.GenP

/-- The zero offsets of a whole-block load, as the constant function. -/
theorem off_zero : (![0, 0, 0] : Fin 3 → Nat) = fun _ => 0 :=
  funext fun a => match a with | ⟨0, _⟩ => rfl | ⟨1, _⟩ => rfl | ⟨2, _⟩ => rfl

/-- A row [1, 1, 128] placed at event k of an [8, 1, 128] block: every index of the row lands on event
    coordinate k (the row's own event coordinate is 0). -/
theorem row128_event (k : Nat) (inb : ∀ a, (![k, 0, 0] : Fin 3 → Nat) a + S1x1x128.size a ≤ S8x1x128.size a)
    (x : S1x1x128.Idx) : ((Rect.unit (s := S8x1x128) ![k, 0, 0] S1x1x128.size inb).emb x 0).val = k := by
  have hx : (x 0).val < 1 := (x 0).isLt
  show k + 1 * (x 0).val = k
  omega

/-- The same for a row [1, 1, 300] of an [8, 1, 300] block … -/
theorem row300_event (k : Nat) (inb : ∀ a, (![k, 0, 0] : Fin 3 → Nat) a + S1x1x300.size a ≤ S8x1x300.size a)
    (x : S1x1x300.Idx) : ((Rect.unit (s := S8x1x300) ![k, 0, 0] S1x1x300.size inb).emb x 0).val = k := by
  have hx : (x 0).val < 1 := (x 0).isLt
  show k + 1 * (x 0).val = k
  omega

/-- … whose size coordinate is kept. -/
theorem row300_size (k : Nat) (inb : ∀ a, (![k, 0, 0] : Fin 3 → Nat) a + S1x1x300.size a ≤ S8x1x300.size a)
    (x : S1x1x300.Idx) : ((Rect.unit (s := S8x1x300) ![k, 0, 0] S1x1x300.size inb).emb x 2).val = (x 2).val := by
  show 0 + 1 * (x 2).val = (x 2).val
  omega

/-- Eight rows stored one per event into an [8, 1, 128] block, the row of event k constant at `P k`: the block
    read at event e, any lane, is `P e`. (The stores are listed last first; they tile the block.) -/
theorem rows128 (P : Fin 8 → EReal) (p0 p1 p2 p3 p4 p5 p6 p7 : Vec Ideal S1x1x128 .f32)
    (h7 : ∀ x : S1x1x128.Idx, p0 x = P 7)
    (h6 : ∀ x : S1x1x128.Idx, p1 x = P 6)
    (h5 : ∀ x : S1x1x128.Idx, p2 x = P 5)
    (h4 : ∀ x : S1x1x128.Idx, p3 x = P 4)
    (h3 : ∀ x : S1x1x128.Idx, p4 x = P 3)
    (h2 : ∀ x : S1x1x128.Idx, p5 x = P 2)
    (h1 : ∀ x : S1x1x128.Idx, p6 x = P 1)
    (h0 : ∀ x : S1x1x128.Idx, p7 x = P 0)
    (e : Fin 8) (l : Fin 128) :
    View.canon ([⟨r0_18, p0⟩, ⟨r0_16, p1⟩, ⟨r0_14, p2⟩, ⟨r0_12, p3⟩, ⟨r0_10, p4⟩, ⟨r0_8, p5⟩, ⟨r0_6, p6⟩, ⟨r0_4, p7⟩] : List (View.Piece (Elt Ideal) S8x1x128 .f32)) (ix3 e 0 l) = P e := by
  refine View.canon_apply_of_pieces (Val := Elt Ideal) (S := S8x1x128) (e := .f32)
    (fun y => P ⟨(y 0).val, (y 0).isLt⟩) _ ?_ (ix3 e 0 l) (cover0_11 p0 p1 p2 p3 p4 p5 p6 p7 (ix3 e 0 l))
  intro p hp
  simp only [List.mem_cons, List.mem_nil_iff, or_false] at hp
  rcases hp with rfl | rfl | rfl | rfl | rfl | rfl | rfl | rfl
  · intro x; exact (h7 x).trans (congrArg P (Fin.ext (row128_event 7 inb_S8x1x128_S1x1x128_7_0_0 x).symm))
  · intro x; exact (h6 x).trans (congrArg P (Fin.ext (row128_event 6 inb_S8x1x128_S1x1x128_6_0_0 x).symm))
  · intro x; exact (h5 x).trans (congrArg P (Fin.ext (row128_event 5 inb_S8x1x128_S1x1x128_5_0_0 x).symm))
  · intro x; exact (h4 x).trans (congrArg P (Fin.ext (row128_event 4 inb_S8x1x128_S1x1x128_4_0_0 x).symm))
  · intro x; exact (h3 x).trans (congrArg P (Fin.ext (row128_event 3 inb_S8x1x128_S1x1x128_3_0_0 x).symm))
  · intro x; exact (h2 x).trans (congrArg P (Fin.ext (row128_event 2 inb_S8x1x128_S1x1x128_2_0_0 x).symm))
  · intro x; exact (h1 x).trans (congrArg P (Fin.ext (row128_event 1 inb_S8x1x128_S1x1x128_1_0_0 x).symm))
  · intro x; exact (h0 x).trans (congrArg P (Fin.ext (row128_event 0 inb_S8x1x128_S1x1x128_0_0_0 x).symm))

/-- Eight rows stored one per event into an [8, 1, 300] block, the row of event k holding `Q k` of the size:
    the block read at event e and size s is `Q e s`. -/
theorem rows300 (Q : Fin 8 → Fin 300 → EReal) (p0 p1 p2 p3 p4 p5 p6 p7 : Vec Ideal S1x1x300 .f32)
    (h7 : ∀ x : S1x1x300.Idx, p0 x = Q 7 ⟨(x 2).val, (x 2).isLt⟩)
    (h6 : ∀ x : S1x1x300.Idx, p1 x = Q 6 ⟨(x 2).val, (x 2).isLt⟩)
    (h5 : ∀ x : S1x1x300.Idx, p2 x = Q 5 ⟨(x 2).val, (x 2).isLt⟩)
    (h4 : ∀ x : S1x1x300.Idx, p3 x = Q 4 ⟨(x 2).val, (x 2).isLt⟩)
    (h3 : ∀ x : S1x1x300.Idx, p4 x = Q 3 ⟨(x 2).val, (x 2).isLt⟩)
    (h2 : ∀ x : S1x1x300.Idx, p5 x = Q 2 ⟨(x 2).val, (x 2).isLt⟩)
    (h1 : ∀ x : S1x1x300.Idx, p6 x = Q 1 ⟨(x 2).val, (x 2).isLt⟩)
    (h0 : ∀ x : S1x1x300.Idx, p7 x = Q 0 ⟨(x 2).val, (x 2).isLt⟩)
    (e : Fin 8) (s : Fin 300) :
    View.canon ([⟨r0_19, p0⟩, ⟨r0_17, p1⟩, ⟨r0_15, p2⟩, ⟨r0_13, p3⟩, ⟨r0_11, p4⟩, ⟨r0_9, p5⟩, ⟨r0_7, p6⟩, ⟨r0_5, p7⟩] : List (View.Piece (Elt Ideal) S8x1x300 .f32)) (ix3 e 0 s) = Q e s := by
  refine View.canon_apply_of_pieces (Val := Elt Ideal) (S := S8x1x300) (e := .f32)
    (fun y => Q ⟨(y 0).val, (y 0).isLt⟩ ⟨(y 2).val, (y 2).isLt⟩) _ ?_ (ix3 e 0 s) (cover0_13 p0 p1 p2 p3 p4 p5 p6 p7 (ix3 e 0 s))
  intro p hp
  simp only [List.mem_cons, List.mem_nil_iff, or_false] at hp
  rcases hp with rfl | rfl | rfl | rfl | rfl | rfl | rfl | rfl
  · intro x
    exact (h7 x).trans (congrArg₂ Q (Fin.ext (row300_event 7 inb_S8x1x300_S1x1x300_7_0_0 x).symm)
      (Fin.ext (row300_size 7 inb_S8x1x300_S1x1x300_7_0_0 x).symm))
  · intro x
    exact (h6 x).trans (congrArg₂ Q (Fin.ext (row300_event 6 inb_S8x1x300_S1x1x300_6_0_0 x).symm)
      (Fin.ext (row300_size 6 inb_S8x1x300_S1x1x300_6_0_0 x).symm))
  · intro x
    exact (h5 x).trans (congrArg₂ Q (Fin.ext (row300_event 5 inb_S8x1x300_S1x1x300_5_0_0 x).symm)
      (Fin.ext (row300_size 5 inb_S8x1x300_S1x1x300_5_0_0 x).symm))
  · intro x
    exact (h4 x).trans (congrArg₂ Q (Fin.ext (row300_event 4 inb_S8x1x300_S1x1x300_4_0_0 x).symm)
      (Fin.ext (row300_size 4 inb_S8x1x300_S1x1x300_4_0_0 x).symm))
  · intro x
    exact (h3 x).trans (congrArg₂ Q (Fin.ext (row300_event 3 inb_S8x1x300_S1x1x300_3_0_0 x).symm)
      (Fin.ext (row300_size 3 inb_S8x1x300_S1x1x300_3_0_0 x).symm))
  · intro x
    exact (h2 x).trans (congrArg₂ Q (Fin.ext (row300_event 2 inb_S8x1x300_S1x1x300_2_0_0 x).symm)
      (Fin.ext (row300_size 2 inb_S8x1x300_S1x1x300_2_0_0 x).symm))
  · intro x
    exact (h1 x).trans (congrArg₂ Q (Fin.ext (row300_event 1 inb_S8x1x300_S1x1x300_1_0_0 x).symm)
      (Fin.ext (row300_size 1 inb_S8x1x300_S1x1x300_1_0_0 x).symm))
  · intro x
    exact (h0 x).trans (congrArg₂ Q (Fin.ext (row300_event 0 inb_S8x1x300_S1x1x300_0_0_0 x).symm)
      (Fin.ext (row300_size 0 inb_S8x1x300_S1x1x300_0_0_0 x).symm))

/-- The particle-sum block of a grid point: at event e, on every lane, the event's particle sum. Each input is
    loaded whole; each event's stored row is that event's particle sum. -/
theorem out11_apply (x0 x1 : Vec Ideal S8x1x256 .i32) (x2 : Vec Ideal S8x5x256 .f32) (x3 x4 x5 x6 x7 : Vec Ideal S8x3x256 .f32) (x8 x9 : Vec Ideal S8x1x256 .f32) (x10 : Vec Ideal S8x256x300 .f32)
    (lab : Fin 8 → Fin 256 → Fin 5) (chg : Fin 8 → Fin 256 → Fin 3)
    (hlab : ∀ (e : Fin 8) (i : Fin 256), x0 (ix3 e 0 i) = BitVec.ofNat 32 (lab e i).val) (hchg : ∀ (e : Fin 8) (i : Fin 256), x1 (ix3 e 0 i) = BitVec.ofNat 32 (chg e i).val)
    (e : Fin 8) (l : Fin 128) :
    out0_11 (F := Ideal) x0 x1 x2 x3 x4 x5 x6 x7 x8 x9 x10 (ix3 e 0 l) = Cert.Spec.partSum (Cert.Spec.blkLoss lab chg x2 x3 x4 x5 x6 x7 x8 x9 e) := by
  unfold out0_11
  simp only [View.ld_unit_zero (S := S8x1x256) off_zero, View.ld_unit_zero (S := S8x5x256) off_zero, View.ld_unit_zero (S := S8x3x256) off_zero]
  exact rows128 (fun e' => Cert.Spec.partSum (Cert.Spec.blkLoss lab chg x2 x3 x4 x5 x6 x7 x8 x9 e')) _ _ _ _ _ _ _ _
    (fun x => KEv.part_7 x0 x1 x2 x3 x4 x5 x6 x7 x8 x9 lab chg hlab hchg x)
    (fun x => KEv.part_6 x0 x1 x2 x3 x4 x5 x6 x7 x8 x9 lab chg hlab hchg x)
    (fun x => KEv.part_5 x0 x1 x2 x3 x4 x5 x6 x7 x8 x9 lab chg hlab hchg x)
    (fun x => KEv.part_4 x0 x1 x2 x3 x4 x5 x6 x7 x8 x9 lab chg hlab hchg x)
    (fun x => KEv.part_3 x0 x1 x2 x3 x4 x5 x6 x7 x8 x9 lab chg hlab hchg x)
    (fun x => KEv.part_2 x0 x1 x2 x3 x4 x5 x6 x7 x8 x9 lab chg hlab hchg x)
    (fun x => KEv.part_1 x0 x1 x2 x3 x4 x5 x6 x7 x8 x9 lab chg hlab hchg x)
    (fun x => KEv.part_0 x0 x1 x2 x3 x4 x5 x6 x7 x8 x9 lab chg hlab hchg x)
    e l

/-- The flow-sum block of a grid point: at event e, on every lane, the event's flow sum. -/
theorem out12_apply (x0 x1 : Vec Ideal S8x1x256 .i32) (x2 : Vec Ideal S8x5x256 .f32) (x3 x4 x5 x6 x7 : Vec Ideal S8x3x256 .f32) (x8 x9 : Vec Ideal S8x1x256 .f32) (x10 : Vec Ideal S8x256x300 .f32)
    (lab : Fin 8 → Fin 256 → Fin 5) (chg : Fin 8 → Fin 256 → Fin 3)
    (hlab : ∀ (e : Fin 8) (i : Fin 256), x0 (ix3 e 0 i) = BitVec.ofNat 32 (lab e i).val) (hchg : ∀ (e : Fin 8) (i : Fin 256), x1 (ix3 e 0 i) = BitVec.ofNat 32 (chg e i).val)
    (e : Fin 8) (l : Fin 128) :
    out0_12 (F := Ideal) x0 x1 x2 x3 x4 x5 x6 x7 x8 x9 x10 (ix3 e 0 l) = Cert.Spec.flowSum (Cert.Spec.blkLoss lab chg x2 x3 x4 x5 x6 x7 x8 x9 e) := by
  unfold out0_12
  simp only [View.ld_unit_zero (S := S8x1x256) off_zero, View.ld_unit_zero (S := S8x5x256) off_zero, View.ld_unit_zero (S := S8x3x256) off_zero]
  exact rows128 (fun e' => Cert.Spec.flowSum (Cert.Spec.blkLoss lab chg x2 x3 x4 x5 x6 x7 x8 x9 e')) _ _ _ _ _ _ _ _
    (fun x => KEv.flow_7 x0 x1 x2 x3 x4 x5 x6 x7 x8 x9 lab chg hlab hchg x)
    (fun x => KEv.flow_6 x0 x1 x2 x3 x4 x5 x6 x7 x8 x9 lab chg hlab hchg x)
    (fun x => KEv.flow_5 x0 x1 x2 x3 x4 x5 x6 x7 x8 x9 lab chg hlab hchg x)
    (fun x => KEv.flow_4 x0 x1 x2 x3 x4 x5 x6 x7 x8 x9 lab chg hlab hchg x)
    (fun x => KEv.flow_3 x0 x1 x2 x3 x4 x5 x6 x7 x8 x9 lab chg hlab hchg x)
    (fun x => KEv.flow_2 x0 x1 x2 x3 x4 x5 x6 x7 x8 x9 lab chg hlab hchg x)
    (fun x => KEv.flow_1 x0 x1 x2 x3 x4 x5 x6 x7 x8 x9 lab chg hlab hchg x)
    (fun x => KEv.flow_0 x0 x1 x2 x3 x4 x5 x6 x7 x8 x9 lab chg hlab hchg x)
    e l

/-- The set-size block of a grid point: at event e and size s, the sum over the nodes of the block of logits. -/
theorem out13_apply (x0 x1 : Vec Ideal S8x1x256 .i32) (x2 : Vec Ideal S8x5x256 .f32) (x3 x4 x5 x6 x7 : Vec Ideal S8x3x256 .f32) (x8 x9 : Vec Ideal S8x1x256 .f32) (x10 : Vec Ideal S8x256x300 .f32)
    (e : Fin 8) (s : Fin 300) :
    out0_13 (F := Ideal) x0 x1 x2 x3 x4 x5 x6 x7 x8 x9 x10 (ix3 e 0 s) = ∑ n : Fin 256, x10 (ix3 e n s) := by
  unfold out0_13
  simp only [View.ld_unit_zero (S := S8x256x300) off_zero]
  exact rows300 (fun e' s' => ∑ n : Fin 256, x10 (ix3 e' n s')) _ _ _ _ _ _ _ _
    (fun x => KSet.set_7 x10 x)
    (fun x => KSet.set_6 x10 x)
    (fun x => KSet.set_5 x10 x)
    (fun x => KSet.set_4 x10 x)
    (fun x => KSet.set_3 x10 x)
    (fun x => KSet.set_2 x10 x)
    (fun x => KSet.set_1 x10 x)
    (fun x => KSet.set_0 x10 x)
    e s

end Cert.KernelIdeal.KOut

end
-- ==== Proof.KArr.lean ====
import proofs.«414995_j25194278158453_3_alg».proof.Proof.KernelIdealFrame
import proofs.«414995_j25194278158453_3_alg».proof.Proof.KOut
import proofs.«414995_j25194278158453_3_alg».proof.Proof.Spec
import Idealize.ShloMosaic.Lib.Pipeline.Value
import Idealize.ShloMosaic.Lib.ValueLayout
import Idealize.ShloMosaic.Lib.Tactic

set_option maxRecDepth 16384

noncomputable section

/-!
  From one grid point's blocks to the whole arrays.

  The grid has sixteen points; point t holds the eight events 8·t … 8·t + 7. Every window's block index at point t
  is (t, 0, 0), so entry (e, p, q) of a block is entry (8·t + e, p, q) of its array. Before the grid runs, the
  labels and the energies are broadcast from [128, 256] to [128, 1, 256], and the logits and the vectors have their
  node axis moved last ([128, 256, k] to [128, k, 256]); read at an index, each block entry is therefore an entry of
  an argument array. With that, the pair loss read off a point's blocks at event e is the pair loss of the arrays at
  event 8·t + e, what point t writes back of each output window is block t of one function of the array index, row b
  of an output array lies in the block of point b / 8, and so each output array ends holding that function:
  the particle sum, the flow sum, and the set-size row of event b in row b.
-/

namespace Cert.KernelIdeal.KArr

open Cert.KernelIdeal Cert.KernelIdeal.Gen Cert.KernelIdeal.GenP
open Idealize.ShloMosaic Idealize.ShloMosaic.TcCoe Idealize.ShloMosaic.Tactic Idealize.ShloMosaic.ValueIdx
open Idealize.SL.Sem
open Idealize.ShloMosaic.Pipeline (Dat)

/-! ## The grid: sixteen points, each holding eight consecutive events -/

theorem N16 : cfg0.N = 16 := N_0

/-- Window 0's block index at point t: the event axis moves with the point, the other two axes have one block. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Window 1's block index at point t: the event axis moves with the point, the other two axes have one block. -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- Window 2's block index at point t: the event axis moves with the point, the other two axes have one block. -/
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- Window 3's block index at point t: the event axis moves with the point, the other two axes have one block. -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

/-- Window 4's block index at point t: the event axis moves with the point, the other two axes have one block. -/
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

/-- Window 5's block index at point t: the event axis moves with the point, the other two axes have one block. -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

/-- Window 6's block index at point t: the event axis moves with the point, the other two axes have one block. -/
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)

/-- Window 7's block index at point t: the event axis moves with the point, the other two axes have one block. -/
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)

/-- Window 8's block index at point t: the event axis moves with the point, the other two axes have one block. -/
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)

/-- Window 9's block index at point t: the event axis moves with the point, the other two axes have one block. -/
theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

/-- Window 10's block index at point t: the event axis moves with the point, the other two axes have one block. -/
theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)

/-- Window 11's block index at point t: the event axis moves with the point, the other two axes have one block. -/
theorem idx11 : ∀ t : Fin cfg0.N, win0_11.index t (0 : Fin 3) = t.val ∧ win0_11.index t (1 : Fin 3) = 0 ∧ win0_11.index t (2 : Fin 3) = 0 :=
  (by decide +kernel : ∀ t : Fin grid0.N, _)

/-- Window 12's block index at point t: the event axis moves with the point, the other two axes have one block. -/
theorem idx12 : ∀ t : Fin cfg0.N, win0_12.index t (0 : Fin 3) = t.val ∧ win0_12.index t (1 : Fin 3) = 0 ∧ win0_12.index t (2 : Fin 3) = 0 :=
  (by decide +kernel : ∀ t : Fin grid0.N, _)

/-- Window 13's block index at point t: the event axis moves with the point, the other two axes have one block. -/
theorem idx13 : ∀ t : Fin cfg0.N, win0_13.index t (0 : Fin 3) = t.val ∧ win0_13.index t (1 : Fin 3) = 0 ∧ win0_13.index t (2 : Fin 3) = 0 :=
  (by decide +kernel : ∀ t : Fin grid0.N, _)

/-! ## An input window's block read at an index: event e of point t is event 8·t + e of the array -/

theorem blk0_apply (A : (⟨S128x1x256, .i32⟩ : BufTy).Contents (Elt Ideal)) (t : Fin cfg0.N) (e : Fin 8) (p : Fin 1) (q : Fin 256)
    (b : Fin 128) (hb : b.val = 8 * t.val + e.val) :
    (((cfg0.win 0).blk t).view.read (Elt Ideal) A : Vec Ideal S8x1x256 .i32) (ix3 e p q) = A (ix3 b p q) := by
  obtain ⟨h0, h1, h2⟩ := idx0 t
  rw [View.read_apply]
  show A _ = A _
  congr 1
  funext a
  apply Fin.ext
  match a with
  | ⟨0, _⟩ => show win0_0.index t (0 : Fin 3) * 8 + 1 * e.val = b.val; rw [h0, hb]; omega
  | ⟨1, _⟩ => show win0_0.index t (1 : Fin 3) * 1 + 1 * p.val = p.val; rw [h1]; omega
  | ⟨2, _⟩ => show win0_0.index t (2 : Fin 3) * 256 + 1 * q.val = q.val; rw [h2]; omega

theorem blk1_apply (A : (⟨S128x1x256, .i32⟩ : BufTy).Contents (Elt Ideal)) (t : Fin cfg0.N) (e : Fin 8) (p : Fin 1) (q : Fin 256)
    (b : Fin 128) (hb : b.val = 8 * t.val + e.val) :
    (((cfg0.win 1).blk t).view.read (Elt Ideal) A : Vec Ideal S8x1x256 .i32) (ix3 e p q) = A (ix3 b p q) := by
  obtain ⟨h0, h1, h2⟩ := idx1 t
  rw [View.read_apply]
  show A _ = A _
  congr 1
  funext a
  apply Fin.ext
  match a with
  | ⟨0, _⟩ => show win0_1.index t (0 : Fin 3) * 8 + 1 * e.val = b.val; rw [h0, hb]; omega
  | ⟨1, _⟩ => show win0_1.index t (1 : Fin 3) * 1 + 1 * p.val = p.val; rw [h1]; omega
  | ⟨2, _⟩ => show win0_1.index t (2 : Fin 3) * 256 + 1 * q.val = q.val; rw [h2]; omega

theorem blk2_apply (A : (⟨S128x5x256, .f32⟩ : BufTy).Contents (Elt Ideal)) (t : Fin cfg0.N) (e : Fin 8) (p : Fin 5) (q : Fin 256)
    (b : Fin 128) (hb : b.val = 8 * t.val + e.val) :
    (((cfg0.win 2).blk t).view.read (Elt Ideal) A : Vec Ideal S8x5x256 .f32) (ix3 e p q) = A (ix3 b p q) := by
  obtain ⟨h0, h1, h2⟩ := idx2 t
  rw [View.read_apply]
  show A _ = A _
  congr 1
  funext a
  apply Fin.ext
  match a with
  | ⟨0, _⟩ => show win0_2.index t (0 : Fin 3) * 8 + 1 * e.val = b.val; rw [h0, hb]; omega
  | ⟨1, _⟩ => show win0_2.index t (1 : Fin 3) * 5 + 1 * p.val = p.val; rw [h1]; omega
  | ⟨2, _⟩ => show win0_2.index t (2 : Fin 3) * 256 + 1 * q.val = q.val; rw [h2]; omega

theorem blk3_apply (A : (⟨S128x3x256, .f32⟩ : BufTy).Contents (Elt Ideal)) (t : Fin cfg0.N) (e : Fin 8) (p : Fin 3) (q : Fin 256)
    (b : Fin 128) (hb : b.val = 8 * t.val + e.val) :
    (((cfg0.win 3).blk t).view.read (Elt Ideal) A : Vec Ideal S8x3x256 .f32) (ix3 e p q) = A (ix3 b p q) := by
  obtain ⟨h0, h1, h2⟩ := idx3 t
  rw [View.read_apply]
  show A _ = A _
  congr 1
  funext a
  apply Fin.ext
  match a with
  | ⟨0, _⟩ => show win0_3.index t (0 : Fin 3) * 8 + 1 * e.val = b.val; rw [h0, hb]; omega
  | ⟨1, _⟩ => show win0_3.index t (1 : Fin 3) * 3 + 1 * p.val = p.val; rw [h1]; omega
  | ⟨2, _⟩ => show win0_3.index t (2 : Fin 3) * 256 + 1 * q.val = q.val; rw [h2]; omega

theorem blk4_apply (A : (⟨S128x3x256, .f32⟩ : BufTy).Contents (Elt Ideal)) (t : Fin cfg0.N) (e : Fin 8) (p : Fin 3) (q : Fin 256)
    (b : Fin 128) (hb : b.val = 8 * t.val + e.val) :
    (((cfg0.win 4).blk t).view.read (Elt Ideal) A : Vec Ideal S8x3x256 .f32) (ix3 e p q) = A (ix3 b p q) := by
  obtain ⟨h0, h1, h2⟩ := idx4 t
  rw [View.read_apply]
  show A _ = A _
  congr 1
  funext a
  apply Fin.ext
  match a with
  | ⟨0, _⟩ => show win0_4.index t (0 : Fin 3) * 8 + 1 * e.val = b.val; rw [h0, hb]; omega
  | ⟨1, _⟩ => show win0_4.index t (1 : Fin 3) * 3 + 1 * p.val = p.val; rw [h1]; omega
  | ⟨2, _⟩ => show win0_4.index t (2 : Fin 3) * 256 + 1 * q.val = q.val; rw [h2]; omega

theorem blk5_apply (A : (⟨S128x3x256, .f32⟩ : BufTy).Contents (Elt Ideal)) (t : Fin cfg0.N) (e : Fin 8) (p : Fin 3) (q : Fin 256)
    (b : Fin 128) (hb : b.val = 8 * t.val + e.val) :
    (((cfg0.win 5).blk t).view.read (Elt Ideal) A : Vec Ideal S8x3x256 .f32) (ix3 e p q) = A (ix3 b p q) := by
  obtain ⟨h0, h1, h2⟩ := idx5 t
  rw [View.read_apply]
  show A _ = A _
  congr 1
  funext a
  apply Fin.ext
  match a with
  | ⟨0, _⟩ => show win0_5.index t (0 : Fin 3) * 8 + 1 * e.val = b.val; rw [h0, hb]; omega
  | ⟨1, _⟩ => show win0_5.index t (1 : Fin 3) * 3 + 1 * p.val = p.val; rw [h1]; omega
  | ⟨2, _⟩ => show win0_5.index t (2 : Fin 3) * 256 + 1 * q.val = q.val; rw [h2]; omega

theorem blk6_apply (A : (⟨S128x3x256, .f32⟩ : BufTy).Contents (Elt Ideal)) (t : Fin cfg0.N) (e : Fin 8) (p : Fin 3) (q : Fin 256)
    (b : Fin 128) (hb : b.val = 8 * t.val + e.val) :
    (((cfg0.win 6).blk t).view.read (Elt Ideal) A : Vec Ideal S8x3x256 .f32) (ix3 e p q) = A (ix3 b p q) := by
  obtain ⟨h0, h1, h2⟩ := idx6 t
  rw [View.read_apply]
  show A _ = A _
  congr 1
  funext a
  apply Fin.ext
  match a with
  | ⟨0, _⟩ => show win0_6.index t (0 : Fin 3) * 8 + 1 * e.val = b.val; rw [h0, hb]; omega
  | ⟨1, _⟩ => show win0_6.index t (1 : Fin 3) * 3 + 1 * p.val = p.val; rw [h1]; omega
  | ⟨2, _⟩ => show win0_6.index t (2 : Fin 3) * 256 + 1 * q.val = q.val; rw [h2]; omega

theorem blk7_apply (A : (⟨S128x3x256, .f32⟩ : BufTy).Contents (Elt Ideal)) (t : Fin cfg0.N) (e : Fin 8) (p : Fin 3) (q : Fin 256)
    (b : Fin 128) (hb : b.val = 8 * t.val + e.val) :
    (((cfg0.win 7).blk t).view.read (Elt Ideal) A : Vec Ideal S8x3x256 .f32) (ix3 e p q) = A (ix3 b p q) := by
  obtain ⟨h0, h1, h2⟩ := idx7 t
  rw [View.read_apply]
  show A _ = A _
  congr 1
  funext a
  apply Fin.ext
  match a with
  | ⟨0, _⟩ => show win0_7.index t (0 : Fin 3) * 8 + 1 * e.val = b.val; rw [h0, hb]; omega
  | ⟨1, _⟩ => show win0_7.index t (1 : Fin 3) * 3 + 1 * p.val = p.val; rw [h1]; omega
  | ⟨2, _⟩ => show win0_7.index t (2 : Fin 3) * 256 + 1 * q.val = q.val; rw [h2]; omega

theorem blk8_apply (A : (⟨S128x1x256, .f32⟩ : BufTy).Contents (Elt Ideal)) (t : Fin cfg0.N) (e : Fin 8) (p : Fin 1) (q : Fin 256)
    (b : Fin 128) (hb : b.val = 8 * t.val + e.val) :
    (((cfg0.win 8).blk t).view.read (Elt Ideal) A : Vec Ideal S8x1x256 .f32) (ix3 e p q) = A (ix3 b p q) := by
  obtain ⟨h0, h1, h2⟩ := idx8 t
  rw [View.read_apply]
  show A _ = A _
  congr 1
  funext a
  apply Fin.ext
  match a with
  | ⟨0, _⟩ => show win0_8.index t (0 : Fin 3) * 8 + 1 * e.val = b.val; rw [h0, hb]; omega
  | ⟨1, _⟩ => show win0_8.index t (1 : Fin 3) * 1 + 1 * p.val = p.val; rw [h1]; omega
  | ⟨2, _⟩ => show win0_8.index t (2 : Fin 3) * 256 + 1 * q.val = q.val; rw [h2]; omega

theorem blk9_apply (A : (⟨S128x1x256, .f32⟩ : BufTy).Contents (Elt Ideal)) (t : Fin cfg0.N) (e : Fin 8) (p : Fin 1) (q : Fin 256)
    (b : Fin 128) (hb : b.val = 8 * t.val + e.val) :
    (((cfg0.win 9).blk t).view.read (Elt Ideal) A : Vec Ideal S8x1x256 .f32) (ix3 e p q) = A (ix3 b p q) := by
  obtain ⟨h0, h1, h2⟩ := idx9 t
  rw [View.read_apply]
  show A _ = A _
  congr 1
  funext a
  apply Fin.ext
  match a with
  | ⟨0, _⟩ => show win0_9.index t (0 : Fin 3) * 8 + 1 * e.val = b.val; rw [h0, hb]; omega
  | ⟨1, _⟩ => show win0_9.index t (1 : Fin 3) * 1 + 1 * p.val = p.val; rw [h1]; omega
  | ⟨2, _⟩ => show win0_9.index t (2 : Fin 3) * 256 + 1 * q.val = q.val; rw [h2]; omega

theorem blk10_apply (A : (⟨S128x256x300, .f32⟩ : BufTy).Contents (Elt Ideal)) (t : Fin cfg0.N) (e : Fin 8) (p : Fin 256) (q : Fin 300)
    (b : Fin 128) (hb : b.val = 8 * t.val + e.val) :
    (((cfg0.win 10).blk t).view.read (Elt Ideal) A : Vec Ideal S8x256x300 .f32) (ix3 e p q) = A (ix3 b p q) := by
  obtain ⟨h0, h1, h2⟩ := idx10 t
  rw [View.read_apply]
  show A _ = A _
  congr 1
  funext a
  apply Fin.ext
  match a with
  | ⟨0, _⟩ => show win0_10.index t (0 : Fin 3) * 8 + 1 * e.val = b.val; rw [h0, hb]; omega
  | ⟨1, _⟩ => show win0_10.index t (1 : Fin 3) * 256 + 1 * p.val = p.val; rw [h1]; omega
  | ⟨2, _⟩ => show win0_10.index t (2 : Fin 3) * 300 + 1 * q.val = q.val; rw [h2]; omega

/-! ## The arrays the region finds: the host lines before it broadcast the labels and the energies to [128, 1, 256]
    and move the node axis of the logits and the vectors last -/

variable (m : (ℓ : Loc nD τ sig) → Buf (Elt Ideal) ℓ) (c : Dev nD)

theorem host_main_v0 : (StableHlo.after (List.flatten [hostOps0]) (fun b => m (c, b)) (Proc.devRef .tc main_v0) : (⟨S128x1x256, .i32⟩ : BufTy).Contents (Elt Ideal))
    = broadcastInDim S128x1x256 ![0, 2] bcast_S128x256_S128x1x256_0_2 (m ((c : Thread nD τ).loc main_arg0)) := by
  simp only [hostOps0, List.flatten_cons, List.flatten_nil, List.append_nil]
  after_results

theorem host_main_v1 : (StableHlo.after (List.flatten [hostOps0]) (fun b => m (c, b)) (Proc.devRef .tc main_v1) : (⟨S128x1x256, .i32⟩ : BufTy).Contents (Elt Ideal))
    = broadcastInDim S128x1x256 ![0, 2] bcast_S128x256_S128x1x256_0_2 (m ((c : Thread nD τ).loc main_arg1)) := by
  simp only [hostOps0, List.flatten_cons, List.flatten_nil, List.append_nil]
  after_results

theorem host_main_v2 : (StableHlo.after (List.flatten [hostOps0]) (fun b => m (c, b)) (Proc.devRef .tc main_v2) : (⟨S128x1x256, .f32⟩ : BufTy).Contents (Elt Ideal))
    = broadcastInDim S128x1x256 ![0, 2] bcast_S128x256_S128x1x256_0_2 (m ((c : Thread nD τ).loc main_arg9)) := by
  simp only [hostOps0, List.flatten_cons, List.flatten_nil, List.append_nil]
  after_results

theorem host_main_v3 : (StableHlo.after (List.flatten [hostOps0]) (fun b => m (c, b)) (Proc.devRef .tc main_v3) : (⟨S128x1x256, .f32⟩ : BufTy).Contents (Elt Ideal))
    = broadcastInDim S128x1x256 ![0, 2] bcast_S128x256_S128x1x256_0_2 (m ((c : Thread nD τ).loc main_arg10)) := by
  simp only [hostOps0, List.flatten_cons, List.flatten_nil, List.append_nil]
  after_results

theorem host_main_v4 : (StableHlo.after (List.flatten [hostOps0]) (fun b => m (c, b)) (Proc.devRef .tc main_v4) : (⟨S128x5x256, .f32⟩ : BufTy).Contents (Elt Ideal))
    = transpose S128x5x256 [0, 2, 1] (m ((c : Thread nD τ).loc main_arg3)) transposes_S128x256x5_S128x5x256_0_2_1 := by
  simp only [hostOps0, List.flatten_cons, List.flatten_nil, List.append_nil]
  after_results

theorem host_main_v5 : (StableHlo.after (List.flatten [hostOps0]) (fun b => m (c, b)) (Proc.devRef .tc main_v5) : (⟨S128x3x256, .f32⟩ : BufTy).Contents (Elt Ideal))
    = transpose S128x3x256 [0, 2, 1] (m ((c : Thread nD τ).loc main_arg4)) transposes_S128x256x3_S128x3x256_0_2_1 := by
  simp only [hostOps0, List.flatten_cons, List.flatten_nil, List.append_nil]
  after_results

theorem host_main_v6 : (StableHlo.after (List.flatten [hostOps0]) (fun b => m (c, b)) (Proc.devRef .tc main_v6) : (⟨S128x3x256, .f32⟩ : BufTy).Contents (Elt Ideal))
    = transpose S128x3x256 [0, 2, 1] (m ((c : Thread nD τ).loc main_arg5)) transposes_S128x256x3_S128x3x256_0_2_1 := by
  simp only [hostOps0, List.flatten_cons, List.flatten_nil, List.append_nil]
  after_results

theorem host_main_v7 : (StableHlo.after (List.flatten [hostOps0]) (fun b => m (c, b)) (Proc.devRef .tc main_v7) : (⟨S128x3x256, .f32⟩ : BufTy).Contents (Elt Ideal))
    = transpose S128x3x256 [0, 2, 1] (m ((c : Thread nD τ).loc main_arg6)) transposes_S128x256x3_S128x3x256_0_2_1 := by
  simp only [hostOps0, List.flatten_cons, List.flatten_nil, List.append_nil]
  after_results

theorem host_main_v8 : (StableHlo.after (List.flatten [hostOps0]) (fun b => m (c, b)) (Proc.devRef .tc main_v8) : (⟨S128x3x256, .f32⟩ : BufTy).Contents (Elt Ideal))
    = transpose S128x3x256 [0, 2, 1] (m ((c : Thread nD τ).loc main_arg7)) transposes_S128x256x3_S128x3x256_0_2_1 := by
  simp only [hostOps0, List.flatten_cons, List.flatten_nil, List.append_nil]
  after_results

theorem host_main_v9 : (StableHlo.after (List.flatten [hostOps0]) (fun b => m (c, b)) (Proc.devRef .tc main_v9) : (⟨S128x3x256, .f32⟩ : BufTy).Contents (Elt Ideal))
    = transpose S128x3x256 [0, 2, 1] (m ((c : Thread nD τ).loc main_arg8)) transposes_S128x256x3_S128x3x256_0_2_1 := by
  simp only [hostOps0, List.flatten_cons, List.flatten_nil, List.append_nil]
  after_results

/-- The broadcast [128, 256] → [128, 1, 256] read at (b, 0, i) is the operand at (b, i). -/
theorem bcast_apply {α : Type} (x : S128x256.Idx → α) (b : Fin 128) (i : Fin 256) :
    broadcastInDim S128x1x256 ![0, 2] bcast_S128x256_S128x1x256_0_2 x (ix3 b 0 i) = x (ix2 b i) :=
  broadcastInDim_apply _ _ x _ _ fun a => match a with
    | ⟨0, _⟩ => by show b.val = if (128 : ℕ) = 1 then 0 else b.val; rw [if_neg (by decide)]
    | ⟨1, _⟩ => by show i.val = if (256 : ℕ) = 1 then 0 else i.val; rw [if_neg (by decide)]

/-! ## The pair loss read off a point's blocks is the pair loss of the arrays -/

/-- If the blocks' entries at event e are the arrays' entries at event b (node axis last in the blocks, in the
    middle in the arrays) and the labels agree, the two pair losses agree. -/
theorem loss_eq (lab : Fin 128 → Fin 256 → Fin 5) (chg : Fin 128 → Fin 256 → Fin 3)
    (lab' : Fin 8 → Fin 256 → Fin 5) (chg' : Fin 8 → Fin 256 → Fin 3)
    (y2 : Vec Ideal S8x5x256 .f32) (y3 y4 y5 y6 y7 : Vec Ideal S8x3x256 .f32) (y8 y9 : Vec Ideal S8x1x256 .f32)
    (x3 : S128x256x5.Idx → EReal) (x4 x5 x6 x7 x8 : S128x256x3.Idx → EReal) (x9 x10 : S128x256.Idx → EReal)
    (e : Fin 8) (b : Fin 128)
    (hl : ∀ i, lab' e i = lab b i) (hc : ∀ i, chg' e i = chg b i)
    (h2 : ∀ (k : Fin 5) (j : Fin 256), y2 (ix3 e k j) = x3 (ix3 b j k))
    (h3 : ∀ (k : Fin 3) (j : Fin 256), y3 (ix3 e k j) = x4 (ix3 b j k))
    (h4 : ∀ (k : Fin 3) (j : Fin 256), y4 (ix3 e k j) = x5 (ix3 b j k))
    (h5 : ∀ (k : Fin 3) (j : Fin 256), y5 (ix3 e k j) = x6 (ix3 b j k))
    (h6 : ∀ (k : Fin 3) (j : Fin 256), y6 (ix3 e k j) = x7 (ix3 b j k))
    (h7 : ∀ (k : Fin 3) (j : Fin 256), y7 (ix3 e k j) = x8 (ix3 b j k))
    (h8 : ∀ i : Fin 256, y8 (ix3 e 0 i) = x9 (ix2 b i))
    (h9 : ∀ i : Fin 256, y9 (ix3 e 0 i) = x10 (ix2 b i)) :
    Cert.Spec.blkLoss lab' chg' y2 y3 y4 y5 y6 y7 y8 y9 e = Cert.Spec.pairLoss lab chg x3 x4 x5 x6 x7 x8 x9 x10 b := by
  funext i j
  unfold Cert.Spec.blkLoss Cert.Spec.pairLoss Cert.Spec.sqDist
  simp only [hl, hc, h2, h3, h4, h5, h6, h7, h8, h9]

/-! ## The output windows' blocks cover their arrays: row b lies in the block of point b / 8 -/

theorem mem_blk11 (t : Fin cfg0.N) (i : S128x1x128.Idx) :
    i ∈ ((cfg0.win 11).blk t).view.set ↔ ∀ a : Fin 3, win0_11.index t a * S8x1x128.size a ≤ (i a).val ∧ (i a).val < win0_11.index t a * S8x1x128.size a + S8x1x128.size a := by
  show i ∈ ((View.whole main_v10_0).slice (win0_11.rect t)).set ↔ _
  rw [View.set_slice_whole, Rect.mem_set_unit]
  exact Iff.rfl

theorem cover11 (i : S128x1x128.Idx) : ∃ t : Fin cfg0.N, (cfg0.win 11).flush t = true ∧ i ∈ ((cfg0.win 11).blk t).view.set := by
  have hi0 : (i 0).val < 128 := (i 0).isLt
  have hi1 : (i 1).val < 1 := (i 1).isLt
  have hi2 : (i 2).val < 128 := (i 2).isLt
  have ht : (i 0).val / 8 < cfg0.N := by rw [N16]; omega
  obtain ⟨h0, h1, h2⟩ := idx11 ⟨(i 0).val / 8, ht⟩
  refine ⟨⟨(i 0).val / 8, ht⟩, flush0_11 _, ?_⟩
  rw [mem_blk11]
  intro a
  match a with
  | ⟨0, _⟩ =>
    show win0_11.index ⟨(i 0).val / 8, ht⟩ (0 : Fin 3) * 8 ≤ (i 0).val ∧ (i 0).val < win0_11.index ⟨(i 0).val / 8, ht⟩ (0 : Fin 3) * 8 + 8
    rw [h0]; show (i 0).val / 8 * 8 ≤ (i 0).val ∧ (i 0).val < (i 0).val / 8 * 8 + 8; omega
  | ⟨1, _⟩ =>
    show win0_11.index ⟨(i 0).val / 8, ht⟩ (1 : Fin 3) * 1 ≤ (i 1).val ∧ (i 1).val < win0_11.index ⟨(i 0).val / 8, ht⟩ (1 : Fin 3) * 1 + 1
    rw [h1]; omega
  | ⟨2, _⟩ =>
    show win0_11.index ⟨(i 0).val / 8, ht⟩ (2 : Fin 3) * 128 ≤ (i 2).val ∧ (i 2).val < win0_11.index ⟨(i 0).val / 8, ht⟩ (2 : Fin 3) * 128 + 128
    rw [h2]; omega

theorem mem_blk12 (t : Fin cfg0.N) (i : S128x1x128.Idx) :
    i ∈ ((cfg0.win 12).blk t).view.set ↔ ∀ a : Fin 3, win0_12.index t a * S8x1x128.size a ≤ (i a).val ∧ (i a).val < win0_12.index t a * S8x1x128.size a + S8x1x128.size a := by
  show i ∈ ((View.whole main_v10_1).slice (win0_12.rect t)).set ↔ _
  rw [View.set_slice_whole, Rect.mem_set_unit]
  exact Iff.rfl

theorem cover12 (i : S128x1x128.Idx) : ∃ t : Fin cfg0.N, (cfg0.win 12).flush t = true ∧ i ∈ ((cfg0.win 12).blk t).view.set := by
  have hi0 : (i 0).val < 128 := (i 0).isLt
  have hi1 : (i 1).val < 1 := (i 1).isLt
  have hi2 : (i 2).val < 128 := (i 2).isLt
  have ht : (i 0).val / 8 < cfg0.N := by rw [N16]; omega
  obtain ⟨h0, h1, h2⟩ := idx12 ⟨(i 0).val / 8, ht⟩
  refine ⟨⟨(i 0).val / 8, ht⟩, flush0_12 _, ?_⟩
  rw [mem_blk12]
  intro a
  match a with
  | ⟨0, _⟩ =>
    show win0_12.index ⟨(i 0).val / 8, ht⟩ (0 : Fin 3) * 8 ≤ (i 0).val ∧ (i 0).val < win0_12.index ⟨(i 0).val / 8, ht⟩ (0 : Fin 3) * 8 + 8
    rw [h0]; show (i 0).val / 8 * 8 ≤ (i 0).val ∧ (i 0).val < (i 0).val / 8 * 8 + 8; omega
  | ⟨1, _⟩ =>
    show win0_12.index ⟨(i 0).val / 8, ht⟩ (1 : Fin 3) * 1 ≤ (i 1).val ∧ (i 1).val < win0_12.index ⟨(i 0).val / 8, ht⟩ (1 : Fin 3) * 1 + 1
    rw [h1]; omega
  | ⟨2, _⟩ =>
    show win0_12.index ⟨(i 0).val / 8, ht⟩ (2 : Fin 3) * 128 ≤ (i 2).val ∧ (i 2).val < win0_12.index ⟨(i 0).val / 8, ht⟩ (2 : Fin 3) * 128 + 128
    rw [h2]; omega

theorem mem_blk13 (t : Fin cfg0.N) (i : S128x1x300.Idx) :
    i ∈ ((cfg0.win 13).blk t).view.set ↔ ∀ a : Fin 3, win0_13.index t a * S8x1x300.size a ≤ (i a).val ∧ (i a).val < win0_13.index t a * S8x1x300.size a + S8x1x300.size a := by
  show i ∈ ((View.whole main_v10_2).slice (win0_13.rect t)).set ↔ _
  rw [View.set_slice_whole, Rect.mem_set_unit]
  exact Iff.rfl

theorem cover13 (i : S128x1x300.Idx) : ∃ t : Fin cfg0.N, (cfg0.win 13).flush t = true ∧ i ∈ ((cfg0.win 13).blk t).view.set := by
  have hi0 : (i 0).val < 128 := (i 0).isLt
  have hi1 : (i 1).val < 1 := (i 1).isLt
  have hi2 : (i 2).val < 300 := (i 2).isLt
  have ht : (i 0).val / 8 < cfg0.N := by rw [N16]; omega
  obtain ⟨h0, h1, h2⟩ := idx13 ⟨(i 0).val / 8, ht⟩
  refine ⟨⟨(i 0).val / 8, ht⟩, flush0_13 _, ?_⟩
  rw [mem_blk13]
  intro a
  match a with
  | ⟨0, _⟩ =>
    show win0_13.index ⟨(i 0).val / 8, ht⟩ (0 : Fin 3) * 8 ≤ (i 0).val ∧ (i 0).val < win0_13.index ⟨(i 0).val / 8, ht⟩ (0 : Fin 3) * 8 + 8
    rw [h0]; show (i 0).val / 8 * 8 ≤ (i 0).val ∧ (i 0).val < (i 0).val / 8 * 8 + 8; omega
  | ⟨1, _⟩ =>
    show win0_13.index ⟨(i 0).val / 8, ht⟩ (1 : Fin 3) * 1 ≤ (i 1).val ∧ (i 1).val < win0_13.index ⟨(i 0).val / 8, ht⟩ (1 : Fin 3) * 1 + 1
    rw [h1]; omega
  | ⟨2, _⟩ =>
    show win0_13.index ⟨(i 0).val / 8, ht⟩ (2 : Fin 3) * 300 ≤ (i 2).val ∧ (i 2).val < win0_13.index ⟨(i 0).val / 8, ht⟩ (2 : Fin 3) * 300 + 300
    rw [h2]; omega

/-! ## What a point writes back, as a block of one function of the array index -/

/-- If the staging buffer's entry at (e, 0, l) is G at (8·t + e, 0, l), what point t writes back of window 11 is block t of G. -/
theorem cut11_eq (X : Vec Ideal S8x1x128 .f32) (G : (⟨S128x1x128, .f32⟩ : BufTy).Contents (Elt Ideal)) (t : Fin cfg0.N)
    (h : ∀ (e : Fin 8) (l : Fin 128) (b : Fin 128), b.val = 8 * t.val + e.val → X (ix3 e 0 l) = G (ix3 b 0 l)) :
    (cfg0.win 11).cut (grid0.coords t) X = ((cfg0.win 11).blk t).view.read (Elt Ideal) G := by
  obtain ⟨h0, h1, h2⟩ := idx11 t
  have ht : t.val < 16 := Nat.lt_of_lt_of_eq t.isLt N16
  funext y
  rw [View.read_apply]
  have hy0 : (y 0).val < 8 := (y 0).isLt
  have hy1 : (y 1).val < 1 := (y 1).isLt
  have hy2 : (y 2).val < 128 := (y 2).isLt
  have key := h ⟨(y 0).val, hy0⟩ ⟨(y 2).val, hy2⟩ ⟨8 * t.val + (y 0).val, by omega⟩ rfl
  have eX : (cfg0.win 11).cut (grid0.coords t) X y = X (ix3 ⟨(y 0).val, hy0⟩ 0 ⟨(y 2).val, hy2⟩) := by
    show X _ = X _
    congr 1; funext a; apply Fin.ext
    match a with
    | ⟨0, _⟩ => rfl
    | ⟨1, _⟩ => show (y 1).val = 0; omega
    | ⟨2, _⟩ => rfl
  refine eX.trans (key.trans ?_)
  show G _ = G _
  congr 1; funext a; apply Fin.ext
  match a with
  | ⟨0, _⟩ => show 8 * t.val + (y 0).val = win0_11.index t (0 : Fin 3) * 8 + 1 * (y 0).val; rw [h0]; omega
  | ⟨1, _⟩ => show 0 = win0_11.index t (1 : Fin 3) * 1 + 1 * (y 1).val; rw [h1]; omega
  | ⟨2, _⟩ => show (y 2).val = win0_11.index t (2 : Fin 3) * 128 + 1 * (y 2).val; rw [h2]; omega

/-- If the staging buffer's entry at (e, 0, l) is G at (8·t + e, 0, l), what point t writes back of window 12 is block t of G. -/
theorem cut12_eq (X : Vec Ideal S8x1x128 .f32) (G : (⟨S128x1x128, .f32⟩ : BufTy).Contents (Elt Ideal)) (t : Fin cfg0.N)
    (h : ∀ (e : Fin 8) (l : Fin 128) (b : Fin 128), b.val = 8 * t.val + e.val → X (ix3 e 0 l) = G (ix3 b 0 l)) :
    (cfg0.win 12).cut (grid0.coords t) X = ((cfg0.win 12).blk t).view.read (Elt Ideal) G := by
  obtain ⟨h0, h1, h2⟩ := idx12 t
  have ht : t.val < 16 := Nat.lt_of_lt_of_eq t.isLt N16
  funext y
  rw [View.read_apply]
  have hy0 : (y 0).val < 8 := (y 0).isLt
  have hy1 : (y 1).val < 1 := (y 1).isLt
  have hy2 : (y 2).val < 128 := (y 2).isLt
  have key := h ⟨(y 0).val, hy0⟩ ⟨(y 2).val, hy2⟩ ⟨8 * t.val + (y 0).val, by omega⟩ rfl
  have eX : (cfg0.win 12).cut (grid0.coords t) X y = X (ix3 ⟨(y 0).val, hy0⟩ 0 ⟨(y 2).val, hy2⟩) := by
    show X _ = X _
    congr 1; funext a; apply Fin.ext
    match a with
    | ⟨0, _⟩ => rfl
    | ⟨1, _⟩ => show (y 1).val = 0; omega
    | ⟨2, _⟩ => rfl
  refine eX.trans (key.trans ?_)
  show G _ = G _
  congr 1; funext a; apply Fin.ext
  match a with
  | ⟨0, _⟩ => show 8 * t.val + (y 0).val = win0_12.index t (0 : Fin 3) * 8 + 1 * (y 0).val; rw [h0]; omega
  | ⟨1, _⟩ => show 0 = win0_12.index t (1 : Fin 3) * 1 + 1 * (y 1).val; rw [h1]; omega
  | ⟨2, _⟩ => show (y 2).val = win0_12.index t (2 : Fin 3) * 128 + 1 * (y 2).val; rw [h2]; omega

/-- If the staging buffer's entry at (e, 0, l) is G at (8·t + e, 0, l), what point t writes back of window 13 is block t of G. -/
theorem cut13_eq (X : Vec Ideal S8x1x300 .f32) (G : (⟨S128x1x300, .f32⟩ : BufTy).Contents (Elt Ideal)) (t : Fin cfg0.N)
    (h : ∀ (e : Fin 8) (l : Fin 300) (b : Fin 128), b.val = 8 * t.val + e.val → X (ix3 e 0 l) = G (ix3 b 0 l)) :
    (cfg0.win 13).cut (grid0.coords t) X = ((cfg0.win 13).blk t).view.read (Elt Ideal) G := by
  obtain ⟨h0, h1, h2⟩ := idx13 t
  have ht : t.val < 16 := Nat.lt_of_lt_of_eq t.isLt N16
  funext y
  rw [View.read_apply]
  have hy0 : (y 0).val < 8 := (y 0).isLt
  have hy1 : (y 1).val < 1 := (y 1).isLt
  have hy2 : (y 2).val < 300 := (y 2).isLt
  have key := h ⟨(y 0).val, hy0⟩ ⟨(y 2).val, hy2⟩ ⟨8 * t.val + (y 0).val, by omega⟩ rfl
  have eX : (cfg0.win 13).cut (grid0.coords t) X y = X (ix3 ⟨(y 0).val, hy0⟩ 0 ⟨(y 2).val, hy2⟩) := by
    show X _ = X _
    congr 1; funext a; apply Fin.ext
    match a with
    | ⟨0, _⟩ => rfl
    | ⟨1, _⟩ => show (y 1).val = 0; omega
    | ⟨2, _⟩ => rfl
  refine eX.trans (key.trans ?_)
  show G _ = G _
  congr 1; funext a; apply Fin.ext
  match a with
  | ⟨0, _⟩ => show 8 * t.val + (y 0).val = win0_13.index t (0 : Fin 3) * 8 + 1 * (y 0).val; rw [h0]; omega
  | ⟨1, _⟩ => show 0 = win0_13.index t (1 : Fin 3) * 1 + 1 * (y 1).val; rw [h1]; omega
  | ⟨2, _⟩ => show (y 2).val = win0_13.index t (2 : Fin 3) * 300 + 1 * (y 2).val; rw [h2]; omega

/-! ## An input window's block at point t, read at an index, as an entry of its argument array -/

theorem iblk0_at (t : Fin cfg0.N) (e : Fin 8) (i : Fin 256) (b : Fin 128) (hb : b.val = 8 * t.val + e.val) :
    (iblk m c 0 t : Vec Ideal S8x1x256 .i32) (ix3 e 0 i) = m ((c : Thread nD τ).loc main_arg0) (ix2 b i) := by
  unfold iblk
  refine (blk0_apply _ t e 0 i b hb).trans ?_
  show (StableHlo.after (List.flatten [hostOps0]) (fun b => m (c, b)) (Proc.devRef .tc main_v0) : (⟨S128x1x256, .i32⟩ : BufTy).Contents (Elt Ideal)) (ix3 b 0 i) = _
  rw [host_main_v0, bcast_apply]

theorem iblk1_at (t : Fin cfg0.N) (e : Fin 8) (i : Fin 256) (b : Fin 128) (hb : b.val = 8 * t.val + e.val) :
    (iblk m c 1 t : Vec Ideal S8x1x256 .i32) (ix3 e 0 i) = m ((c : Thread nD τ).loc main_arg1) (ix2 b i) := by
  unfold iblk
  refine (blk1_apply _ t e 0 i b hb).trans ?_
  show (StableHlo.after (List.flatten [hostOps0]) (fun b => m (c, b)) (Proc.devRef .tc main_v1) : (⟨S128x1x256, .i32⟩ : BufTy).Contents (Elt Ideal)) (ix3 b 0 i) = _
  rw [host_main_v1, bcast_apply]

theorem iblk2_at (t : Fin cfg0.N) (e : Fin 8) (k : Fin 5) (j : Fin 256) (b : Fin 128) (hb : b.val = 8 * t.val + e.val) :
    (iblk m c 2 t : Vec Ideal S8x5x256 .f32) (ix3 e k j) = m ((c : Thread nD τ).loc main_arg3) (ix3 b j k) := by
  unfold iblk
  refine (blk2_apply _ t e k j b hb).trans ?_
  show (StableHlo.after (List.flatten [hostOps0]) (fun b => m (c, b)) (Proc.devRef .tc main_v4) : (⟨S128x5x256, .f32⟩ : BufTy).Contents (Elt Ideal)) (ix3 b k j) = _
  rw [host_main_v4]
  exact transpose_ix3_021_apply _ _ b k j

theorem iblk3_at (t : Fin cfg0.N) (e : Fin 8) (k : Fin 3) (j : Fin 256) (b : Fin 128) (hb : b.val = 8 * t.val + e.val) :
    (iblk m c 3 t : Vec Ideal S8x3x256 .f32) (ix3 e k j) = m ((c : Thread nD τ).loc main_arg4) (ix3 b j k) := by
  unfold iblk
  refine (blk3_apply _ t e k j b hb).trans ?_
  show (StableHlo.after (List.flatten [hostOps0]) (fun b => m (c, b)) (Proc.devRef .tc main_v5) : (⟨S128x3x256, .f32⟩ : BufTy).Contents (Elt Ideal)) (ix3 b k j) = _
  rw [host_main_v5]
  exact transpose_ix3_021_apply _ _ b k j

theorem iblk4_at (t : Fin cfg0.N) (e : Fin 8) (k : Fin 3) (j : Fin 256) (b : Fin 128) (hb : b.val = 8 * t.val + e.val) :
    (iblk m c 4 t : Vec Ideal S8x3x256 .f32) (ix3 e k j) = m ((c : Thread nD τ).loc main_arg5) (ix3 b j k) := by
  unfold iblk
  refine (blk4_apply _ t e k j b hb).trans ?_
  show (StableHlo.after (List.flatten [hostOps0]) (fun b => m (c, b)) (Proc.devRef .tc main_v6) : (⟨S128x3x256, .f32⟩ : BufTy).Contents (Elt Ideal)) (ix3 b k j) = _
  rw [host_main_v6]
  exact transpose_ix3_021_apply _ _ b k j

theorem iblk5_at (t : Fin cfg0.N) (e : Fin 8) (k : Fin 3) (j : Fin 256) (b : Fin 128) (hb : b.val = 8 * t.val + e.val) :
    (iblk m c 5 t : Vec Ideal S8x3x256 .f32) (ix3 e k j) = m ((c : Thread nD τ).loc main_arg6) (ix3 b j k) := by
  unfold iblk
  refine (blk5_apply _ t e k j b hb).trans ?_
  show (StableHlo.after (List.flatten [hostOps0]) (fun b => m (c, b)) (Proc.devRef .tc main_v7) : (⟨S128x3x256, .f32⟩ : BufTy).Contents (Elt Ideal)) (ix3 b k j) = _
  rw [host_main_v7]
  exact transpose_ix3_021_apply _ _ b k j

theorem iblk6_at (t : Fin cfg0.N) (e : Fin 8) (k : Fin 3) (j : Fin 256) (b : Fin 128) (hb : b.val = 8 * t.val + e.val) :
    (iblk m c 6 t : Vec Ideal S8x3x256 .f32) (ix3 e k j) = m ((c : Thread nD τ).loc main_arg7) (ix3 b j k) := by
  unfold iblk
  refine (blk6_apply _ t e k j b hb).trans ?_
  show (StableHlo.after (List.flatten [hostOps0]) (fun b => m (c, b)) (Proc.devRef .tc main_v8) : (⟨S128x3x256, .f32⟩ : BufTy).Contents (Elt Ideal)) (ix3 b k j) = _
  rw [host_main_v8]
  exact transpose_ix3_021_apply _ _ b k j

theorem iblk7_at (t : Fin cfg0.N) (e : Fin 8) (k : Fin 3) (j : Fin 256) (b : Fin 128) (hb : b.val = 8 * t.val + e.val) :
    (iblk m c 7 t : Vec Ideal S8x3x256 .f32) (ix3 e k j) = m ((c : Thread nD τ).loc main_arg8) (ix3 b j k) := by
  unfold iblk
  refine (blk7_apply _ t e k j b hb).trans ?_
  show (StableHlo.after (List.flatten [hostOps0]) (fun b => m (c, b)) (Proc.devRef .tc main_v9) : (⟨S128x3x256, .f32⟩ : BufTy).Contents (Elt Ideal)) (ix3 b k j) = _
  rw [host_main_v9]
  exact transpose_ix3_021_apply _ _ b k j

theorem iblk8_at (t : Fin cfg0.N) (e : Fin 8) (i : Fin 256) (b : Fin 128) (hb : b.val = 8 * t.val + e.val) :
    (iblk m c 8 t : Vec Ideal S8x1x256 .f32) (ix3 e 0 i) = m ((c : Thread nD τ).loc main_arg9) (ix2 b i) := by
  unfold iblk
  refine (blk8_apply _ t e 0 i b hb).trans ?_
  show (StableHlo.after (List.flatten [hostOps0]) (fun b => m (c, b)) (Proc.devRef .tc main_v2) : (⟨S128x1x256, .f32⟩ : BufTy).Contents (Elt Ideal)) (ix3 b 0 i) = _
  rw [host_main_v2, bcast_apply]

theorem iblk9_at (t : Fin cfg0.N) (e : Fin 8) (i : Fin 256) (b : Fin 128) (hb : b.val = 8 * t.val + e.val) :
    (iblk m c 9 t : Vec Ideal S8x1x256 .f32) (ix3 e 0 i) = m ((c : Thread nD τ).loc main_arg10) (ix2 b i) := by
  unfold iblk
  refine (blk9_apply _ t e 0 i b hb).trans ?_
  show (StableHlo.after (List.flatten [hostOps0]) (fun b => m (c, b)) (Proc.devRef .tc main_v3) : (⟨S128x1x256, .f32⟩ : BufTy).Contents (Elt Ideal)) (ix3 b 0 i) = _
  rw [host_main_v3, bcast_apply]

theorem iblk10_at (t : Fin cfg0.N) (e : Fin 8) (n : Fin 256) (s : Fin 300) (b : Fin 128) (hb : b.val = 8 * t.val + e.val) :
    (iblk m c 10 t : Vec Ideal S8x256x300 .f32) (ix3 e n s) = m ((c : Thread nD τ).loc main_arg11) (ix3 b n s) := by
  unfold iblk
  refine (blk10_apply _ t e n s b hb).trans ?_
  show V m c main_arg11 (ix3 b n s) = _
  rw [V_main_arg11]

/-! ## Point t's eight events are events 8·t … 8·t + 7 of the arrays -/

/-- The labels of point t's events, and the pair loss read off its blocks: that of the arrays at event 8·t + e. -/
theorem point_loss (lab : Fin 128 → Fin 256 → Fin 5) (chg : Fin 128 → Fin 256 → Fin 3)
    (hlab : ∀ b i, m ((c : Thread nD τ).loc main_arg0) (ix2 b i) = BitVec.ofNat 32 (lab b i).val)
    (hchg : ∀ b i, m ((c : Thread nD τ).loc main_arg1) (ix2 b i) = BitVec.ofNat 32 (chg b i).val) (t : Fin cfg0.N) :
    ∃ (lab' : Fin 8 → Fin 256 → Fin 5) (chg' : Fin 8 → Fin 256 → Fin 3),
      (∀ (e : Fin 8) (i : Fin 256), (iblk m c 0 t : Vec Ideal S8x1x256 .i32) (ix3 e 0 i) = BitVec.ofNat 32 (lab' e i).val)
      ∧ (∀ (e : Fin 8) (i : Fin 256), (iblk m c 1 t : Vec Ideal S8x1x256 .i32) (ix3 e 0 i) = BitVec.ofNat 32 (chg' e i).val)
      ∧ ∀ (e : Fin 8) (b : Fin 128), b.val = 8 * t.val + e.val →
          Cert.Spec.blkLoss lab' chg' (iblk m c 2 t) (iblk m c 3 t) (iblk m c 4 t) (iblk m c 5 t) (iblk m c 6 t) (iblk m c 7 t) (iblk m c 8 t) (iblk m c 9 t) e
            = Cert.Spec.pairLoss lab chg (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b := by
  have ht : t.val < 16 := Nat.lt_of_lt_of_eq t.isLt N16
  have hlt : ∀ e : Fin 8, 8 * t.val + e.val < 128 := fun e => by have := e.isLt; omega
  refine ⟨fun e i => lab ⟨8 * t.val + e.val, hlt e⟩ i, fun e i => chg ⟨8 * t.val + e.val, hlt e⟩ i, ?_, ?_, ?_⟩
  · intro e i; exact (iblk0_at m c t e i ⟨_, hlt e⟩ rfl).trans (hlab _ i)
  · intro e i; exact (iblk1_at m c t e i ⟨_, hlt e⟩ rfl).trans (hchg _ i)
  · intro e b hb
    have eb : (⟨8 * t.val + e.val, hlt e⟩ : Fin 128) = b := Fin.ext hb.symm
    exact loss_eq lab chg _ _ _ _ _ _ _ _ _ _ _ _ _ _ _ _ _ _ e b
      (fun i => by show lab ⟨_, _⟩ i = lab b i; rw [eb]) (fun i => by show chg ⟨_, _⟩ i = chg b i; rw [eb])
      (fun k j => iblk2_at m c t e k j b hb) (fun k j => iblk3_at m c t e k j b hb) (fun k j => iblk4_at m c t e k j b hb)
      (fun k j => iblk5_at m c t e k j b hb) (fun k j => iblk6_at m c t e k j b hb) (fun k j => iblk7_at m c t e k j b hb)
      (fun i => iblk8_at m c t e i b hb) (fun i => iblk9_at m c t e i b hb)

/-- What point t writes back of window 11 is block t of the array whose row b holds event b's particle sum. -/
theorem flushed11_eq (lab : Fin 128 → Fin 256 → Fin 5) (chg : Fin 128 → Fin 256 → Fin 3)
    (hlab : ∀ b i, m ((c : Thread nD τ).loc main_arg0) (ix2 b i) = BitVec.ofNat 32 (lab b i).val)
    (hchg : ∀ b i, m ((c : Thread nD τ).loc main_arg1) (ix2 b i) = BitVec.ofNat 32 (chg b i).val) (t : Fin cfg0.N) :
    (dats (F := Ideal) m 0 c).flushed 11 t = ((cfg0.win 11).blk t).view.read (Elt Ideal) (fun i : S128x1x128.Idx => Cert.Spec.partSum (Cert.Spec.pairLoss lab chg (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0))) := by
  obtain ⟨lab', chg', hl, hc, hloss⟩ := point_loss m c lab chg hlab hchg t
  show (cfg0.win 11).cut (grid0.coords t) ((dats (F := Ideal) m 0 c).after 11 t) = _
  rw [after0_11]
  refine cut11_eq _ _ t fun e l b hb => ?_
  refine (KOut.out11_apply (iblk m c 0 t) (iblk m c 1 t) (iblk m c 2 t) (iblk m c 3 t) (iblk m c 4 t) (iblk m c 5 t) (iblk m c 6 t) (iblk m c 7 t) (iblk m c 8 t) (iblk m c 9 t) (iblk m c 10 t) lab' chg' hl hc e l).trans ?_
  exact congrArg Cert.Spec.partSum (hloss e b hb)

/-- What point t writes back of window 12 is block t of the array whose row b holds event b's flow sum. -/
theorem flushed12_eq (lab : Fin 128 → Fin 256 → Fin 5) (chg : Fin 128 → Fin 256 → Fin 3)
    (hlab : ∀ b i, m ((c : Thread nD τ).loc main_arg0) (ix2 b i) = BitVec.ofNat 32 (lab b i).val)
    (hchg : ∀ b i, m ((c : Thread nD τ).loc main_arg1) (ix2 b i) = BitVec.ofNat 32 (chg b i).val) (t : Fin cfg0.N) :
    (dats (F := Ideal) m 0 c).flushed 12 t = ((cfg0.win 12).blk t).view.read (Elt Ideal) (fun i : S128x1x128.Idx => Cert.Spec.flowSum (Cert.Spec.pairLoss lab chg (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0))) := by
  obtain ⟨lab', chg', hl, hc, hloss⟩ := point_loss m c lab chg hlab hchg t
  show (cfg0.win 12).cut (grid0.coords t) ((dats (F := Ideal) m 0 c).after 12 t) = _
  rw [after0_12]
  refine cut12_eq _ _ t fun e l b hb => ?_
  refine (KOut.out12_apply (iblk m c 0 t) (iblk m c 1 t) (iblk m c 2 t) (iblk m c 3 t) (iblk m c 4 t) (iblk m c 5 t) (iblk m c 6 t) (iblk m c 7 t) (iblk m c 8 t) (iblk m c 9 t) (iblk m c 10 t) lab' chg' hl hc e l).trans ?_
  exact congrArg Cert.Spec.flowSum (hloss e b hb)

/-- What point t writes back of window 13 is block t of the array whose row b holds event b's set-size row. -/
theorem flushed13_eq (t : Fin cfg0.N) :
    (dats (F := Ideal) m 0 c).flushed 13 t = ((cfg0.win 13).blk t).view.read (Elt Ideal) (fun i : S128x1x300.Idx => Cert.Spec.setRow (m ((c : Thread nD τ).loc main_arg11)) (i 0) (i 2)) := by
  show (cfg0.win 13).cut (grid0.coords t) ((dats (F := Ideal) m 0 c).after 13 t) = _
  rw [after0_13]
  refine cut13_eq _ _ t fun e s b hb => ?_
  refine (KOut.out13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) e s).trans ?_
  show _ = Cert.Spec.setRow (m ((c : Thread nD τ).loc main_arg11)) b s
  unfold Cert.Spec.setRow
  exact Finset.sum_congr rfl fun n _ => iblk10_at m c t e n s b hb

/-! ## The three output arrays after the run -/

theorem arr11 (lab : Fin 128 → Fin 256 → Fin 5) (chg : Fin 128 → Fin 256 → Fin 3)
    (hlab : ∀ b i, m ((c : Thread nD τ).loc main_arg0) (ix2 b i) = BitVec.ofNat 32 (lab b i).val)
    (hchg : ∀ b i, m ((c : Thread nD τ).loc main_arg1) (ix2 b i) = BitVec.ofNat 32 (chg b i).val) (b : Fin 128) (l : Fin 128) :
    (dats (F := Ideal) m 0 c).arrAt 11 cfg0.N (ix3 b 0 l)
      = Cert.Spec.partSum (Cert.Spec.pairLoss lab chg (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b) :=
  congrFun ((dats (F := Ideal) m 0 c).arrAt_eq_of_cover 11 (fun i : S128x1x128.Idx => Cert.Spec.partSum (Cert.Spec.pairLoss lab chg (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0)))
    (fun t _ => flushed11_eq m c lab chg hlab hchg t) cover11) (ix3 b 0 l)

theorem arr12 (lab : Fin 128 → Fin 256 → Fin 5) (chg : Fin 128 → Fin 256 → Fin 3)
    (hlab : ∀ b i, m ((c : Thread nD τ).loc main_arg0) (ix2 b i) = BitVec.ofNat 32 (lab b i).val)
    (hchg : ∀ b i, m ((c : Thread nD τ).loc main_arg1) (ix2 b i) = BitVec.ofNat 32 (chg b i).val) (b : Fin 128) (l : Fin 128) :
    (dats (F := Ideal) m 0 c).arrAt 12 cfg0.N (ix3 b 0 l)
      = Cert.Spec.flowSum (Cert.Spec.pairLoss lab chg (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b) :=
  congrFun ((dats (F := Ideal) m 0 c).arrAt_eq_of_cover 12 (fun i : S128x1x128.Idx => Cert.Spec.flowSum (Cert.Spec.pairLoss lab chg (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0)))
    (fun t _ => flushed12_eq m c lab chg hlab hchg t) cover12) (ix3 b 0 l)

theorem arr13 (b : Fin 128) (s : Fin 300) :
    (dats (F := Ideal) m 0 c).arrAt 13 cfg0.N (ix3 b 0 s) = Cert.Spec.setRow (m ((c : Thread nD τ).loc main_arg11)) b s :=
  congrFun ((dats (F := Ideal) m 0 c).arrAt_eq_of_cover 13 (fun i : S128x1x300.Idx => Cert.Spec.setRow (m ((c : Thread nD τ).loc main_arg11)) (i 0) (i 2))
    (fun t _ => flushed13_eq m c t) cover13) (ix3 b 0 s)

end Cert.KernelIdeal.KArr
end
-- ==== Proof.KTail.lean ====
/-
  What the kernel's program leaves in its result buffer, read off the host operations that follow the region.

  After the region the three output arrays hold, per event b, the particle sum P b (in every lane of row b of the
  first), the flow sum Q b (the second) and the set-size row (the third). The host operations then take lane 0 of
  the first two, add the 128 events up from zero and divide by 128; divide the set-size rows by 256, take the
  log-softmax along the 300 sizes, read it at the event's particle count, negate, add up from zero and divide by 128;
  and add the three means. The log-softmax and the read at the particle count are the very operations the reference
  applies to its own mean set-size rows: the two inputs are equal entry by entry (both are the row sum over 256), so
  the chain is carried as one function and never opened.
-/
import proofs.«414995_j25194278158453_3_alg».proof.Proof.KernelIdealFrame
import proofs.«414995_j25194278158453_3_alg».proof.Proof.RefRead
import proofs.«414995_j25194278158453_3_alg».proof.Proof.Alg
import proofs.«414995_j25194278158453_3_alg».proof.Proof.Spec
import Idealize.ShloMosaic.Lib.StableHlo.Run
import Idealize.ShloMosaic.Lib.IdealHost
import Idealize.ShloMosaic.Lib.Pipeline.Value
import Idealize.ShloMosaic.Lib.ValueIdx
import Idealize.ShloMosaic.PureOps.Ideal.Laws

set_option maxRecDepth 16384

noncomputable section

namespace Cert.KernelIdeal.KTail

open Cert.KernelIdeal Cert.KernelIdeal.Gen Cert.KernelIdeal.GenP
open Idealize.ShloMosaic Idealize.ShloMosaic.TcCoe Idealize.ShloMosaic.StableHlo Idealize.SL.Sem Idealize.ShloMosaic.ValueIdx
open scoped BigOperators

/-! ## The host operations after the region, stretch by stretch, at any float family -/

section Stages

variable {F : FTy → Type} [FloatOps F]

/-- Lane 0 of each of the 128 rows of an output array, added up from zero and divided by 128. -/
def laneMean (o : (⟨S128x1x128, .f32⟩ : BufTy).Contents (Elt F)) : (⟨S_, .f32⟩ : BufTy).Contents (Elt F) :=
  Host.divf (Host.reduceAdd (shapeCast S128 (extractStridedSlice S128x1x1 ![0, 0, 0] o slices_S128x1x128_S128x1x1_0_0_0) shapeCasts_S128x1x1_S128)
      (constant S_ .f32 0x00000000#32) reducesTo_S128_S_d0 h_S_) (constant S_ .f32 0x43000000#32)

/-- The first stretch leaves the mean of the first output's lane 0 … -/
theorem v17_eq (W : Valuation τ sig (Elt F)) :
    StableHlo.after hostOps1 W (Proc.devRef .tc main_v17) = laneMean (W (Proc.devRef .tc main_v10_0)) := by
  after_results_simp
  rfl

/-- … the mean of the second output's lane 0 … -/
theorem v19_eq (W : Valuation τ sig (Elt F)) :
    StableHlo.after hostOps1 W (Proc.devRef .tc main_v19) = laneMean (W (Proc.devRef .tc main_v10_1)) := by
  after_results_simp
  rfl

/-- … the third output as a [128, 300] array divided by 256 … -/
theorem v21_eq (W : Valuation τ sig (Elt F)) :
    StableHlo.after hostOps1 W (Proc.devRef .tc main_v21)
      = Host.divf (shapeCast S128x300 (W (Proc.devRef .tc main_v10_2)) shapeCasts_S128x1x300_S128x300)
          (broadcastInDim S128x300 ![] bcast_S_S128x300 (constant S_ .f32 0x43800000#32)) := by
  after_results_simp
  rfl

/-- … and the particle counts as they were. -/
theorem arg2_eq (W : Valuation τ sig (Elt F)) :
    StableHlo.after hostOps1 W (Proc.devRef .tc main_arg2) = W (Proc.devRef .tc main_arg2) := by
  after_results_simp

/-- The log-softmax and the read at the particle count write neither mean. -/
theorem mid_v17 (W : Valuation τ sig (Elt F)) :
    StableHlo.after (hostOps1_1 ++ (hostOps1_2 ++ hostOps1_3)) W (Proc.devRef .tc main_v17) = W (Proc.devRef .tc main_v17) := by
  simp only [hostOps1_1, hostOps1_2, hostOps1_3, List.cons_append, List.nil_append]
  after_results_simp

theorem mid_v19 (W : Valuation τ sig (Elt F)) :
    StableHlo.after (hostOps1_1 ++ (hostOps1_2 ++ hostOps1_3)) W (Proc.devRef .tc main_v19) = W (Proc.devRef .tc main_v19) := by
  simp only [hostOps1_1, hostOps1_2, hostOps1_3, List.cons_append, List.nil_append]
  after_results_simp

/-- The last stretch: the two means added, plus the mean of the negated set-size values. -/
theorem last_v30 (W : Valuation τ sig (Elt F)) :
    StableHlo.after hostOps1_4 W (Proc.devRef .tc main_v30)
      = addf (addf (W (Proc.devRef .tc main_v17)) (W (Proc.devRef .tc main_v19)))
          (Host.divf (Host.reduceAdd (Host.negf (shapeCast S128 (W (Proc.devRef .tc main_v24)) shapeCasts_S128x1_S128))
            (constant S_ .f32 0x00000000#32) reducesTo_S128_S_d0 h_S_) (constant S_ .f32 0x43000000#32)) := by
  after_results_simp
  rfl

/-! ## The set-size chain is the reference's -/

section Chain

variable {F : FTy → Type} [FloatOps F]

/-- The log-softmax along the sizes and the read at the particle count, applied to an input that is the reference's mean
    set-size rows, leave what the reference's own chain leaves: the two programs apply the same operations. -/
theorem mid_v24 (W : Valuation τ sig (Elt F)) (x11 : (⟨Cert.ReferenceIdeal.S128x256x300, .f32⟩ : BufTy).Contents (Elt F))
    (h21 : W (Proc.devRef .tc main_v21) = Cert.ReferenceIdeal.ReadP.val_main_v44 (F := F) x11) :
    StableHlo.after (hostOps1_1 ++ (hostOps1_2 ++ hostOps1_3)) W (Proc.devRef .tc main_v24)
      = Cert.ReferenceIdeal.ReadP.val_main_v47 (F := F) (W (Proc.devRef .tc main_arg2)) x11 := by
  simp only [hostOps1_1, hostOps1_2, hostOps1_3, List.cons_append, List.nil_append]
  after_results_simp
  rw [h21]
  -- the typed references' transports are along proofs of `T = T`: opened, they reduce away wherever they are met
  delta TRef.toBuf TRef.ofBuf cast
  exact rfl

/-- Every host operation after the region, from contents whose third output array, as a [128, 300] array over 256, is
    the reference's mean set-size rows. -/
theorem tail_v30 (W : Valuation τ sig (Elt F)) (x11 : (⟨Cert.ReferenceIdeal.S128x256x300, .f32⟩ : BufTy).Contents (Elt F))
    (h21 : Host.divf (F := F) (shapeCast S128x300 (W (Proc.devRef .tc main_v10_2)) shapeCasts_S128x1x300_S128x300)
          (broadcastInDim S128x300 ![] bcast_S_S128x300 (constant S_ .f32 0x43800000#32)) = Cert.ReferenceIdeal.ReadP.val_main_v44 (F := F) x11) :
    StableHlo.after (List.flatten [hostOps1 (F := F), hostOps1_1, hostOps1_2, hostOps1_3, hostOps1_4]) W (Proc.devRef .tc main_v30)
      = addf (addf (laneMean (W (Proc.devRef .tc main_v10_0))) (laneMean (W (Proc.devRef .tc main_v10_1))))
          (Host.divf (Host.reduceAdd (Host.negf (Cert.ReferenceIdeal.ReadP.val_main_v48 (F := F) (W (Proc.devRef .tc main_arg2)) x11))
            (constant S_ .f32 0x00000000#32) reducesTo_S128_S_d0 h_S_) (constant S_ .f32 0x43000000#32)) := by
  have e : List.flatten [hostOps1 (F := F), hostOps1_1, hostOps1_2, hostOps1_3, hostOps1_4]
      = hostOps1 ++ ((hostOps1_1 ++ (hostOps1_2 ++ hostOps1_3)) ++ hostOps1_4) := by
    simp only [List.flatten_cons, List.flatten_nil, List.append_nil, List.append_assoc]
  rw [e, StableHlo.after_append, StableHlo.after_append, last_v30, mid_v17, mid_v19, v17_eq, v19_eq,
    mid_v24 _ x11 ((v21_eq W).trans h21), arg2_eq]
  rfl

end Chain

end Stages

/-! ## The layout operations of the tail read at an index -/

/-- A sum over the indices of a vector is the sum over its one coordinate. -/
theorem sum_idx1 {M : Type*} [AddCommMonoid M] {n : Nat} (f : (⟨1, ![n]⟩ : Shape).Idx → M) :
    ∑ i, f i = ∑ b : Fin n, f (ix1 b) :=
  Fintype.sum_equiv (⟨fun j => j 0, ix1, fun j => (eq_ix1 j).symm, fun _ => rfl⟩ : (⟨1, ![n]⟩ : Shape).Idx ≃ Fin n) f
    (fun b => f (ix1 b)) (fun j => congrArg f (eq_ix1 j))

/-- A [128, 1, 1] array as a vector reads, at b, the array at (b, 0, 0). -/
theorem cast_a11_a {α : Type} (x : (⟨3, ![128, 1, 1]⟩ : Shape).Idx → α)
    (h : (⟨3, ![128, 1, 1]⟩ : Shape).ShapeCasts ⟨1, ![128]⟩) (b : Fin 128) :
    shapeCast ⟨1, ![128]⟩ x h (ix1 b) = x (ix3 b (0 : Fin 1) (0 : Fin 1)) :=
  shapeCast_apply x h _ _ (by
    rw [Shape.rowMajor_val_three, Shape.rowMajor_val_one]
    show (b.val * 1 + 0) * 1 + 0 = b.val
    omega)

/-- The corner slice [:, 0:1, 0:1] of a [128, 1, 128] array reads, at (b, 0, 0), the array there. -/
theorem slice_lane0 {α : Type} (x : (⟨3, ![128, 1, 128]⟩ : Shape).Idx → α)
    (h : (⟨3, ![128, 1, 128]⟩ : Shape).Slices ![0, 0, 0] ⟨3, ![128, 1, 1]⟩) (b : Fin 128) :
    extractStridedSlice ⟨3, ![128, 1, 1]⟩ ![0, 0, 0] x h (ix3 b (0 : Fin 1) (0 : Fin 1)) = x (ix3 b (0 : Fin 1) (0 : Fin 128)) :=
  extractStridedSlice_apply _ x h _ _ fun a => match a with
    | ⟨0, _⟩ => (Nat.zero_add _).symm
    | ⟨1, _⟩ => rfl
    | ⟨2, _⟩ => rfl

/-- A [128, 1, 300] array as a [128, 300] array reads, at (b, s), the array at (b, 0, s). -/
theorem cast_a1b_ab {α : Type} (x : (⟨3, ![128, 1, 300]⟩ : Shape).Idx → α)
    (h : (⟨3, ![128, 1, 300]⟩ : Shape).ShapeCasts ⟨2, ![128, 300]⟩) (b : Fin 128) (s : Fin 300) :
    shapeCast ⟨2, ![128, 300]⟩ x h (ix2 b s) = x (ix3 b (0 : Fin 1) s) :=
  shapeCast_apply x h _ _ (by
    rw [Shape.rowMajor_val_three, Shape.rowMajor_val_two]
    show (b.val * 1 + 0) * 300 + s.val = b.val * 300 + s.val
    omega)

/-- The mean of lane 0 of an output array whose row b holds `P b` in every lane: the sum of `P` over 128. -/
theorem laneMean_apply (o : (⟨S128x1x128, .f32⟩ : BufTy).Contents (Elt Ideal)) (P : Fin 128 → EReal)
    (h : ∀ (b : Fin 128) (l : Fin 128), o (ix3 b (0 : Fin 1) l) = P b) (i : S_.Idx) :
    laneMean (F := Ideal) o i = Ideal.div (∑ b : Fin 128, P b) Cert.Spec.c128 := by
  unfold laneMean
  rw [hostDivf_apply, hostReduceAdd_apply, Ideal.hostReduceAdd_total _ (fun b => b.elim0), constant_apply, constant_apply,
    Ideal.ofBits_zero_f32, zero_add, sum_idx1]
  refine congrArg (Ideal.div · _) (Finset.sum_congr rfl fun b _ => ?_)
  exact ((cast_a11_a _ _ b).trans (slice_lane0 o _ b)).trans (h b 0)

/-! ## The result at the ideal values -/

/-- The kernel's mean set-size rows are the reference's, entry by entry: the row sum over the 256 nodes, over 256. -/
theorem input_eq (o : (⟨S128x1x300, .f32⟩ : BufTy).Contents (Elt Ideal))
    (x11 : (⟨Cert.ReferenceIdeal.S128x256x300, .f32⟩ : BufTy).Contents (Elt Ideal))
    (h : ∀ (b : Fin 128) (s : Fin 300), o (ix3 b (0 : Fin 1) s) = Cert.Spec.setRow x11 b s) :
    Host.divf (F := Ideal) (shapeCast S128x300 o shapeCasts_S128x1x300_S128x300)
        (broadcastInDim S128x300 ![] bcast_S_S128x300 (constant S_ .f32 0x43800000#32))
      = Cert.ReferenceIdeal.ReadP.val_main_v44 (F := Ideal) x11 := by
  funext i
  obtain ⟨b, s, rfl⟩ : ∃ (b : Fin 128) (s : Fin 300), i = ix2 b s := ⟨i 0, i 1, eq_ix2 i⟩
  have hidx : ∀ k : Fin 256, Cert.ReferenceIdeal.ReadP.idx_main_v42 (ix2 b s) k = ix3 b k s := fun k =>
    funext fun a => Fin.ext (by match a with | ⟨0, _⟩ => rfl | ⟨1, _⟩ => rfl | ⟨2, _⟩ => rfl)
  rw [Cert.ReferenceIdeal.ReadP.val_main_v44_apply, Cert.ReferenceIdeal.ReadP.val_main_v42_apply,
    Cert.ReferenceIdeal.ReadP.val_main_v43_apply, Cert.ReferenceIdeal.ReadP.val_main_cst_7_apply,
    Cert.ReferenceIdeal.ReadP.val_main_cst_8_apply, hostDivf_apply, cast_a1b_ab o _ b s, h b s,
    broadcastInDim_scalar_apply, constant_apply]
  simp only [Ideal.ofBits_def, Ideal.hostDivf_def, Ideal.ofBits_zero_f32, zero_add, hidx]
  rfl

/-- The result from any contents after the region whose three output arrays are as the region leaves them. -/
theorem result_of (W : Valuation τ sig (Elt Ideal)) (x2 : (⟨Cert.ReferenceIdeal.S128, .i32⟩ : BufTy).Contents (Elt Ideal))
    (x11 : (⟨Cert.ReferenceIdeal.S128x256x300, .f32⟩ : BufTy).Contents (Elt Ideal)) (P Q : Fin 128 → EReal)
    (h11 : ∀ (b : Fin 128) (l : Fin 128), W (Proc.devRef .tc main_v10_0) (ix3 b (0 : Fin 1) l) = P b)
    (h12 : ∀ (b : Fin 128) (l : Fin 128), W (Proc.devRef .tc main_v10_1) (ix3 b (0 : Fin 1) l) = Q b)
    (h13 : ∀ (b : Fin 128) (s : Fin 300), W (Proc.devRef .tc main_v10_2) (ix3 b (0 : Fin 1) s) = Cert.Spec.setRow x11 b s)
    (h2 : W (Proc.devRef .tc main_arg2) = x2) :
    StableHlo.after (List.flatten [hostOps1 (F := Ideal), hostOps1_1, hostOps1_2, hostOps1_3, hostOps1_4]) W (Proc.devRef .tc main_v30) ix0
      = Cert.Spec.total P Q (Cert.Spec.setTerm fun b => Cert.ReferenceIdeal.ReadP.val_main_v48 (F := Ideal) x2 x11 (ix1 b)) := by
  rw [tail_v30 W x11 (input_eq _ x11 h13), h2, addf_apply, addf_apply, laneMean_apply _ P h11, laneMean_apply _ Q h12,
    hostDivf_apply, hostReduceAdd_apply, Ideal.hostReduceAdd_total _ (fun b => b.elim0), constant_apply, constant_apply, sum_idx1]
  unfold Cert.Spec.total
  exact congrArg (_ + ·) (Cert.Alg.setTerm_of_kernel fun b => Cert.ReferenceIdeal.ReadP.val_main_v48 (F := Ideal) x2 x11 (ix1 b))

variable (m : (ℓ : Loc nD τ sig) → Buf (Elt Ideal) ℓ) (c : Dev nD)

/-- THE RESULT BUFFER after the host operations that follow the region, from the three output arrays' contents. -/
theorem result_eq (P Q : Fin 128 → EReal)
    (h11 : ∀ (b : Fin 128) (l : Fin 128), (dats (F := Ideal) m 0 c).arrAt 11 cfg0.N (ix3 b 0 l) = P b)
    (h12 : ∀ (b : Fin 128) (l : Fin 128), (dats (F := Ideal) m 0 c).arrAt 12 cfg0.N (ix3 b 0 l) = Q b)
    (h13 : ∀ (b : Fin 128) (s : Fin 300), (dats (F := Ideal) m 0 c).arrAt 13 cfg0.N (ix3 b 0 s)
      = Cert.Spec.setRow (m ((c.tc : Thread nD τ).loc main_arg11)) b s) :
    Pipeline.afterTail₀ cfgs (dats (F := Ideal) m) 0 (V0 m) [hostOps1, hostOps1_1, hostOps1_2, hostOps1_3, hostOps1_4] c main_v30 ix0
      = Cert.Spec.total P Q (Cert.Spec.setTerm fun b =>
          Cert.ReferenceIdeal.ReadP.val_main_v48 (F := Ideal) (m ((c.tc : Thread nD τ).loc main_arg2)) (m ((c.tc : Thread nD τ).loc main_arg11)) (ix1 b)) := by
  have e11 := Pipeline.withArrays_arr spec0 launch0.win.arr_inj c (V0 m c) (fun w => (dats (F := Ideal) m 0 c).arrAt w cfg0.N) 11
  have e12 := Pipeline.withArrays_arr spec0 launch0.win.arr_inj c (V0 m c) (fun w => (dats (F := Ideal) m 0 c).arrAt w cfg0.N) 12
  have e13 := Pipeline.withArrays_arr spec0 launch0.win.arr_inj c (V0 m c) (fun w => (dats (F := Ideal) m 0 c).arrAt w cfg0.N) 13
  have e2 := (Pipeline.withArrays_of_ne spec0 c (V0 m c) (fun w => (dats (F := Ideal) m 0 c).arrAt w cfg0.N) main_arg2
    (by exact (by decide : ∀ w, Pipeline.arrRef spec0 w ≠ main_arg2))).trans (V_main_arg2 m c)
  unfold Pipeline.afterTail₀
  exact result_of _ _ _ P Q (fun b l => (congrFun e11 _).trans (h11 b l)) (fun b l => (congrFun e12 _).trans (h12 b l))
    (fun b s => (congrFun e13 _).trans (h13 b s)) e2

end Cert.KernelIdeal.KTail

end
-- ==== Proof.KRun.lean ====
/-
  The run of the kernel's program on the ideal values, with what its result buffer holds at the end.

  Every weakly fair execution from a memory with zero counters terminates; at the end the result buffer holds what the
  host operations after the region compute from the region's exit contents, and every argument array holds what it
  held at the start. The first is the run's second clause read at the result buffer (no window's array, unscoped);
  the others are the frame's own conjuncts.
-/
import proofs.«414995_j25194278158453_3_alg».proof.Proof.KernelIdealFrame
import Idealize.ShloMosaic.PureOps.Ideal

set_option maxRecDepth 16384

noncomputable section

namespace Cert.KernelIdeal.KRun

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The run, read at the result buffer and at the twelve argument arrays. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v30) = Pipeline.afterTail₀ cfgs (dats (F := Ideal) m) 0 (V0 m) [hostOps1, hostOps1_1, hostOps1_2, hostOps1_3, hostOps1_4] c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c).2 main_v30 (Pipeline.mem_restRefs_of main_v30 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      ((h c).1 10).trans (((dats m 0 c).arrAt_in 10 rfl _).trans ((A_eq m c 10).trans (V_main_arg11 m c)))⟩) (run_main m ρ)

end Cert.KernelIdeal.KRun

end
-- ==== Proof.LibBatchGather.lean ====
/-
  Stages of a batched take-along-the-last-axis, and one-axis reductions, read at an index, for any extents.

  * A gather whose operand [B, N, C] and start indices [B, M, 1, 1] share the leading (batching) axis, whose window is
    a whole row of the middle axis and whose one start-index component addresses the last axis: the result
    [B, M, N, 1] at (b, i, j, 0) is the operand at (b, j, c), where c is the start index at (b, i, 0, 0) read as a
    signed integer and clamped into [0, C - 1].
  * A reduction with a commutative and associative body over a trailing axis of extent one: the body applied to the
    initial value and the one element.
  * A maximum-reduction over the last axis of a rank-3 array of extended reals: the fold of max over that axis; a
    minimum-reduction over its last or its middle axis: the fold of min over that axis.
-/
import Idealize.ShloMosaic.Lib.ValueIdx
import Idealize.ShloMosaic.PureOps.Reduce
import Idealize.ShloMosaic.PureOps.Ideal.Laws

noncomputable section

namespace Cert.LibBatchGather

open Idealize.ShloMosaic Idealize.ShloMosaic.ValueIdx

section Gather
variable {α : Type}

/-- The dimension numbers of the batched take: offset axis 2 of the result, operand axis 2 collapsed and
    start-indexed, axis 0 batching on both sides, the index vector on axis 3, windows [1, N, 1]. -/
abbrev batchTakeDims (B M N C : Nat)
    (wf : GatherDims.WF ⟨3, ![B, N, C]⟩ ⟨4, ![B, M, 1, 1]⟩ ⟨4, ![B, M, N, 1]⟩ [2] [2] [0] [2] [0] 3 ![1, N, 1]) :
    GatherDims ⟨3, ![B, N, C]⟩ ⟨4, ![B, M, 1, 1]⟩ ⟨4, ![B, M, N, 1]⟩ where
  offsetDims := [2]
  collapsedSliceDims := [2]
  operandBatchingDims := [0]
  startIndicesBatchingDims := [0]
  startIndexMap := [2]
  indexVectorDim := 3
  sliceSizes := ![1, N, 1]
  wf := wf

/-- THE BATCHED TAKE READ AT (b, i, j, 0): the operand at (b, j, c), c the start index at (b, i, 0, 0) read signed
    and clamped into [0, C - 1]. -/
theorem gather_batchTake_apply {B M N C w : Nat} (hC : 0 < C)
    (wf : GatherDims.WF ⟨3, ![B, N, C]⟩ ⟨4, ![B, M, 1, 1]⟩ ⟨4, ![B, M, N, 1]⟩ [2] [2] [0] [2] [0] 3 ![1, N, 1])
    (x : (⟨3, ![B, N, C]⟩ : Shape).Idx → α) (idx : IVec ⟨4, ![B, M, 1, 1]⟩ w)
    (b : Fin B) (i : Fin M) (j : Fin N) (z : Fin 1) :
    Host.gather (batchTakeDims B M N C wf) x idx (ix4 b i j z)
      = x (ix3 b j ⟨min (idx (ix4 b i (0 : Fin 1) (0 : Fin 1))).toInt.toNat (C - 1), by omega⟩) := by
  unfold Host.gather
  congr 1
  funext a
  refine Fin.ext ?_
  show (batchTakeDims B M N C wf).start (ix4 b i j z) idx a + (batchTakeDims B M N C wf).batchCoord (ix4 b i j z) a
      + (batchTakeDims B M N C wf).offCoord (ix4 b i j z) a = _
  match a with
  | ⟨0, _⟩ =>
    -- the batching axis: no start, no offset, the result's coordinate on the paired batch axis
    show (batchTakeDims B M N C wf).start (ix4 b i j z) idx (0 : Fin 3) + (batchTakeDims B M N C wf).batchCoord (ix4 b i j z) (0 : Fin 3)
      + (batchTakeDims B M N C wf).offCoord (ix4 b i j z) (0 : Fin 3) = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    -- the window axis: the result's offset coordinate
    show (batchTakeDims B M N C wf).start (ix4 b i j z) idx (1 : Fin 3) + (batchTakeDims B M N C wf).batchCoord (ix4 b i j z) (1 : Fin 3)
      + (batchTakeDims B M N C wf).offCoord (ix4 b i j z) (1 : Fin 3) = j.val
    rw [GatherDims.batchCoord_eq_zero _ _ _ (show (1 : Fin 3) ∉ ([0] : List (Fin 3)) by decide)]
    unfold GatherDims.start
    rw [dif_neg (show (1 : Fin 3) ∉ ([2] : List (Fin 3)) by decide)]
    simp only [Nat.zero_add, Nat.add_zero]
    rfl
  | ⟨2, _⟩ =>
    -- the collapsed axis: the clamped start index
    show (batchTakeDims B M N C wf).start (ix4 b i j z) idx (2 : Fin 3) + (batchTakeDims B M N C wf).batchCoord (ix4 b i j z) (2 : Fin 3)
      + (batchTakeDims B M N C wf).offCoord (ix4 b i j z) (2 : Fin 3) = min (idx (ix4 b i (0 : Fin 1) (0 : Fin 1))).toInt.toNat (C - 1)
    rw [GatherDims.batchCoord_eq_zero _ _ _ (show (2 : Fin 3) ∉ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (batchTakeDims B M N C wf).startIndexMap from List.mem_singleton.mpr rfl)]
    have hsi : (batchTakeDims B M N C wf).siIdx (ix4 b i j z) ⟨List.idxOf (2 : Fin 3) (batchTakeDims B M N C wf).startIndexMap,
        List.idxOf_lt_length_iff.2 (List.mem_singleton.mpr rfl)⟩ = ix4 b i (0 : Fin 1) (0 : Fin 1) := by
      funext c; refine Fin.ext ?_
      match c with
      | ⟨0, _⟩ => rfl
      | ⟨1, _⟩ => rfl
      | ⟨2, _⟩ => exact Nat.lt_one_iff.mp (Fin.isLt _)
      | ⟨3, _⟩ => rfl
    rw [hsi]
    rfl

/-- The same with the clamped start index named: when it is the coordinate `c`, the result is the operand at (b, j, c). -/
theorem gather_batchTake_apply_of_eq {B M N C w : Nat}
    (wf : GatherDims.WF ⟨3, ![B, N, C]⟩ ⟨4, ![B, M, 1, 1]⟩ ⟨4, ![B, M, N, 1]⟩ [2] [2] [0] [2] [0] 3 ![1, N, 1])
    (x : (⟨3, ![B, N, C]⟩ : Shape).Idx → α) (idx : IVec ⟨4, ![B, M, 1, 1]⟩ w)
    (b : Fin B) (i : Fin M) (j : Fin N) (z : Fin 1) (c : Fin C)
    (hc : min (idx (ix4 b i (0 : Fin 1) (0 : Fin 1))).toInt.toNat (C - 1) = c.val) :
    Host.gather (batchTakeDims B M N C wf) x idx (ix4 b i j z) = x (ix3 b j c) := by
  rw [gather_batchTake_apply (Fin.pos c) wf x idx b i j z]
  exact congrArg (fun t => x (ix3 b j t)) (Fin.ext hc)

end Gather

section Reduce
variable {α : Type}

/-- A fold over the one-element index set. -/
theorem fold_fin_one (f : α → α → α) [Std.Commutative f] [Std.Associative f] (e : α) (g : Fin 1 → α) :
    (Finset.univ : Finset (Fin 1)).fold f e g = f (g 0) e := by
  rw [Finset.univ_unique, Finset.fold_singleton]; rfl

/-- A reduction with a commutative and associative body over a trailing axis of extent one, read at (b, i, z): the
    body applied to the one element and the initial value. -/
theorem reduce_unit_last4 {B M : Nat} {u : Shape} (f : α → α → α) [Std.Commutative f] [Std.Associative f]
    (x : (⟨4, ![B, M, 1, 1]⟩ : Shape).Idx → α) (init : u.Idx → α)
    (h' : (⟨4, ![B, M, 1, 1]⟩ : Shape).ReducesTo [3] ⟨3, ![B, M, 1]⟩) (hu : 0 < u.numel)
    (b : Fin B) (i : Fin M) (z : Fin 1) :
    Host.reduce f x init h' hu (ix3 b i z) = f (x (ix4 b i (0 : Fin 1) (0 : Fin 1))) (init (Shape.Idx.first hu)) := by
  have h : (⟨4, ![B, M, 1, 1]⟩ : Shape).Reduces [3] ⟨3, ![B, M, 1]⟩ := ⟨h'.1, Nat.succ_pos 2, h'.2⟩
  rw [Host.reduce_eq_fold_single f x init h' h hu]
  refine (fold_fin_one f (init (Shape.Idx.first hu)) (fun k => x (h.lift (ix3 b i z) k))).trans ?_
  refine congrArg (fun t => f (x t) (init (Shape.Idx.first hu))) (funext fun c => Fin.ext ?_)
  match c with
  | ⟨0, _⟩ => rfl
  | ⟨1, _⟩ => rfl
  | ⟨2, _⟩ => exact Nat.lt_one_iff.mp z.isLt
  | ⟨3, _⟩ => rfl

/-- A maximum-reduction of extended reals over the last axis of a rank-3 array, read at (b, j): the fold of max,
    from the initial value, over that axis. -/
theorem reduce_max_last3 {B N C : Nat} {u : Shape} {φ : FTy} (x : FVec Ideal ⟨3, ![B, N, C]⟩ φ) (init : FVec Ideal u φ)
    (h' : (⟨3, ![B, N, C]⟩ : Shape).ReducesTo [2] ⟨2, ![B, N]⟩) (hu : 0 < u.numel) (b : Fin B) (j : Fin N) :
    Host.reduce (FloatOps.maximumf (F := Ideal) (φ := φ)) x init h' hu (ix2 b j)
      = (Finset.univ : Finset (Fin C)).fold max (init (Shape.Idx.first hu)) (fun k => x (ix3 b j k)) := by
  have h : (⟨3, ![B, N, C]⟩ : Shape).Reduces [2] ⟨2, ![B, N]⟩ := ⟨h'.1, Nat.succ_pos 1, h'.2⟩
  rw [Host.reduce_eq_fold_single _ x init h' h hu]
  show (Finset.univ : Finset (Fin C)).fold max (init (Shape.Idx.first hu)) (fun k => x (h.lift (ix2 b j) k)) = _
  refine congrArg (fun g => (Finset.univ : Finset (Fin C)).fold max (init (Shape.Idx.first hu)) g) (funext fun k => ?_)
  refine congrArg x (funext fun c => Fin.ext ?_)
  match c with
  | ⟨0, _⟩ => rfl
  | ⟨1, _⟩ => rfl
  | ⟨2, _⟩ => rfl

/-- A minimum-reduction of extended reals over the last axis of a rank-3 array, read at (b, i): the fold of min, from
    the initial value, over that axis. -/
theorem reduce_min_last3 {B M N : Nat} {u : Shape} {φ : FTy} (x : FVec Ideal ⟨3, ![B, M, N]⟩ φ) (init : FVec Ideal u φ)
    (h' : (⟨3, ![B, M, N]⟩ : Shape).ReducesTo [2] ⟨2, ![B, M]⟩) (hu : 0 < u.numel) (b : Fin B) (i : Fin M) :
    Host.reduce (FloatOps.minimumf (F := Ideal) (φ := φ)) x init h' hu (ix2 b i)
      = (Finset.univ : Finset (Fin N)).fold min (init (Shape.Idx.first hu)) (fun j => x (ix3 b i j)) := by
  have h : (⟨3, ![B, M, N]⟩ : Shape).Reduces [2] ⟨2, ![B, M]⟩ := ⟨h'.1, Nat.succ_pos 1, h'.2⟩
  rw [Host.reduce_eq_fold_single _ x init h' h hu]
  show (Finset.univ : Finset (Fin N)).fold min (init (Shape.Idx.first hu)) (fun j => x (h.lift (ix2 b i) j)) = _
  refine congrArg (fun g => (Finset.univ : Finset (Fin N)).fold min (init (Shape.Idx.first hu)) g) (funext fun j => ?_)
  refine congrArg x (funext fun c => Fin.ext ?_)
  match c with
  | ⟨0, _⟩ => rfl
  | ⟨1, _⟩ => rfl
  | ⟨2, _⟩ => rfl

/-- A minimum-reduction of extended reals over the MIDDLE axis of a rank-3 array, read at (b, j): the fold of min,
    from the initial value, over that axis. -/
theorem reduce_min_mid3 {B M N : Nat} {u : Shape} {φ : FTy} (x : FVec Ideal ⟨3, ![B, M, N]⟩ φ) (init : FVec Ideal u φ)
    (h' : (⟨3, ![B, M, N]⟩ : Shape).ReducesTo [1] ⟨2, ![B, N]⟩) (hu : 0 < u.numel) (b : Fin B) (j : Fin N) :
    Host.reduce (FloatOps.minimumf (F := Ideal) (φ := φ)) x init h' hu (ix2 b j)
      = (Finset.univ : Finset (Fin M)).fold min (init (Shape.Idx.first hu)) (fun i => x (ix3 b i j)) := by
  have h : (⟨3, ![B, M, N]⟩ : Shape).Reduces [1] ⟨2, ![B, N]⟩ := ⟨h'.1, Nat.succ_pos 1, h'.2⟩
  rw [Host.reduce_eq_fold_single _ x init h' h hu]
  show (Finset.univ : Finset (Fin M)).fold min (init (Shape.Idx.first hu)) (fun i => x (h.lift (ix2 b j) i)) = _
  refine congrArg (fun g => (Finset.univ : Finset (Fin M)).fold min (init (Shape.Idx.first hu)) g) (funext fun i => ?_)
  refine congrArg x (funext fun c => Fin.ext ?_)
  match c with
  | ⟨0, _⟩ => rfl
  | ⟨1, _⟩ => rfl
  | ⟨2, _⟩ => rfl

end Reduce

end Cert.LibBatchGather

end
-- ==== Proof.RefPair.lean ====
/-
  The reference's pair-loss array, read at (b, i, j), is the specification's pair loss of particle i and node j of
  event b.

  The class term: the log-softmax of node j's logits (the greatest logit is the fold of max over the classes, once
  more against -inf; the shifted exponentials are summed from zero) is taken along the label of particle i. The
  label's word is in range, so the wrap of a negative index leaves it, the range test holds, the clamp leaves it, and
  the gather reads node j's log-softmax at the label; the select against the not-a-number splat keeps it. The charge
  term likewise. The two distances are the square roots of the sums, from zero, of the three squared coordinate
  differences; the energy term is the squared difference.
-/
import proofs.«414995_j25194278158453_3_alg».proof.Proof.RefRead
import proofs.«414995_j25194278158453_3_alg».proof.Proof.Spec
import proofs.«414995_j25194278158453_3_alg».proof.Proof.LibBatchGather

noncomputable section

namespace Cert.ReferenceIdeal.RefPair

open Cert.ReferenceIdeal Cert.ReferenceIdeal.ReadP Cert.ReferenceIdeal.Gen Idealize.ShloMosaic Idealize.ShloMosaic.ValueIdx
open scoped BigOperators

/-! ## The log-softmax of the class logits, and its take along the label -/

section Class

theorem wrap5 (k : Fin 5) : Scalar.select (IntOp.cmpi .slt (BitVec.ofNat 32 k.val) 0#32)
    (IntOp.addi (BitVec.ofNat 32 k.val) 5#32) (BitVec.ofNat 32 k.val) = BitVec.ofNat 32 k.val := by
  revert k; decide

theorem range5 (k : Fin 5) : IntOp.andi (IntOp.andi (IntOp.cmpi .sge (BitVec.ofNat 32 k.val) 0#32)
    (IntOp.cmpi .sle (BitVec.ofNat 32 k.val) 4#32)) 1#1 = 1#1 := by
  revert k; decide

theorem clamp5 (k : Fin 5) : min (BitVec.ofNat 32 k.val).toInt.toNat (5 - 1) = k.val := by
  revert k; decide

theorem idx_top5 (b : Fin 128) (j : Fin 256) (c : Fin 5) :
    idx_main_call0_v3 (idx_main_call0_v4 (ix3 b j c)) = ix2 b j := by
  funext a; match a with | ⟨0, _⟩ => rfl | ⟨1, _⟩ => rfl

theorem idx_lse5 (b : Fin 128) (j : Fin 256) (c : Fin 5) :
    idx_main_call0_v8 (idx_main_call0_v10 (ix3 b j c)) = ix2 b j := by
  funext a; match a with | ⟨0, _⟩ => rfl | ⟨1, _⟩ => rfl

theorem idx_sum5 (b : Fin 128) (j : Fin 256) (k : Fin 5) :
    idx_main_call0_v7 (ix2 b j) k = ix3 b j k := by
  funext a; match a with | ⟨0, _⟩ => rfl | ⟨1, _⟩ => rfl | ⟨2, _⟩ => rfl

/-- The greatest logit of node j, as the reference takes it. -/
theorem top5 (x3 : (⟨S128x256x5, .f32⟩ : BufTy).Contents (Elt Ideal)) (b : Fin 128) (j : Fin 256) :
    val_main_call0_v2 (F := Ideal) x3 (ix2 b j) = Cert.Spec.top (fun k : Fin 5 => x3 (ix3 b j k)) := by
  rw [val_main_call0_v2_apply, val_main_call0_v1_apply, val_main_call0_cst_0_apply]
  unfold val_main_call0_v0
  rw [Cert.LibBatchGather.reduce_max_last3 x3 (val_main_call0_cst (F := Ideal)) reducesTo_S128x256x5_S128x256_d2 h_S_ b j,
    val_main_call0_cst_apply]
  rfl

theorem shift5 (x3 : (⟨S128x256x5, .f32⟩ : BufTy).Contents (Elt Ideal)) (b : Fin 128) (j : Fin 256) (c : Fin 5) :
    val_main_call0_v5 (F := Ideal) x3 (ix3 b j c)
      = x3 (ix3 b j c) - Cert.Spec.top (fun k : Fin 5 => x3 (ix3 b j k)) := by
  rw [val_main_call0_v5_apply, val_main_call0_v4_apply, val_main_call0_v3_apply, idx_top5, top5]
  rfl

theorem lse5 (x3 : (⟨S128x256x5, .f32⟩ : BufTy).Contents (Elt Ideal)) (b : Fin 128) (j : Fin 256) (c : Fin 5) :
    val_main_call0_v10 (F := Ideal) x3 (ix3 b j c)
      = Ideal.log (∑ k : Fin 5, Ideal.exp (x3 (ix3 b j k) - Cert.Spec.top (fun k : Fin 5 => x3 (ix3 b j k)))) := by
  rw [val_main_call0_v10_apply, val_main_call0_v9_apply, val_main_call0_v8_apply, idx_lse5, val_main_call0_v7_apply,
    val_main_call0_cst_1_apply]
  simp only [idx_sum5, val_main_call0_v6_apply, shift5, Ideal.hostUnary_exp_def, Ideal.hostUnary_log_def,
    Ideal.ofBits_def, Ideal.ofBits_zero_f32, zero_add]

/-- The reference's log-softmax of node j's class logits at class c. -/
theorem lsm5 (x3 : (⟨S128x256x5, .f32⟩ : BufTy).Contents (Elt Ideal)) (b : Fin 128) (j : Fin 256) (c : Fin 5) :
    val_main_v0 (F := Ideal) x3 (ix3 b j c) = Cert.Spec.lsm (fun k : Fin 5 => x3 (ix3 b j k)) c := by
  rw [val_main_v0_apply, shift5, lse5]
  rfl

theorem idx_lab5 (b : Fin 128) (i : Fin 256) (z w : Fin 1) : idx_main_v1 (ix4 b i z w) = ix2 b i := by
  funext a; match a with | ⟨0, _⟩ => rfl | ⟨1, _⟩ => rfl

/-- The wrapped start index of particle i is its label's word: a label in range is not negative. -/
theorem word5 (x0 : (⟨S128x256, .i32⟩ : BufTy).Contents (Elt Ideal)) (lab : Fin 128 → Fin 256 → Fin 5)
    (hlab : ∀ b i, x0 (ix2 b i) = BitVec.ofNat 32 (lab b i).val) (b : Fin 128) (i : Fin 256) :
    val_main_call1_v4 (F := Ideal) x0 (ix4 b i (0 : Fin 1) (0 : Fin 1)) = BitVec.ofNat 32 (lab b i).val := by
  rw [val_main_call1_v4_apply, val_main_call1_v1_apply, val_main_call1_v3_apply, val_main_v1_apply, val_main_call1_v0_apply,
    val_main_call1_c_apply, val_main_call1_v2_apply, val_main_call1_c_0_apply, idx_lab5, hlab]
  exact wrap5 _

/-- The range test of the take holds at every particle. -/
theorem ok5 (x0 : (⟨S128x256, .i32⟩ : BufTy).Contents (Elt Ideal)) (lab : Fin 128 → Fin 256 → Fin 5)
    (hlab : ∀ b i, x0 (ix2 b i) = BitVec.ofNat 32 (lab b i).val) (b : Fin 128) (i : Fin 256) (z : Fin 1) :
    val_main_call1_v12 (F := Ideal) x0 (ix3 b i z) = 1#1 := by
  unfold val_main_call1_v12
  rw [Cert.LibBatchGather.reduce_unit_last4 IntOp.andi (val_main_call1_v11 (F := Ideal) x0) (val_main_call1_c_3 (F := Ideal))
      reducesTo_S128x256x1x1_S128x256x1_d3 h_S_ b i z,
    val_main_call1_v11_apply, val_main_call1_v7_apply, val_main_call1_v10_apply, word5 x0 lab hlab,
    val_main_call1_v6_apply, val_main_call1_c_2_apply, val_main_call1_v9_apply, val_main_call1_v8_apply, val_main_call1_c_1_apply,
    val_main_call1_c_3_apply]
  exact range5 _

theorem idx_row5 (b : Fin 128) (j : Fin 256) (c : Fin 5) :
    idx_main_v2 (idx_main_call1_v5 (ix3 b j c)) = ix3 b j c := by
  funext a; refine Fin.ext ?_
  have hb := b.isLt; have hj := j.isLt; have hc := c.isLt
  match a with
  | ⟨0, _⟩ => show ((b.val * 256 + j.val) * 5 + c.val) / 1280 = b.val; omega
  | ⟨1, _⟩ => show ((b.val * 256 + j.val) * 5 + c.val) / 5 % 256 = j.val; omega
  | ⟨2, _⟩ => show ((b.val * 256 + j.val) * 5 + c.val) % 5 = c.val; omega

/-- The gather of the take at (b, i, j): node j's log-softmax at particle i's label. -/
theorem gath5 (x0 : (⟨S128x256, .i32⟩ : BufTy).Contents (Elt Ideal)) (x3 : (⟨S128x256x5, .f32⟩ : BufTy).Contents (Elt Ideal))
    (lab : Fin 128 → Fin 256 → Fin 5) (hlab : ∀ b i, x0 (ix2 b i) = BitVec.ofNat 32 (lab b i).val)
    (b : Fin 128) (i j : Fin 256) (z : Fin 1) :
    val_main_call1_v13 (F := Ideal) x0 x3 (ix4 b i j z) = val_main_v0 (F := Ideal) x3 (ix3 b j (lab b i)) := by
  unfold val_main_call1_v13
  refine (Cert.LibBatchGather.gather_batchTake_apply_of_eq gather_S128x256x5_S128x256x1x1_S128x256x256x1_2_2_0_0_2_3_12561_wf
    (val_main_call1_v5 (F := Ideal) x3) (val_main_call1_v4 (F := Ideal) x0) b i j z (lab b i) ?_).trans ?_
  · rw [word5 x0 lab hlab]; exact clamp5 _
  · rw [val_main_call1_v5_apply, val_main_v2_apply, idx_row5]

theorem idx_ok5 (b : Fin 128) (i j : Fin 256) (z : Fin 1) : idx_main_call1_v14 (ix4 b i j z) = ix3 b i (0 : Fin 1) := by
  funext a; match a with | ⟨0, _⟩ => rfl | ⟨1, _⟩ => rfl | ⟨2, _⟩ => rfl

theorem idx_flat5 (b : Fin 128) (i j : Fin 256) : idx_main_v4 (ix3 b i j) = ix4 b i j (0 : Fin 1) := by
  funext a; refine Fin.ext ?_
  have hb := b.isLt; have hi := i.isLt; have hj := j.isLt
  match a with
  | ⟨0, _⟩ => show ((b.val * 256 + i.val) * 256 + j.val) / 65536 = b.val; omega
  | ⟨1, _⟩ => show ((b.val * 256 + i.val) * 256 + j.val) / 256 % 256 = i.val; omega
  | ⟨2, _⟩ => show ((b.val * 256 + i.val) * 256 + j.val) / 1 % 256 = j.val; omega
  | ⟨3, _⟩ => rfl

/-- The class term of the pair (i, j): the negated log-softmax of node j's logits at particle i's label. -/
theorem class_eq (x0 : (⟨S128x256, .i32⟩ : BufTy).Contents (Elt Ideal)) (x3 : (⟨S128x256x5, .f32⟩ : BufTy).Contents (Elt Ideal))
    (lab : Fin 128 → Fin 256 → Fin 5) (hlab : ∀ b i, x0 (ix2 b i) = BitVec.ofNat 32 (lab b i).val)
    (b : Fin 128) (i j : Fin 256) :
    val_main_v5 (F := Ideal) x0 x3 (ix3 b i j) = -(Cert.Spec.lsm (fun k : Fin 5 => x3 (ix3 b j k)) (lab b i)) := by
  rw [val_main_v5_apply, val_main_v4_apply, idx_flat5, val_main_v3_apply, val_main_call1_v14_apply, idx_ok5,
    ok5 x0 lab hlab, select_one, gath5 x0 x3 lab hlab, lsm5]
  rfl

end Class

/-! ## The log-softmax of the charge logits, and its take along the label -/

section Charge

theorem wrap3 (k : Fin 3) : Scalar.select (IntOp.cmpi .slt (BitVec.ofNat 32 k.val) 0#32)
    (IntOp.addi (BitVec.ofNat 32 k.val) 3#32) (BitVec.ofNat 32 k.val) = BitVec.ofNat 32 k.val := by
  revert k; decide

theorem range3 (k : Fin 3) : IntOp.andi (IntOp.andi (IntOp.cmpi .sge (BitVec.ofNat 32 k.val) 0#32)
    (IntOp.cmpi .sle (BitVec.ofNat 32 k.val) 2#32)) 1#1 = 1#1 := by
  revert k; decide

theorem clamp3 (k : Fin 3) : min (BitVec.ofNat 32 k.val).toInt.toNat (3 - 1) = k.val := by
  revert k; decide

theorem idx_top3 (b : Fin 128) (j : Fin 256) (c : Fin 3) :
    idx_main_call2_v3 (idx_main_call2_v4 (ix3 b j c)) = ix2 b j := by
  funext a; match a with | ⟨0, _⟩ => rfl | ⟨1, _⟩ => rfl

theorem idx_lse3 (b : Fin 128) (j : Fin 256) (c : Fin 3) :
    idx_main_call2_v8 (idx_main_call2_v10 (ix3 b j c)) = ix2 b j := by
  funext a; match a with | ⟨0, _⟩ => rfl | ⟨1, _⟩ => rfl

theorem idx_sum3 (b : Fin 128) (j : Fin 256) (k : Fin 3) :
    idx_main_call2_v7 (ix2 b j) k = ix3 b j k := by
  funext a; match a with | ⟨0, _⟩ => rfl | ⟨1, _⟩ => rfl | ⟨2, _⟩ => rfl

/-- The greatest logit of node j, as the reference takes it. -/
theorem top3 (x4 : (⟨S128x256x3, .f32⟩ : BufTy).Contents (Elt Ideal)) (b : Fin 128) (j : Fin 256) :
    val_main_call2_v2 (F := Ideal) x4 (ix2 b j) = Cert.Spec.top (fun k : Fin 3 => x4 (ix3 b j k)) := by
  rw [val_main_call2_v2_apply, val_main_call2_v1_apply, val_main_call2_cst_0_apply]
  unfold val_main_call2_v0
  rw [Cert.LibBatchGather.reduce_max_last3 x4 (val_main_call2_cst (F := Ideal)) reducesTo_S128x256x3_S128x256_d2 h_S_ b j,
    val_main_call2_cst_apply]
  rfl

theorem shift3 (x4 : (⟨S128x256x3, .f32⟩ : BufTy).Contents (Elt Ideal)) (b : Fin 128) (j : Fin 256) (c : Fin 3) :
    val_main_call2_v5 (F := Ideal) x4 (ix3 b j c)
      = x4 (ix3 b j c) - Cert.Spec.top (fun k : Fin 3 => x4 (ix3 b j k)) := by
  rw [val_main_call2_v5_apply, val_main_call2_v4_apply, val_main_call2_v3_apply, idx_top3, top3]
  rfl

theorem lse3 (x4 : (⟨S128x256x3, .f32⟩ : BufTy).Contents (Elt Ideal)) (b : Fin 128) (j : Fin 256) (c : Fin 3) :
    val_main_call2_v10 (F := Ideal) x4 (ix3 b j c)
      = Ideal.log (∑ k : Fin 3, Ideal.exp (x4 (ix3 b j k) - Cert.Spec.top (fun k : Fin 3 => x4 (ix3 b j k)))) := by
  rw [val_main_call2_v10_apply, val_main_call2_v9_apply, val_main_call2_v8_apply, idx_lse3, val_main_call2_v7_apply,
    val_main_call2_cst_1_apply]
  simp only [idx_sum3, val_main_call2_v6_apply, shift3, Ideal.hostUnary_exp_def, Ideal.hostUnary_log_def,
    Ideal.ofBits_def, Ideal.ofBits_zero_f32, zero_add]

/-- The reference's log-softmax of node j's charge logits at charge c. -/
theorem lsm3 (x4 : (⟨S128x256x3, .f32⟩ : BufTy).Contents (Elt Ideal)) (b : Fin 128) (j : Fin 256) (c : Fin 3) :
    val_main_v6 (F := Ideal) x4 (ix3 b j c) = Cert.Spec.lsm (fun k : Fin 3 => x4 (ix3 b j k)) c := by
  rw [val_main_v6_apply, shift3, lse3]
  rfl

theorem idx_lab3 (b : Fin 128) (i : Fin 256) (z w : Fin 1) : idx_main_v7 (ix4 b i z w) = ix2 b i := by
  funext a; match a with | ⟨0, _⟩ => rfl | ⟨1, _⟩ => rfl

/-- The wrapped start index of particle i is its label's word: a label in range is not negative. -/
theorem word3 (x1 : (⟨S128x256, .i32⟩ : BufTy).Contents (Elt Ideal)) (chg : Fin 128 → Fin 256 → Fin 3)
    (hchg : ∀ b i, x1 (ix2 b i) = BitVec.ofNat 32 (chg b i).val) (b : Fin 128) (i : Fin 256) :
    val_main_call3_v4 (F := Ideal) x1 (ix4 b i (0 : Fin 1) (0 : Fin 1)) = BitVec.ofNat 32 (chg b i).val := by
  rw [val_main_call3_v4_apply, val_main_call3_v1_apply, val_main_call3_v3_apply, val_main_v7_apply, val_main_call3_v0_apply,
    val_main_call3_c_apply, val_main_call3_v2_apply, val_main_call3_c_0_apply, idx_lab3, hchg]
  exact wrap3 _

/-- The range test of the take holds at every particle. -/
theorem ok3 (x1 : (⟨S128x256, .i32⟩ : BufTy).Contents (Elt Ideal)) (chg : Fin 128 → Fin 256 → Fin 3)
    (hchg : ∀ b i, x1 (ix2 b i) = BitVec.ofNat 32 (chg b i).val) (b : Fin 128) (i : Fin 256) (z : Fin 1) :
    val_main_call3_v12 (F := Ideal) x1 (ix3 b i z) = 1#1 := by
  unfold val_main_call3_v12
  rw [Cert.LibBatchGather.reduce_unit_last4 IntOp.andi (val_main_call3_v11 (F := Ideal) x1) (val_main_call3_c_3 (F := Ideal))
      reducesTo_S128x256x1x1_S128x256x1_d3 h_S_ b i z,
    val_main_call3_v11_apply, val_main_call3_v7_apply, val_main_call3_v10_apply, word3 x1 chg hchg,
    val_main_call3_v6_apply, val_main_call3_c_2_apply, val_main_call3_v9_apply, val_main_call3_v8_apply, val_main_call3_c_1_apply,
    val_main_call3_c_3_apply]
  exact range3 _

theorem idx_row3 (b : Fin 128) (j : Fin 256) (c : Fin 3) :
    idx_main_v8 (idx_main_call3_v5 (ix3 b j c)) = ix3 b j c := by
  funext a; refine Fin.ext ?_
  have hb := b.isLt; have hj := j.isLt; have hc := c.isLt
  match a with
  | ⟨0, _⟩ => show ((b.val * 256 + j.val) * 3 + c.val) / 768 = b.val; omega
  | ⟨1, _⟩ => show ((b.val * 256 + j.val) * 3 + c.val) / 3 % 256 = j.val; omega
  | ⟨2, _⟩ => show ((b.val * 256 + j.val) * 3 + c.val) % 3 = c.val; omega

/-- The gather of the take at (b, i, j): node j's log-softmax at particle i's label. -/
theorem gath3 (x1 : (⟨S128x256, .i32⟩ : BufTy).Contents (Elt Ideal)) (x4 : (⟨S128x256x3, .f32⟩ : BufTy).Contents (Elt Ideal))
    (chg : Fin 128 → Fin 256 → Fin 3) (hchg : ∀ b i, x1 (ix2 b i) = BitVec.ofNat 32 (chg b i).val)
    (b : Fin 128) (i j : Fin 256) (z : Fin 1) :
    val_main_call3_v13 (F := Ideal) x1 x4 (ix4 b i j z) = val_main_v6 (F := Ideal) x4 (ix3 b j (chg b i)) := by
  unfold val_main_call3_v13
  refine (Cert.LibBatchGather.gather_batchTake_apply_of_eq gather_S128x256x3_S128x256x1x1_S128x256x256x1_2_2_0_0_2_3_12561_wf
    (val_main_call3_v5 (F := Ideal) x4) (val_main_call3_v4 (F := Ideal) x1) b i j z (chg b i) ?_).trans ?_
  · rw [word3 x1 chg hchg]; exact clamp3 _
  · rw [val_main_call3_v5_apply, val_main_v8_apply, idx_row3]

theorem idx_ok3 (b : Fin 128) (i j : Fin 256) (z : Fin 1) : idx_main_call3_v14 (ix4 b i j z) = ix3 b i (0 : Fin 1) := by
  funext a; match a with | ⟨0, _⟩ => rfl | ⟨1, _⟩ => rfl | ⟨2, _⟩ => rfl

theorem idx_flat3 (b : Fin 128) (i j : Fin 256) : idx_main_v10 (ix3 b i j) = ix4 b i j (0 : Fin 1) := by
  funext a; refine Fin.ext ?_
  have hb := b.isLt; have hi := i.isLt; have hj := j.isLt
  match a with
  | ⟨0, _⟩ => show ((b.val * 256 + i.val) * 256 + j.val) / 65536 = b.val; omega
  | ⟨1, _⟩ => show ((b.val * 256 + i.val) * 256 + j.val) / 256 % 256 = i.val; omega
  | ⟨2, _⟩ => show ((b.val * 256 + i.val) * 256 + j.val) / 1 % 256 = j.val; omega
  | ⟨3, _⟩ => rfl

/-- The charge term of the pair (i, j): the negated log-softmax of node j's logits at particle i's label. -/
theorem charge_eq (x1 : (⟨S128x256, .i32⟩ : BufTy).Contents (Elt Ideal)) (x4 : (⟨S128x256x3, .f32⟩ : BufTy).Contents (Elt Ideal))
    (chg : Fin 128 → Fin 256 → Fin 3) (hchg : ∀ b i, x1 (ix2 b i) = BitVec.ofNat 32 (chg b i).val)
    (b : Fin 128) (i j : Fin 256) :
    val_main_v11 (F := Ideal) x1 x4 (ix3 b i j) = -(Cert.Spec.lsm (fun k : Fin 3 => x4 (ix3 b j k)) (chg b i)) := by
  rw [val_main_v11_apply, val_main_v10_apply, idx_flat3, val_main_v9_apply, val_main_call3_v14_apply, idx_ok3,
    ok3 x1 chg hchg, select_one, gath3 x1 x4 chg hchg, lsm3]
  rfl

end Charge

/-! ## The two distances -/

theorem idxPP (b : Fin 128) (i j : Fin 256) (k : Fin 3) :
    idx_main_v12 (idx_main_v14 (idx_main_call4_v1 (ix3 b i j) k)) = ix3 b i k := by
  funext a; match a with | ⟨0, _⟩ => rfl | ⟨1, _⟩ => rfl | ⟨2, _⟩ => rfl

theorem idxQP (b : Fin 128) (i j : Fin 256) (k : Fin 3) :
    idx_main_v13 (idx_main_v15 (idx_main_call4_v1 (ix3 b i j) k)) = ix3 b j k := by
  funext a; match a with | ⟨0, _⟩ => rfl | ⟨1, _⟩ => rfl | ⟨2, _⟩ => rfl

/-- The position term of the pair (i, j): the Euclidean distance of the two vectors. -/
theorem pos_eq (x5 x6 : (⟨S128x256x3, .f32⟩ : BufTy).Contents (Elt Ideal)) (b : Fin 128) (i j : Fin 256) :
    val_main_v17 (F := Ideal) x5 x6 (ix3 b i j) = Ideal.sqrt (Cert.Spec.sqDist x5 x6 b i j) := by
  rw [val_main_v17_apply, val_main_call4_v1_apply, val_main_call4_cst_apply]
  simp only [val_main_call4_v0_apply, val_main_v16_apply, val_main_v14_apply, val_main_v12_apply, val_main_v15_apply,
    val_main_v13_apply, idxPP, idxQP, Ideal.hostUnary_sqrt_def, Ideal.mulf_def, Ideal.subf_def, Ideal.ofBits_def,
    Ideal.ofBits_zero_f32, zero_add]
  rfl

theorem idxPM (b : Fin 128) (i j : Fin 256) (k : Fin 3) :
    idx_main_v18 (idx_main_v20 (idx_main_call5_v1 (ix3 b i j) k)) = ix3 b i k := by
  funext a; match a with | ⟨0, _⟩ => rfl | ⟨1, _⟩ => rfl | ⟨2, _⟩ => rfl

theorem idxQM (b : Fin 128) (i j : Fin 256) (k : Fin 3) :
    idx_main_v19 (idx_main_v21 (idx_main_call5_v1 (ix3 b i j) k)) = ix3 b j k := by
  funext a; match a with | ⟨0, _⟩ => rfl | ⟨1, _⟩ => rfl | ⟨2, _⟩ => rfl

/-- The momentum term of the pair (i, j): the Euclidean distance of the two vectors. -/
theorem mom_eq (x7 x8 : (⟨S128x256x3, .f32⟩ : BufTy).Contents (Elt Ideal)) (b : Fin 128) (i j : Fin 256) :
    val_main_v23 (F := Ideal) x7 x8 (ix3 b i j) = Ideal.sqrt (Cert.Spec.sqDist x7 x8 b i j) := by
  rw [val_main_v23_apply, val_main_call5_v1_apply, val_main_call5_cst_apply]
  simp only [val_main_call5_v0_apply, val_main_v22_apply, val_main_v20_apply, val_main_v18_apply, val_main_v21_apply,
    val_main_v19_apply, idxPM, idxQM, Ideal.hostUnary_sqrt_def, Ideal.mulf_def, Ideal.subf_def, Ideal.ofBits_def,
    Ideal.ofBits_zero_f32, zero_add]
  rfl

/-! ## The energy term and the pair loss -/

theorem idxE1 (b : Fin 128) (i j : Fin 256) : idx_main_v24 (idx_main_v26 (ix3 b i j)) = ix2 b i := by
  funext a; match a with | ⟨0, _⟩ => rfl | ⟨1, _⟩ => rfl

theorem idxE2 (b : Fin 128) (i j : Fin 256) : idx_main_v25 (idx_main_v27 (ix3 b i j)) = ix2 b j := by
  funext a; match a with | ⟨0, _⟩ => rfl | ⟨1, _⟩ => rfl

theorem en_eq (x9 x10 : (⟨S128x256, .f32⟩ : BufTy).Contents (Elt Ideal)) (b : Fin 128) (i j : Fin 256) :
    val_main_v29 (F := Ideal) x9 x10 (ix3 b i j)
      = (x9 (ix2 b i) - x10 (ix2 b j)) * (x9 (ix2 b i) - x10 (ix2 b j)) := by
  rw [val_main_v29_apply, val_main_v28_apply, val_main_v26_apply, val_main_v24_apply, val_main_v27_apply, val_main_v25_apply,
    idxE1, idxE2]
  rfl

/-- THE PAIR LOSS: the reference's sum of the five terms at (b, i, j) is the specification's. -/
theorem pair_eq (x0 x1 : (⟨S128x256, .i32⟩ : BufTy).Contents (Elt Ideal)) (x3 : (⟨S128x256x5, .f32⟩ : BufTy).Contents (Elt Ideal))
    (x4 x5 x6 x7 x8 : (⟨S128x256x3, .f32⟩ : BufTy).Contents (Elt Ideal)) (x9 x10 : (⟨S128x256, .f32⟩ : BufTy).Contents (Elt Ideal))
    (lab : Fin 128 → Fin 256 → Fin 5) (chg : Fin 128 → Fin 256 → Fin 3)
    (hlab : ∀ b i, x0 (ix2 b i) = BitVec.ofNat 32 (lab b i).val) (hchg : ∀ b i, x1 (ix2 b i) = BitVec.ofNat 32 (chg b i).val)
    (b : Fin 128) (i j : Fin 256) :
    val_main_v33 (F := Ideal) x0 x1 x3 x4 x5 x6 x7 x8 x9 x10 (ix3 b i j)
      = Cert.Spec.pairLoss lab chg x3 x4 x5 x6 x7 x8 x9 x10 b i j := by
  rw [val_main_v33_apply, val_main_v32_apply, val_main_v31_apply, val_main_v30_apply, class_eq x0 x3 lab hlab,
    charge_eq x1 x4 chg hchg, pos_eq, mom_eq, en_eq]
  rfl

end Cert.ReferenceIdeal.RefPair

end
-- ==== Proof.RefTotal.lean ====
/-
  The reference's result, read as the specification's total.

  After the pair losses L b i j of event b (particle i, node j) the reference takes, for every node j, the least
  loss over the particles and, for every particle i, the least loss over the nodes; each is a fold of `min` from +inf
  along one axis. Summing the second over the particles gives the event's particle sum, summing the first over the
  nodes its flow sum; each is then averaged over the 128 events.

  The set-size term: an event's 300 set-size logits are the means over its 256 nodes of real numbers, so their
  log-softmax is real at every size; the value taken at the event's particle count is one of those entries, or, when
  the count is out of range, a pattern that reads as the least extended real. In neither case is it +inf, and that is
  what lets the negation of the mean be moved inside the sum.
-/
import proofs.«414995_j25194278158453_3_alg».proof.Proof.RefRead
import proofs.«414995_j25194278158453_3_alg».proof.Proof.RefPair
import proofs.«414995_j25194278158453_3_alg».proof.Proof.Alg
import Idealize.ShloMosaic.PureOps.Ideal.Laws
import Idealize.ShloMosaic.Lib.ValueIdx

noncomputable section

namespace Cert.ReferenceIdeal.RefTotal

open Cert.ReferenceIdeal Cert.ReferenceIdeal.Gen Cert.ReferenceIdeal.ReadP Idealize.ShloMosaic Idealize.ShloMosaic.ValueIdx

/-- The least value over the particles: a minimum taken along the middle axis of a [128, 256, 256] array is, at
    (b, j), the fold of `min` from the initial value over the particles i of the entry (b, i, j). -/
theorem min_mid (y : (⟨S128x256x256, .f32⟩ : BufTy).Contents (Elt Ideal)) (init : (⟨S_, .f32⟩ : BufTy).Contents (Elt Ideal))
    (b : Fin 128) (j : Fin 256) :
    Host.reduce (FloatOps.minimumf (F := Ideal) (φ := .f32)) y init reducesTo_S128x256x256_S128x256_d1 h_S_ (ix2 b j)
      = (Finset.univ : Finset (Fin 256)).fold min (init (Shape.Idx.first h_S_)) (fun i => y (ix3 b i j)) := by
  have h : S128x256x256.Reduces [1] S128x256 := by decide
  refine (Host.reduce_eq_fold_single (FloatOps.minimumf (F := Ideal) (φ := .f32)) y init
    reducesTo_S128x256x256_S128x256_d1 h h_S_ (ix2 b j)).trans ?_
  show (Finset.univ : Finset (Fin 256)).fold min (init (Shape.Idx.first h_S_)) (fun k => y (h.lift (ix2 b j) k)) = _
  refine congrArg (fun f => (Finset.univ : Finset (Fin 256)).fold min (init (Shape.Idx.first h_S_)) f) (funext fun k => congrArg y ?_)
  funext a
  apply Fin.ext
  match a with
  | ⟨0, _⟩ => rfl
  | ⟨1, _⟩ => rfl
  | ⟨2, _⟩ => rfl

/-- The least value over the nodes: along the last axis, at (b, i), the fold over the nodes j of the entry (b, i, j). -/
theorem min_last (y : (⟨S128x256x256, .f32⟩ : BufTy).Contents (Elt Ideal)) (init : (⟨S_, .f32⟩ : BufTy).Contents (Elt Ideal))
    (b : Fin 128) (i : Fin 256) :
    Host.reduce (FloatOps.minimumf (F := Ideal) (φ := .f32)) y init reducesTo_S128x256x256_S128x256_d2 h_S_ (ix2 b i)
      = (Finset.univ : Finset (Fin 256)).fold min (init (Shape.Idx.first h_S_)) (fun j => y (ix3 b i j)) := by
  have h : S128x256x256.Reduces [2] S128x256 := by decide
  refine (Host.reduce_eq_fold_single (FloatOps.minimumf (F := Ideal) (φ := .f32)) y init
    reducesTo_S128x256x256_S128x256_d2 h h_S_ (ix2 b i)).trans ?_
  show (Finset.univ : Finset (Fin 256)).fold min (init (Shape.Idx.first h_S_)) (fun k => y (h.lift (ix2 b i) k)) = _
  refine congrArg (fun f => (Finset.univ : Finset (Fin 256)).fold min (init (Shape.Idx.first h_S_)) f) (funext fun k => congrArg y ?_)
  funext a
  apply Fin.ext
  match a with
  | ⟨0, _⟩ => rfl
  | ⟨1, _⟩ => rfl
  | ⟨2, _⟩ => rfl

/-- The greatest of an event's 300 set-size logits: along the last axis of a [128, 300] array, at b, the fold of `max`. -/
theorem max_row (y : (⟨S128x300, .f32⟩ : BufTy).Contents (Elt Ideal)) (init : (⟨S_, .f32⟩ : BufTy).Contents (Elt Ideal))
    (b : Fin 128) :
    Host.reduce (FloatOps.maximumf (F := Ideal) (φ := .f32)) y init reducesTo_S128x300_S128_d1 h_S_ (ix1 b)
      = (Finset.univ : Finset (Fin 300)).fold max (init (Shape.Idx.first h_S_)) (fun s => y (ix2 b s)) := by
  have h : S128x300.Reduces [1] S128 := by decide
  refine (Host.reduce_eq_fold_single (FloatOps.maximumf (F := Ideal) (φ := .f32)) y init
    reducesTo_S128x300_S128_d1 h h_S_ (ix1 b)).trans ?_
  show (Finset.univ : Finset (Fin 300)).fold max (init (Shape.Idx.first h_S_)) (fun k => y (h.lift (ix1 b) k)) = _
  refine congrArg (fun f => (Finset.univ : Finset (Fin 300)).fold max (init (Shape.Idx.first h_S_)) f) (funext fun k => congrArg y ?_)
  funext a
  apply Fin.ext
  match a with
  | ⟨0, _⟩ => rfl
  | ⟨1, _⟩ => rfl

/-- A sum over the indices of a one-axis shape is the sum over the axis's coordinates. -/
theorem sum_idx1 {M : Type*} [AddCommMonoid M] {n : Nat} (f : (⟨1, ![n]⟩ : Shape).Idx → M) :
    ∑ j, f j = ∑ a : Fin n, f (ix1 a) := by
  let e : Fin n ≃ (⟨1, ![n]⟩ : Shape).Idx :=
    { toFun := fun a => ix1 a, invFun := fun j => j 0, left_inv := fun _ => rfl, right_inv := fun j => (eq_ix1 j).symm }
  exact (Equiv.sum_comp e f).symm

section Pair

variable (x0 x1 : (⟨S128x256, .i32⟩ : BufTy).Contents (Elt Ideal)) (x3 : (⟨S128x256x5, .f32⟩ : BufTy).Contents (Elt Ideal))
  (x4 x5 x6 x7 x8 : (⟨S128x256x3, .f32⟩ : BufTy).Contents (Elt Ideal)) (x9 x10 : (⟨S128x256, .f32⟩ : BufTy).Contents (Elt Ideal))
  (lab : Fin 128 → Fin 256 → Fin 5) (chg : Fin 128 → Fin 256 → Fin 3)
  (hlab : ∀ b i, x0 (ix2 b i) = BitVec.ofNat 32 (lab b i).val) (hchg : ∀ b i, x1 (ix2 b i) = BitVec.ofNat 32 (chg b i).val)

include hlab hchg

/-- Particle i's least loss over the nodes of event b. -/
theorem least_over_nodes (b : Fin 128) (i : Fin 256) :
    val_main_v35 (F := Ideal) x0 x1 x3 x4 x5 x6 x7 x8 x9 x10 (ix2 b i)
      = (Finset.univ : Finset (Fin 256)).fold min Cert.Spec.posInf
          (fun j => Cert.Spec.pairLoss lab chg x3 x4 x5 x6 x7 x8 x9 x10 b i j) := by
  unfold val_main_v35
  refine (min_last _ _ b i).trans ?_
  refine congrArg (fun f => (Finset.univ : Finset (Fin 256)).fold min Cert.Spec.posInf f) (funext fun j => ?_)
  exact Cert.ReferenceIdeal.RefPair.pair_eq x0 x1 x3 x4 x5 x6 x7 x8 x9 x10 lab chg hlab hchg b i j

/-- Node j's least loss over the particles of event b. -/
theorem least_over_particles (b : Fin 128) (j : Fin 256) :
    val_main_v34 (F := Ideal) x0 x1 x3 x4 x5 x6 x7 x8 x9 x10 (ix2 b j)
      = (Finset.univ : Finset (Fin 256)).fold min Cert.Spec.posInf
          (fun i => Cert.Spec.pairLoss lab chg x3 x4 x5 x6 x7 x8 x9 x10 b i j) := by
  unfold val_main_v34
  refine (min_mid _ _ b j).trans ?_
  refine congrArg (fun f => (Finset.univ : Finset (Fin 256)).fold min Cert.Spec.posInf f) (funext fun i => ?_)
  exact Cert.ReferenceIdeal.RefPair.pair_eq x0 x1 x3 x4 x5 x6 x7 x8 x9 x10 lab chg hlab hchg b i j

/-- Event b's particle sum. -/
theorem part_event (b : Fin 128) :
    val_main_v36 (F := Ideal) x0 x1 x3 x4 x5 x6 x7 x8 x9 x10 (ix1 b)
      = Cert.Spec.partSum (Cert.Spec.pairLoss lab chg x3 x4 x5 x6 x7 x8 x9 x10 b) := by
  have hidx : ∀ k : Fin 256, idx_main_v36 (ix1 b) k = ix2 b k := fun k =>
    funext fun a => Fin.ext (by match a with | ⟨0, _⟩ => rfl | ⟨1, _⟩ => rfl)
  rw [val_main_v36_apply]
  simp only [hidx, least_over_nodes x0 x1 x3 x4 x5 x6 x7 x8 x9 x10 lab chg hlab hchg]
  show Ideal.ofBits .f32 0x00000000#32 + _ = _
  rw [Ideal.ofBits_zero_f32, zero_add]
  rfl

/-- Event b's flow sum. -/
theorem flow_event (b : Fin 128) :
    val_main_v39 (F := Ideal) x0 x1 x3 x4 x5 x6 x7 x8 x9 x10 (ix1 b)
      = Cert.Spec.flowSum (Cert.Spec.pairLoss lab chg x3 x4 x5 x6 x7 x8 x9 x10 b) := by
  have hidx : ∀ k : Fin 256, idx_main_v39 (ix1 b) k = ix2 b k := fun k =>
    funext fun a => Fin.ext (by match a with | ⟨0, _⟩ => rfl | ⟨1, _⟩ => rfl)
  rw [val_main_v39_apply]
  simp only [hidx, least_over_particles x0 x1 x3 x4 x5 x6 x7 x8 x9 x10 lab chg hlab hchg]
  show Ideal.ofBits .f32 0x00000000#32 + _ = _
  rw [Ideal.ofBits_zero_f32, zero_add]
  rfl

/-- The mean over the events of the particle sums. -/
theorem part_mean :
    val_main_v38 (F := Ideal) x0 x1 x3 x4 x5 x6 x7 x8 x9 x10 ix0
      = Ideal.div (∑ b : Fin 128, Cert.Spec.partSum (Cert.Spec.pairLoss lab chg x3 x4 x5 x6 x7 x8 x9 x10 b)) Cert.Spec.c128 := by
  rw [val_main_v38_apply, val_main_v37_apply, sum_idx1]
  simp only [part_event x0 x1 x3 x4 x5 x6 x7 x8 x9 x10 lab chg hlab hchg]
  show Ideal.div (Ideal.ofBits .f32 0x00000000#32 + _) Cert.Spec.c128 = _
  rw [Ideal.ofBits_zero_f32, zero_add]

/-- The mean over the events of the flow sums. -/
theorem flow_mean :
    val_main_v41 (F := Ideal) x0 x1 x3 x4 x5 x6 x7 x8 x9 x10 ix0
      = Ideal.div (∑ b : Fin 128, Cert.Spec.flowSum (Cert.Spec.pairLoss lab chg x3 x4 x5 x6 x7 x8 x9 x10 b)) Cert.Spec.c128 := by
  rw [val_main_v41_apply, val_main_v40_apply, sum_idx1]
  simp only [flow_event x0 x1 x3 x4 x5 x6 x7 x8 x9 x10 lab chg hlab hchg]
  show Ideal.div (Ideal.ofBits .f32 0x00000000#32 + _) Cert.Spec.c128 = _
  rw [Ideal.ofBits_zero_f32, zero_add]

end Pair

section SetSize

variable (x2 : (⟨S128, .i32⟩ : BufTy).Contents (Elt Ideal)) (x11 : (⟨S128x256x300, .f32⟩ : BufTy).Contents (Elt Ideal))

/-- Event b's mean set-size logit at size s: the row sum over the nodes, divided by 256. -/
theorem mean_logit (b : Fin 128) (s : Fin 300) :
    val_main_v44 (F := Ideal) x11 (ix2 b s) = Ideal.div (Cert.Spec.setRow x11 b s) Cert.Spec.c256 := by
  have hidx : ∀ k : Fin 256, idx_main_v42 (ix2 b s) k = ix3 b k s := fun k =>
    funext fun a => Fin.ext (by match a with | ⟨0, _⟩ => rfl | ⟨1, _⟩ => rfl | ⟨2, _⟩ => rfl)
  rw [val_main_v44_apply, val_main_v42_apply, val_main_v43_apply]
  simp only [hidx]
  show Ideal.div (Ideal.ofBits .f32 0x00000000#32 + _) Cert.Spec.c256 = _
  rw [Ideal.ofBits_zero_f32, zero_add]
  rfl

/-- The shift of event b's log-softmax: the greatest of its 300 mean logits, folded from -inf and taken once more
    against -inf. -/
theorem shift_eq (b : Fin 128) :
    val_main_call6_v2 (F := Ideal) x11 (ix1 b)
      = Cert.Spec.top (fun s : Fin 300 => Ideal.div (Cert.Spec.setRow x11 b s) Cert.Spec.c256) := by
  rw [val_main_call6_v2_apply, val_main_call6_v1_apply]
  unfold val_main_call6_v0
  rw [max_row]
  simp only [mean_logit]
  rfl

/-- A shifted mean logit. -/
theorem shifted_eq (b : Fin 128) (s : Fin 300) :
    val_main_call6_v5 (F := Ideal) x11 (ix2 b s)
      = Ideal.div (Cert.Spec.setRow x11 b s) Cert.Spec.c256
        - Cert.Spec.top (fun s : Fin 300 => Ideal.div (Cert.Spec.setRow x11 b s) Cert.Spec.c256) := by
  have hidx : idx_main_call6_v3 (idx_main_call6_v4 (ix2 b s)) = ix1 b :=
    funext fun a => Fin.ext (by match a with | ⟨0, _⟩ => rfl)
  rw [val_main_call6_v5_apply, val_main_call6_v4_apply, val_main_call6_v3_apply, hidx, shift_eq, mean_logit]
  rfl

/-- The logarithm of the sum of the shifted exponentials of event b. -/
theorem logsum_eq (b : Fin 128) (s : Fin 300) :
    val_main_call6_v10 (F := Ideal) x11 (ix2 b s)
      = Ideal.log (∑ k : Fin 300, Ideal.exp (Ideal.div (Cert.Spec.setRow x11 b k) Cert.Spec.c256
          - Cert.Spec.top (fun s : Fin 300 => Ideal.div (Cert.Spec.setRow x11 b s) Cert.Spec.c256))) := by
  have hidx : idx_main_call6_v8 (idx_main_call6_v10 (ix2 b s)) = ix1 b :=
    funext fun a => Fin.ext (by match a with | ⟨0, _⟩ => rfl)
  have hidx7 : ∀ k : Fin 300, idx_main_call6_v7 (ix1 b) k = ix2 b k := fun k =>
    funext fun a => Fin.ext (by match a with | ⟨0, _⟩ => rfl | ⟨1, _⟩ => rfl)
  rw [val_main_call6_v10_apply, val_main_call6_v9_apply, val_main_call6_v8_apply, hidx, val_main_call6_v7_apply]
  simp only [hidx7, val_main_call6_v6_apply, shifted_eq]
  show Ideal.log (Ideal.ofBits .f32 0x00000000#32 + _) = _
  rw [Ideal.ofBits_zero_f32, zero_add]
  rfl

/-- The log-softmax of event b's mean logits, at size s. -/
theorem logsoftmax_eq (b : Fin 128) (s : Fin 300) :
    val_main_v45 (F := Ideal) x11 (ix2 b s)
      = Cert.Spec.lsm (fun s : Fin 300 => Ideal.div (Cert.Spec.setRow x11 b s) Cert.Spec.c256) s := by
  rw [val_main_v45_apply, shifted_eq, logsum_eq]
  rfl

/-- Over real set-size logits every entry of that log-softmax is real. -/
theorem logsoftmax_real (hfin : ∀ i, ∃ r : ℝ, x11 i = (r : EReal)) (i : S128x300.Idx) :
    ∃ r : ℝ, val_main_v45 (F := Ideal) x11 i = (r : EReal) := by
  obtain ⟨b, s, rfl⟩ : ∃ (b : Fin 128) (s : Fin 300), i = ix2 b s := ⟨i 0, i 1, eq_ix2 i⟩
  rw [logsoftmax_eq]
  refine Cert.Alg.lsm_real (by decide) _ (fun k => ?_) s
  exact Cert.Alg.div_c256_real _ (Cert.Alg.sum_real _ fun n => hfin _)

/-- The quiet-NaN pattern reads as the least extended real. -/
theorem nan_pattern : Ideal.ofBits .f32 0x7FC00000#32 = (⊥ : EReal) := by
  simp [Ideal.ofBits, Ideal.ieee]

/-- The log-likelihood taken at event b's particle count is never +inf: it is an entry of the real log-softmax, or
    (out of range) the pattern that reads as the least value. -/
theorem taken_ne_top (hfin : ∀ i, ∃ r : ℝ, x11 i = (r : EReal)) (b : Fin 128) :
    val_main_v48 (F := Ideal) x2 x11 (ix1 b) ≠ ⊤ := by
  rw [val_main_v48_apply, val_main_v47_apply]
  generalize idx_main_v48 (ix1 b) = i'
  generalize val_main_call7_v12 (F := Ideal) x2 i' = c
  rcases BitVec.eq_zero_or_eq_one c with h | h
  · subst h
    rw [select_zero, val_main_call7_v14_apply, val_main_call7_cst_apply]
    show Ideal.ofBits .f32 0x7FC00000#32 ≠ ⊤
    rw [nan_pattern]
    exact bot_ne_top
  · subst h
    rw [select_one]
    unfold val_main_call7_v13 Host.gather
    obtain ⟨r, hr⟩ := logsoftmax_real x11 hfin
      (gather_S128x300_S128x1x1_S128x1_n_1_0_0_1_2_11.operandIdx i' (val_main_call7_v5 (F := Ideal) x2))
    rw [hr]
    exact EReal.coe_ne_top r

/-- The reference's set-size term is the specification's. -/
theorem set_term (hfin : ∀ i, ∃ r : ℝ, x11 i = (r : EReal)) :
    val_main_v51 (F := Ideal) x2 x11 ix0
      = Cert.Spec.setTerm fun b => val_main_v48 (F := Ideal) x2 x11 (ix1 b) := by
  rw [val_main_v51_apply, val_main_v50_apply, val_main_v49_apply, sum_idx1]
  exact Cert.Alg.setTerm_of_ref (fun b => val_main_v48 (F := Ideal) x2 x11 (ix1 b)) (taken_ne_top x2 x11 hfin)

end SetSize

/-- The reference's result is the mean particle sum plus the mean flow sum plus the set-size term. -/
theorem total_eq (x0 x1 : (⟨S128x256, .i32⟩ : BufTy).Contents (Elt Ideal)) (x2 : (⟨S128, .i32⟩ : BufTy).Contents (Elt Ideal))
    (x3 : (⟨S128x256x5, .f32⟩ : BufTy).Contents (Elt Ideal)) (x4 x5 x6 x7 x8 : (⟨S128x256x3, .f32⟩ : BufTy).Contents (Elt Ideal))
    (x9 x10 : (⟨S128x256, .f32⟩ : BufTy).Contents (Elt Ideal)) (x11 : (⟨S128x256x300, .f32⟩ : BufTy).Contents (Elt Ideal))
    (lab : Fin 128 → Fin 256 → Fin 5) (chg : Fin 128 → Fin 256 → Fin 3)
    (hlab : ∀ b i, x0 (ix2 b i) = BitVec.ofNat 32 (lab b i).val) (hchg : ∀ b i, x1 (ix2 b i) = BitVec.ofNat 32 (chg b i).val)
    (hfin : ∀ i, ∃ r : ℝ, x11 i = (r : EReal)) :
    val_main_v53 (F := Ideal) x0 x1 x2 x3 x4 x5 x6 x7 x8 x9 x10 x11 ix0
      = Cert.Spec.total (fun b => Cert.Spec.partSum (Cert.Spec.pairLoss lab chg x3 x4 x5 x6 x7 x8 x9 x10 b))
                         (fun b => Cert.Spec.flowSum (Cert.Spec.pairLoss lab chg x3 x4 x5 x6 x7 x8 x9 x10 b))
                         (Cert.Spec.setTerm fun b => val_main_v48 (F := Ideal) x2 x11 (ix1 b)) := by
  rw [val_main_v53_apply, val_main_v52_apply,
    part_mean x0 x1 x3 x4 x5 x6 x7 x8 x9 x10 lab chg hlab hchg,
    flow_mean x0 x1 x3 x4 x5 x6 x7 x8 x9 x10 lab chg hlab hchg,
    set_term x2 x11 hfin]
  rfl

end Cert.ReferenceIdeal.RefTotal

end
-- ==== Proof.lean ====
/-
  The certificate's five claims.

  Both programs compute, from twelve argument arrays, one number: over 128 events, the mean of the particle sums
  (for every particle the least pair loss over the 256 flow nodes, added up), plus the mean of the flow sums (for
  every node the least pair loss over the particles), plus the mean negative log-likelihood of the event's true
  multiplicity under the log-softmax of the node-averaged set-size logits. The pair loss is the class and the
  charge cross-entropy of the node's logits at the particle's labels, the two Euclidean distances and the squared
  energy difference (Proof/Spec.lean).

  The kernel takes the cross-entropies by equality masks against every class, the reference by gathering at the
  label; the two agree exactly where the labels lie in their ranges, which the precondition states beside the
  finiteness of the float inputs. The kernel clamps the sum of squares at zero before the root, which changes
  nothing since a sum of squares is not negative; and it negates the log-likelihoods before averaging where the
  reference averages and then negates, which agree because no log-likelihood is +infinity (the set-size logits are
  finite, so each log-softmax entry is real, and an out-of-range multiplicity reads the least element).

  The kernel's array after the run is read block by block off its frame (eight events a grid point), the host
  lines after the region off the frame's post, and the reference off its run, operation by operation.
-/
import proofs.«414995_j25194278158453_3_alg».proof.Defs
import proofs.«414995_j25194278158453_3_alg».proof.Proof.Gen.Kernel
import proofs.«414995_j25194278158453_3_alg».proof.Proof.Gen.KernelIdeal
import proofs.«414995_j25194278158453_3_alg».proof.Proof.Gen.ReferenceIdeal
import proofs.«414995_j25194278158453_3_alg».proof.Proof.Gen.Pre_finite_inputs
import proofs.«414995_j25194278158453_3_alg».proof.Proof.KernelFrame
import proofs.«414995_j25194278158453_3_alg».proof.Proof.KernelIdealFrame
import proofs.«414995_j25194278158453_3_alg».proof.Proof.RefRead
import proofs.«414995_j25194278158453_3_alg».proof.Proof.PreFacts
import proofs.«414995_j25194278158453_3_alg».proof.Proof.KArr
import proofs.«414995_j25194278158453_3_alg».proof.Proof.KTail
import proofs.«414995_j25194278158453_3_alg».proof.Proof.KRun
import proofs.«414995_j25194278158453_3_alg».proof.Proof.RefTotal
import Idealize.ShloMosaic.Lib.ValueIdx
import Idealize.ShloMosaic.Adequacy
import Idealize.ShloMosaic.Init

noncomputable section

namespace Cert.Proof

open Idealize.ShloMosaic Idealize.SL.Sem Idealize.ShloMosaic.ValueIdx

/-- The word-level kernel runs and leaves its arguments as they were. -/
theorem frame_kernel : Cert.frame_Kernel := fun m ρ _ => Cert.Kernel.GenP.frame m ρ

/-- So does the kernel read at the ideal values. -/
theorem frame_kernelIdeal : Cert.frame_KernelIdeal := fun m ρ _ => Cert.KernelIdeal.GenP.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end at the same number: each side's result is the
    specification's total of the particle sums, the flow sums and the set-size term. -/
theorem algebraic : Cert.algebraic_KernelIdeal_ReferenceIdeal := by
  intro m ρ m' ρ' hpre hagree
  refine ⟨fun c => Pipeline.afterTail₀ Cert.KernelIdeal.cfgs (Cert.KernelIdeal.GenP.dats (F := Ideal) m) 0
      (Cert.KernelIdeal.GenP.V0 m) [Cert.KernelIdeal.Gen.hostOps1, Cert.KernelIdeal.Gen.hostOps1_1, Cert.KernelIdeal.Gen.hostOps1_2, Cert.KernelIdeal.Gen.hostOps1_3, Cert.KernelIdeal.Gen.hostOps1_4] c Cert.KernelIdeal.main_v30,
    Cert.KernelIdeal.KRun.run m ρ, ?_⟩
  refine (θ_run Cert.ReferenceIdeal.defs _ _).mono (fun _ h c => ⟨(h c).1.trans ?_, (h c).2⟩)
    (Cert.ReferenceIdeal.ValueP.run (F := Ideal) m' ρ')
  obtain ⟨hfin, ⟨lab, hlab⟩, ⟨chg, hchg⟩⟩ := Cert.PreFacts.of_pre _ _ _ _ _ _ _ _ _ _ _ _ (hpre c)
  obtain ⟨e0, e1, e2, e3, e4, e5, e6, e7, e8, e9, e10, e11⟩ := hagree c
  funext i
  rw [eq_ix0 i, Cert.ReferenceIdeal.ReadP.val_main_v53_eq, e0, e1, e2, e3, e4, e5, e6, e7, e8, e9, e10, e11,
    Cert.ReferenceIdeal.RefTotal.total_eq _ _ _ _ _ _ _ _ _ _ _ _ lab chg hlab hchg hfin]
  exact (Cert.KernelIdeal.KTail.result_eq m c _ _
      (fun b l => Cert.KernelIdeal.KArr.arr11 m c lab chg hlab hchg b l)
      (fun b l => Cert.KernelIdeal.KArr.arr12 m c lab chg hlab hchg b l)
      (fun b s => Cert.KernelIdeal.KArr.arr13 m c b s)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
